-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x1024 : Shape := ⟨4, ![8, 19, 512, 1024]⟩
abbrev S8x512x1024 : Shape := ⟨3, ![8, 512, 1024]⟩
abbrev S_ : Shape := ⟨0, ![]⟩

class Facts : Prop where
  bcast_S_S8x19x512x1024 : S_.BroadcastsInDim S8x19x512x1024 (![] : Fin 0 → Fin S8x19x512x1024.rank)
  reducesTo_S8x19x512x1024_S_d0_1_2_3 : S8x19x512x1024.ReducesTo [0, 1, 2, 3] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_

variable [Facts]

def fn {F : FTy → Type} [FloatOps F] (main_arg0 : FVec F S8x19x512x1024 .f32) (main_arg1 : IVec S8x512x1024 32) : IVec S_ 1 :=
  let main_v0 : FVec F S8x19x512x1024 .f32 := Host.absf main_arg0
  let main_cst : FVec F S_ .f32 := constant S_ .f32 0x7F800000#32
  let main_v1 : FVec F S8x19x512x1024 .f32 := broadcastInDim S8x19x512x1024 ![] bcast_S_S8x19x512x1024 main_cst
  let main_v2 : IVec S8x19x512x1024 1 := cmpf .olt main_v0 main_v1
  let main_c : IVec S_ 1 := constantI S_ 1 1#1
  let main_v3 : IVec S_ 1 := (fun x v => Host.reduce IntOp.andi x v reducesTo_S8x19x512x1024_S_d0_1_2_3 h_S_) main_v2 main_c
  let main_c_0 : IVec S_ 32 := constantI S_ 32 0#32
  let main_v4 : IVec S8x512x1024 32 := broadcastInDim S8x512x1024 ![] bcast_S_S8x512x1024 main_c_0
  let main_v5 : IVec S8x512x1024 1 := cmpi .sge main_arg1 main_v4
  let main_c_1 : IVec S_ 32 := constantI S_ 32 19#32
  let main_v6 : IVec S8x512x1024 32 := broadcastInDim S8x512x1024 ![] bcast_S_S8x512x1024 main_c_1
  let main_v7 : IVec S8x512x1024 1 := cmpi .slt main_arg1 main_v6
  let main_v8 : IVec S8x512x1024 1 := andi main_v5 main_v7
  let main_c_2 : IVec S_ 32 := constantI S_ 32 255#32
  let main_v9 : IVec S8x512x1024 32 := broadcastInDim S8x512x1024 ![] bcast_S_S8x512x1024 main_c_2
  let main_v10 : IVec S8x512x1024 1 := cmpi .eq main_arg1 main_v9
  let main_v11 : IVec S8x512x1024 1 := ori main_v8 main_v10
  let main_c_3 : IVec S_ 1 := constantI S_ 1 1#1
  let main_v12 : IVec S_ 1 := (fun x v => Host.reduce IntOp.andi x v reducesTo_S8x512x1024_S_d0_1_2 h_S_) main_v11 main_c_3
  let main_v13 : IVec S_ 1 := andi main_v3 main_v12
  main_v13
-- ==== Kernel.lean ====
abbrev S8x19x512x1024 : Shape := ⟨4, ![8, 19, 512, 1024]⟩
abbrev S8x512x1024 : Shape := ⟨3, ![8, 512, 1024]⟩
abbrev S_ : Shape := ⟨0, ![]⟩
abbrev S19 : Shape := ⟨1, ![19]⟩
abbrev S8x1x512x1024 : Shape := ⟨4, ![8, 1, 512, 1024]⟩
abbrev S1x19x1x1 : Shape := ⟨4, ![1, 19, 1, 1]⟩
abbrev S8x19 : Shape := ⟨2, ![8, 19]⟩
abbrev S8 : Shape := ⟨1, ![8]⟩
abbrev S8x1 : Shape := ⟨2, ![8, 1]⟩
abbrev S8x1x19 : Shape := ⟨3, ![8, 1, 19]⟩
abbrev S32x8x128 : Shape := ⟨3, ![32, 8, 128]⟩
abbrev S1x19x128x1024 : Shape := ⟨4, ![1, 19, 128, 1024]⟩
abbrev S1x128x1024 : Shape := ⟨3, ![1, 128, 1024]⟩
abbrev S1x1x19 : Shape := ⟨3, ![1, 1, 19]⟩
abbrev S1x8x128 : Shape := ⟨3, ![1, 8, 128]⟩
abbrev S128x1024 : Shape := ⟨2, ![128, 1024]⟩
abbrev S1x1x128x1024 : Shape := ⟨4, ![1, 1, 128, 1024]⟩
abbrev S1 : Shape := ⟨1, ![1]⟩
abbrev S1x1x1 : Shape := ⟨3, ![1, 1, 1]⟩
abbrev S8x128 : Shape := ⟨2, ![8, 128]⟩

abbrev nBuf : Space → Nat
  | .hbm => 50
  | .vmem => 10
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S_, .i32⟩
  | .hbm, ⟨3, _⟩ => ⟨S8x512x1024, .i32⟩
  | .hbm, ⟨4, _⟩ => ⟨S8x512x1024, .i1⟩
  | .hbm, ⟨5, _⟩ => ⟨S_, .i32⟩
  | .hbm, ⟨6, _⟩ => ⟨S8x512x1024, .i32⟩
  | .hbm, ⟨7, _⟩ => ⟨S8x512x1024, .i1⟩
  | .hbm, ⟨8, _⟩ => ⟨S8x512x1024, .i1⟩
  | .hbm, ⟨9, _⟩ => ⟨S_, .i32⟩
  | .hbm, ⟨10, _⟩ => ⟨S_, .i32⟩
  | .hbm, ⟨11, _⟩ => ⟨S8x512x1024, .i32⟩
  | .hbm, ⟨12, _⟩ => ⟨S8x512x1024, .i32⟩
  | .hbm, ⟨13, _⟩ => ⟨S19, .i32⟩
  | .hbm, ⟨14, _⟩ => ⟨S8x1x512x1024, .i32⟩
  | .hbm, ⟨15, _⟩ => ⟨S1x19x1x1, .i32⟩
  | .hbm, ⟨16, _⟩ => ⟨S8x19x512x1024, .i32⟩
  | .hbm, ⟨17, _⟩ => ⟨S8x19x512x1024, .i32⟩
  | .hbm, ⟨18, _⟩ => ⟨S8x19x512x1024, .i1⟩
  | .hbm, ⟨19, _⟩ => ⟨S8x1x512x1024, .i1⟩
  | .hbm, ⟨20, _⟩ => ⟨S8x19x512x1024, .i1⟩
  | .hbm, ⟨21, _⟩ => ⟨S8x19x512x1024, .i1⟩
  | .hbm, ⟨22, _⟩ => ⟨S8x19x512x1024, .f32⟩
  | .hbm, ⟨23, _⟩ => ⟨S_, .f32⟩
  | .hbm, ⟨24, _⟩ => ⟨S8x19, .f32⟩
  | .hbm, ⟨25, _⟩ => ⟨S_, .f32⟩
  | .hbm, ⟨26, _⟩ => ⟨S8x19, .f32⟩
  | .hbm, ⟨27, _⟩ => ⟨S8x19, .i1⟩
  | .hbm, ⟨28, _⟩ => ⟨S_, .f32⟩
  | .hbm, ⟨29, _⟩ => ⟨S_, .f32⟩
  | .hbm, ⟨30, _⟩ => ⟨S8x19, .f32⟩
  | .hbm, ⟨31, _⟩ => ⟨S8x19, .f32⟩
  | .hbm, ⟨32, _⟩ => ⟨S_, .f32⟩
  | .hbm, ⟨33, _⟩ => ⟨S8, .f32⟩
  | .hbm, ⟨34, _⟩ => ⟨S8x1, .f32⟩
  | .hbm, ⟨35, _⟩ => ⟨S8x19, .f32⟩
  | .hbm, ⟨36, _⟩ => ⟨S8x19, .f32⟩
  | .hbm, ⟨37, _⟩ => ⟨S_, .f32⟩
  | .hbm, ⟨38, _⟩ => ⟨S8x19, .f32⟩
  | .hbm, ⟨39, _⟩ => ⟨S8x19, .f32⟩
  | .hbm, ⟨40, _⟩ => ⟨S8x1x19, .f32⟩
  | .hbm, ⟨41, _⟩ => ⟨S32x8x128, .f32⟩
  | .hbm, ⟨42, _⟩ => ⟨S32x8x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1x19x128x1024, .f32⟩
  | .local _ .vmem, ⟨1, _⟩ => ⟨S1x19x128x1024, .f32⟩
  | .local _ .vmem, ⟨2, _⟩ => ⟨S1x128x1024, .i32⟩
  | .local _ .vmem, ⟨3, _⟩ => ⟨S1x128x1024, .i32⟩
  | .local _ .vmem, ⟨4, _⟩ => ⟨S1x1x19, .f32⟩
  | .local _ .vmem, ⟨5, _⟩ => ⟨S1x1x19, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | _, _ => ⟨S8x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x19x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8x512x1024 : S_.BroadcastsInDim S8x512x1024 (![] : Fin 0 → Fin S8x512x1024.rank)
  bcast_S8x512x1024_S8x1x512x1024_0_2_3 : S8x512x1024.BroadcastsInDim S8x1x512x1024 (![0, 2, 3] : Fin 3 → Fin S8x1x512x1024.rank)
  bcast_S19_S1x19x1x1_1 : S19.BroadcastsInDim S1x19x1x1 (![1] : Fin 1 → Fin S1x19x1x1.rank)
  bcast_S8x1x512x1024_S8x19x512x1024_0_1_2_3 : S8x1x512x1024.BroadcastsInDim S8x19x512x1024 (![0, 1, 2, 3] : Fin 4 → Fin S8x19x512x1024.rank)
  bcast_S1x19x1x1_S8x19x512x1024_0_1_2_3 : S1x19x1x1.BroadcastsInDim S8x19x512x1024 (![0, 1, 2, 3] : Fin 4 → Fin S8x19x512x1024.rank)
  reducesTo_S8x19x512x1024_S8x19_d2_3 : S8x19x512x1024.ReducesTo [2, 3] S8x19
  h_S_ : 0 < S_.numel
  bcast_S_S8x19 : S_.BroadcastsInDim S8x19 (![] : Fin 0 → Fin S8x19.rank)
  reducesTo_S8x19_S8_d1 : S8x19.ReducesTo [1] S8
  bcast_S8_S8x1_0 : S8.BroadcastsInDim S8x1 (![0] : Fin 1 → Fin S8x1.rank)
  bcast_S8x1_S8x19_0_1 : S8x1.BroadcastsInDim S8x19 (![0, 1] : Fin 2 → Fin S8x19.rank)
  shapeCasts_S8x19_S8x1x19 : S8x19.ShapeCasts S8x1x19
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1x19_S1x1x19_0_0_0 : ∀ a, (![0, 0, 0] : Fin 3 → Nat) a + S1x1x19.size a ≤ S1x1x19.size a
  h_S1x1x19 : 0 < S1x1x19.numel
  shapeCasts_S1x1x19_S19 : S1x1x19.ShapeCasts S19
  natLt_1_32 : 1 < 32
  inb_S1x19x128x1024_S1x1x128x1024_0_0_0_0 : ∀ a, (![0, 0, 0, 0] : Fin 4 → Nat) a + S1x1x128x1024.size a ≤ S1x19x128x1024.size a
  h_S1x1x128x1024 : 0 < S1x1x128x1024.numel
  shapeCasts_S1x1x128x1024_S128x1024 : S1x1x128x1024.ShapeCasts S128x1024
  inb_S1x19x128x1024_S1x1x128x1024_0_1_0_0 : ∀ a, (![0, 1, 0, 0] : Fin 4 → Nat) a + S1x1x128x1024.size a ≤ S1x19x128x1024.size a
  inb_S1x19x128x1024_S1x1x128x1024_0_2_0_0 : ∀ a, (![0, 2, 0, 0] : Fin 4 → Nat) a + S1x1x128x1024.size a ≤ S1x19x128x1024.size a
  inb_S1x19x128x1024_S1x1x128x1024_0_3_0_0 : ∀ a, (![0, 3, 0, 0] : Fin 4 → Nat) a + S1x1x128x1024.size a ≤ S1x19x128x1024.size a
  inb_S1x19x128x1024_S1x1x128x1024_0_4_0_0 : ∀ a, (![0, 4, 0, 0] : Fin 4 → Nat) a + S1x1x128x1024.size a ≤ S1x19x128x1024.size a
  inb_S1x19x128x1024_S1x1x128x1024_0_5_0_0 : ∀ a, (![0, 5, 0, 0] : Fin 4 → Nat) a + S1x1x128x1024.size a ≤ S1x19x128x1024.size a
  inb_S1x19x128x1024_S1x1x128x1024_0_6_0_0 : ∀ a, (![0, 6, 0, 0] : Fin 4 → Nat) a + S1x1x128x1024.size a ≤ S1x19x128x1024.size a
  inb_S1x19x128x1024_S1x1x128x1024_0_7_0_0 : ∀ a, (![0, 7, 0, 0] : Fin 4 → Nat) a + S1x1x128x1024.size a ≤ S1x19x128x1024.size a
  inb_S1x19x128x1024_S1x1x128x1024_0_8_0_0 : ∀ a, (![0, 8, 0, 0] : Fin 4 → Nat) a + S1x1x128x1024.size a ≤ S1x19x128x1024.size a
  inb_S1x19x128x1024_S1x1x128x1024_0_9_0_0 : ∀ a, (![0, 9, 0, 0] : Fin 4 → Nat) a + S1x1x128x1024.size a ≤ S1x19x128x1024.size a
  inb_S1x19x128x1024_S1x1x128x1024_0_10_0_0 : ∀ a, (![0, 10, 0, 0] : Fin 4 → Nat) a + S1x1x128x1024.size a ≤ S1x19x128x1024.size a
  inb_S1x19x128x1024_S1x1x128x1024_0_11_0_0 : ∀ a, (![0, 11, 0, 0] : Fin 4 → Nat) a + S1x1x128x1024.size a ≤ S1x19x128x1024.size a
  inb_S1x19x128x1024_S1x1x128x1024_0_12_0_0 : ∀ a, (![0, 12, 0, 0] : Fin 4 → Nat) a + S1x1x128x1024.size a ≤ S1x19x128x1024.size a
  inb_S1x19x128x1024_S1x1x128x1024_0_13_0_0 : ∀ a, (![0, 13, 0, 0] : Fin 4 → Nat) a + S1x1x128x1024.size a ≤ S1x19x128x1024.size a
  inb_S1x19x128x1024_S1x1x128x1024_0_14_0_0 : ∀ a, (![0, 14, 0, 0] : Fin 4 → Nat) a + S1x1x128x1024.size a ≤ S1x19x128x1024.size a
  inb_S1x19x128x1024_S1x1x128x1024_0_15_0_0 : ∀ a, (![0, 15, 0, 0] : Fin 4 → Nat) a + S1x1x128x1024.size a ≤ S1x19x128x1024.size a
  inb_S1x19x128x1024_S1x1x128x1024_0_16_0_0 : ∀ a, (![0, 16, 0, 0] : Fin 4 → Nat) a + S1x1x128x1024.size a ≤ S1x19x128x1024.size a
  inb_S1x19x128x1024_S1x1x128x1024_0_17_0_0 : ∀ a, (![0, 17, 0, 0] : Fin 4 → Nat) a + S1x1x128x1024.size a ≤ S1x19x128x1024.size a
  inb_S1x19x128x1024_S1x1x128x1024_0_18_0_0 : ∀ a, (![0, 18, 0, 0] : Fin 4 → Nat) a + S1x1x128x1024.size a ≤ S1x19x128x1024.size a
  slices_S19_o0_S1 : S19.Slices ![0] S1
  inpos_S1_p0 : ∀ a, (![0] : Fin 1 → Nat) a < S1.size a
  slices_S19_o1_S1 : S19.Slices ![1] S1
  slices_S19_o2_S1 : S19.Slices ![2] S1
  slices_S19_o3_S1 : S19.Slices ![3] S1
  slices_S19_o4_S1 : S19.Slices ![4] S1
  slices_S19_o5_S1 : S19.Slices ![5] S1
  slices_S19_o6_S1 : S19.Slices ![6] S1
  slices_S19_o7_S1 : S19.Slices ![7] S1
  slices_S19_o8_S1 : S19.Slices ![8] S1
  slices_S19_o9_S1 : S19.Slices ![9] S1
  slices_S19_o10_S1 : S19.Slices ![10] S1
  slices_S19_o11_S1 : S19.Slices ![11] S1
  slices_S19_o12_S1 : S19.Slices ![12] S1
  slices_S19_o13_S1 : S19.Slices ![13] S1
  slices_S19_o14_S1 : S19.Slices ![14] S1
  slices_S19_o15_S1 : S19.Slices ![15] S1
  slices_S19_o16_S1 : S19.Slices ![16] S1
  slices_S19_o17_S1 : S19.Slices ![17] S1
  slices_S19_o18_S1 : S19.Slices ![18] S1
  shapeCasts_S128x1024_S1x128x1024 : S128x1024.ShapeCasts S1x128x1024
  reduces_S1x128x1024_S1 : S1x128x1024.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S32x8x128_S_d0_1_2 : S32x8x128.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x1024.size a ≤ S8x19x512x1024.size a
  hwx0_0 : ∀ i : grid0.Coords, EltTy.bits .f32 = 32 ∨ (Rect.block (s := S8x19x512x1024) S1x19x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S8x512x1024.size a
  hwx0_1 : ∀ i : grid0.Coords, EltTy.bits .i32 = 32 ∨ (Rect.block (s := S8x512x1024) S1x128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x19.size a ≤ S8x1x19.size a
  hwx0_2 : ∀ i : grid0.Coords, EltTy.bits .f32 = 32 ∨ (Rect.block (s := S8x1x19) S1x1x19.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S32x8x128.size a
  hwx0_3 : ∀ i : grid0.Coords, EltTy.bits .f32 = 32 ∨ (Rect.block (s := S32x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S32x8x128.size a
  hwx0_4 : ∀ i : grid0.Coords, EltTy.bits .f32 = 32 ∨ (Rect.block (s := S32x8x128) S1x8x128.size (cc0_transform_4 i) (hinb0_4 i)).WholeWords (EltTy.packing .f32)

variable [Facts₀]

abbrev win0_0 : Pipeline.Window sig grid0 :=
  Pipeline.Window.ofSpec (Memref.whole main_arg0) S1x19x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1x19.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x19x512x1024 : Shape := ⟨4, ![8, 19, 512, 1024]⟩
abbrev S8x512x1024 : Shape := ⟨3, ![8, 512, 1024]⟩
abbrev S_ : Shape := ⟨0, ![]⟩
abbrev S8x1x512x1024 : Shape := ⟨4, ![8, 1, 512, 1024]⟩
abbrev S8 : Shape := ⟨1, ![8]⟩
abbrev S8x1x1 : Shape := ⟨3, ![8, 1, 1]⟩
abbrev S4194304 : Shape := ⟨1, ![4194304]⟩
abbrev S152 : Shape := ⟨1, ![152]⟩
abbrev S4194304x1 : Shape := ⟨2, ![4194304, 1]⟩
abbrev S8x19 : Shape := ⟨2, ![8, 19]⟩
abbrev S8x1 : Shape := ⟨2, ![8, 1]⟩
abbrev S8x1x512x1024x1 : Shape := ⟨5, ![8, 1, 512, 1024, 1]⟩
abbrev S1 : Shape := ⟨1, ![1]⟩
abbrev S1x1x1x1x1 : Shape := ⟨5, ![1, 1, 1, 1, 1]⟩
abbrev S8x524288 : Shape := ⟨2, ![8, 524288]⟩
abbrev S8x524288x1 : Shape := ⟨3, ![8, 524288, 1]⟩
abbrev S1x1x1 : Shape := ⟨3, ![1, 1, 1]⟩

abbrev nBuf : Space → Nat
  | .hbm => 131
  | .vmem => 0
  | .smem => 0
  | _ => 0

abbrev hbmTy0_0 (i : Nat) : BufTy := match i % 128 with
  | 0 => ⟨S8x19x512x1024, .f32⟩
  | 1 => ⟨S8x512x1024, .i32⟩
  | 2 => ⟨S_, .f32⟩
  | 3 => ⟨S8x512x1024, .f32⟩
  | 4 => ⟨S_, .f32⟩
  | 5 => ⟨S8x512x1024, .f32⟩
  | 6 => ⟨S8x512x1024, .f32⟩
  | 7 => ⟨S8x1x512x1024, .f32⟩
  | 8 => ⟨S8x19x512x1024, .f32⟩
  | 9 => ⟨S8x19x512x1024, .f32⟩
  | 10 => ⟨S8x19x512x1024, .f32⟩
  | 11 => ⟨S_, .f32⟩
  | 12 => ⟨S8x512x1024, .f32⟩
  | 13 => ⟨S8x1x512x1024, .f32⟩
  | 14 => ⟨S8x1x512x1024, .f32⟩
  | 15 => ⟨S8x19x512x1024, .f32⟩
  | 16 => ⟨S8x19x512x1024, .f32⟩
  | 17 => ⟨S_, .i32⟩
  | 18 => ⟨S8x512x1024, .i32⟩
  | 19 => ⟨S8x512x1024, .i1⟩
  | 20 => ⟨S_, .i32⟩
  | 21 => ⟨S8x512x1024, .i32⟩
  | 22 => ⟨S8x512x1024, .i1⟩
  | 23 => ⟨S8x512x1024, .i1⟩
  | 24 => ⟨S_, .i32⟩
  | 25 => ⟨S_, .i32⟩
  | 26 => ⟨S8x512x1024, .i32⟩
  | 27 => ⟨S8x512x1024, .i32⟩
  | 28 => ⟨S8, .i32⟩
  | 29 => ⟨S8x1x1, .i32⟩
  | 30 => ⟨S_, .i32⟩
  | 31 => ⟨S8x1x1, .i32⟩
  | 32 => ⟨S8x1x1, .i32⟩
  | 33 => ⟨S8x512x1024, .i32⟩
  | 34 => ⟨S8x512x1024, .i32⟩
  | 35 => ⟨S4194304, .i32⟩
  | 36 => ⟨S_, .f32⟩
  | 37 => ⟨S152, .f32⟩
  | 38 => ⟨S4194304, .i1⟩
  | 39 => ⟨S4194304, .f32⟩
  | 40 => ⟨S_, .i32⟩
  | 41 => ⟨S4194304, .i32⟩
  | 42 => ⟨S4194304, .i1⟩
  | 43 => ⟨S_, .i32⟩
  | 44 => ⟨S4194304, .i32⟩
  | 45 => ⟨S4194304, .i32⟩
  | 46 => ⟨S4194304, .i32⟩
  | 47 => ⟨S4194304x1, .i32⟩
  | 48 => ⟨S152, .f32⟩
  | 49 => ⟨S8x19, .f32⟩
  | 50 => ⟨S_, .f32⟩
  | 51 => ⟨S8x19, .f32⟩
  | 52 => ⟨S8x19, .i1⟩
  | 53 => ⟨S_, .f32⟩
  | 54 => ⟨S_, .f32⟩
  | 55 => ⟨S8x19, .f32⟩
  | 56 => ⟨S8x19, .f32⟩
  | 57 => ⟨S_, .f32⟩
  | 58 => ⟨S8, .f32⟩
  | 59 => ⟨S8x1, .f32⟩
  | 60 => ⟨S8x19, .f32⟩
  | 61 => ⟨S8x19, .f32⟩
  | 62 => ⟨S_, .f32⟩
  | 63 => ⟨S8x19, .f32⟩
  | 64 => ⟨S8x19, .f32⟩
  | 65 => ⟨S_, .i32⟩
  | 66 => ⟨S8x512x1024, .i32⟩
  | 67 => ⟨S8x512x1024, .i1⟩
  | 68 => ⟨S_, .i32⟩
  | 69 => ⟨S_, .i32⟩
  | 70 => ⟨S8x512x1024, .i32⟩
  | 71 => ⟨S8x512x1024, .i32⟩
  | 72 => ⟨S8x1x512x1024, .i32⟩
  | 73 => ⟨S_, .i32⟩
  | 74 => ⟨S8x1x512x1024, .i32⟩
  | 75 => ⟨S8x1x512x1024, .i1⟩
  | 76 => ⟨S_, .i32⟩
  | 77 => ⟨S8x1x512x1024, .i32⟩
  | 78 => ⟨S8x1x512x1024, .i32⟩
  | 79 => ⟨S8x1x512x1024, .i32⟩
  | 80 => ⟨S8x1x512x1024x1, .i32⟩
  | 81 => ⟨S1, .i32⟩
  | 82 => ⟨S_, .i32⟩
  | 83 => ⟨S8x1x512x1024x1, .i32⟩
  | 84 => ⟨S8x1x512x1024x1, .i1⟩
  | 85 => ⟨S1x1x1x1x1, .i32⟩
  | 86 => ⟨S8x1x512x1024x1, .i32⟩
  | 87 => ⟨S8x1x512x1024x1, .i1⟩
  | 88 => ⟨S8x1x512x1024x1, .i1⟩
  | 89 => ⟨S_, .i1⟩
  | 90 => ⟨S8x1x512x1024, .i1⟩
  | 91 => ⟨S8x1x512x1024, .f32⟩
  | 92 => ⟨S_, .f32⟩
  | 93 => ⟨S8x1x512x1024, .f32⟩
  | 94 => ⟨S8x1x512x1024, .f32⟩
  | 95 => ⟨S8x512x1024, .f32⟩
  | 96 => ⟨S8x524288, .i32⟩
  | 97 => ⟨S_, .i32⟩
  | 98 => ⟨S8x524288, .i32⟩
  | 99 => ⟨S8x524288, .i1⟩
  | 100 => ⟨S_, .i32⟩
  | 101 => ⟨S8x524288, .i32⟩
  | 102 => ⟨S8x524288, .i32⟩
  | 103 => ⟨S8x524288, .i32⟩
  | 104 => ⟨S8x524288x1, .i32⟩
  | 105 => ⟨S1, .i32⟩
  | 106 => ⟨S_, .i32⟩
  | 107 => ⟨S8x524288x1, .i32⟩
  | 108 => ⟨S8x524288x1, .i1⟩
  | 109 => ⟨S1x1x1, .i32⟩
  | 110 => ⟨S8x524288x1, .i32⟩
  | 111 => ⟨S8x524288x1, .i1⟩
  | 112 => ⟨S8x524288x1, .i1⟩
  | 113 => ⟨S_, .i1⟩
  | 114 => ⟨S8x524288, .i1⟩
  | 115 => ⟨S8x524288, .f32⟩
  | 116 => ⟨S_, .f32⟩
  | 117 => ⟨S8x524288, .f32⟩
  | 118 => ⟨S8x524288, .f32⟩
  | 119 => ⟨S8x512x1024, .f32⟩
  | 120 => ⟨S8x512x1024, .f32⟩
  | 121 => ⟨S8x512x1024, .f32⟩
  | 122 => ⟨S8x512x1024, .f32⟩
  | 123 => ⟨S8x512x1024, .f32⟩
  | 124 => ⟨S_, .f32⟩
  | 125 => ⟨S_, .f32⟩
  | 126 => ⟨S_, .f32⟩
  | 127 => ⟨S_, .f32⟩
  | _ => ⟨S8x19x512x1024, .f32⟩

abbrev hbmTy0_1 (i : Nat) : BufTy := match i % 128 with
  | 0 => ⟨S_, .f32⟩
  | 1 => ⟨S_, .f32⟩
  | 2 => ⟨S_, .f32⟩
  | _ => ⟨S8x19x512x1024, .f32⟩

abbrev hbmTy (i : Nat) : BufTy := match i / 128 with
  | 0 => hbmTy0_0 i
  | 1 => hbmTy0_1 i
  | _ => ⟨S8x19x512x1024, .f32⟩

abbrev bufTy : (tb : Table) → Fin (tcTables nBuf tb) → BufTy
  | .hbm, ⟨i, _⟩ => hbmTy i
  | _, _ => ⟨S8x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_1 : Ref sig .tc := ⟨.hbm, 24, rfl⟩
abbrev main_call1_v0 : Ref sig .tc := ⟨.hbm, 25, rfl⟩
abbrev main_call1_v1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_call2_v0 : Ref sig .tc := ⟨.hbm, 54, rfl⟩
abbrev main_call2_v1 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_8 : Ref sig .tc := ⟨.hbm, 62, rfl⟩
abbrev main_v32 : Ref sig .tc := ⟨.hbm, 63, rfl⟩
abbrev main_v33 : Ref sig .tc := ⟨.hbm, 64, rfl⟩
abbrev main_c_9 : Ref sig .tc := ⟨.hbm, 65, rfl⟩
abbrev main_v34 : Ref sig .tc := ⟨.hbm, 66, rfl⟩
abbrev main_v35 : Ref sig .tc := ⟨.hbm, 67, rfl⟩
abbrev main_c_10 : Ref sig .tc := ⟨.hbm, 68, rfl⟩
abbrev main_call3_v0 : Ref sig .tc := ⟨.hbm, 69, rfl⟩
abbrev main_call3_v1 : Ref sig .tc := ⟨.hbm, 70, rfl⟩
abbrev main_v36 : Ref sig .tc := ⟨.hbm, 71, rfl⟩
abbrev main_v37 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_cst : Ref sig .tc := ⟨.hbm, 92, rfl⟩
abbrev main_call4_v14 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_call5_c : Ref sig .tc := ⟨.hbm, 97, rfl⟩
abbrev main_call5_v0 : Ref sig .tc := ⟨.hbm, 98, rfl⟩
abbrev main_call5_v1 : Ref sig .tc := ⟨.hbm, 99, rfl⟩
abbrev main_call5_c_0 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_call5_v5 : Ref sig .tc := ⟨.hbm, 104, rfl⟩
abbrev main_call5_c_1 : Ref sig .tc := ⟨.hbm, 105, rfl⟩
abbrev main_call5_c_2 : Ref sig .tc := ⟨.hbm, 106, rfl⟩
abbrev main_call5_v6 : Ref sig .tc := ⟨.hbm, 107, rfl⟩
abbrev main_call5_v7 : Ref sig .tc := ⟨.hbm, 108, rfl⟩
abbrev main_call5_v8 : Ref sig .tc := ⟨.hbm, 109, rfl⟩
abbrev main_call5_v9 : Ref sig .tc := ⟨.hbm, 110, rfl⟩
abbrev main_call5_v10 : Ref sig .tc := ⟨.hbm, 111, rfl⟩
abbrev main_call5_v11 : Ref sig .tc := ⟨.hbm, 112, rfl⟩
abbrev main_call5_c_3 : Ref sig .tc := ⟨.hbm, 113, rfl⟩
abbrev main_call5_v12 : Ref sig .tc := ⟨.hbm, 114, rfl⟩
abbrev main_call5_v13 : Ref sig .tc := ⟨.hbm, 115, rfl⟩
abbrev main_call5_cst : Ref sig .tc := ⟨.hbm, 116, rfl⟩
abbrev main_call5_v14 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_cst_11 : Ref sig .tc := ⟨.hbm, 124, rfl⟩
abbrev main_v47 : Ref sig .tc := ⟨.hbm, 125, rfl⟩
abbrev main_cst_12 : Ref sig .tc := ⟨.hbm, 126, rfl⟩
abbrev main_v48 : Ref sig .tc := ⟨.hbm, 127, rfl⟩
abbrev main_cst_13 : Ref sig .tc := ⟨.hbm, 128, rfl⟩
abbrev main_v49 : Ref sig .tc := ⟨.hbm, 129, rfl⟩
abbrev main_v50 : Ref sig .tc := ⟨.hbm, 130, rfl⟩

abbrev nD : Nat := 1
abbrev τ : Topo := Topo.v7x

variable {F : FTy → Type} [FloatOps F]

class Facts₀ : Prop where
  reducesTo_S8x19x512x1024_S8x512x1024_d1 : S8x19x512x1024.ReducesTo [1] S8x512x1024
  h_S_ : 0 < S_.numel
  bcast_S_S8x512x1024 : S_.BroadcastsInDim S8x512x1024 (![] : Fin 0 → Fin S8x512x1024.rank)
  bcast_S8x512x1024_S8x1x512x1024_0_2_3 : S8x512x1024.BroadcastsInDim S8x1x512x1024 (![0, 2, 3] : Fin 3 → Fin S8x1x512x1024.rank)
  bcast_S8x1x512x1024_S8x19x512x1024_0_1_2_3 : S8x1x512x1024.BroadcastsInDim S8x19x512x1024 (![0, 1, 2, 3] : Fin 4 → Fin S8x19x512x1024.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x1024_0_1_2 : S8x1x1.BroadcastsInDim S8x512x1024 (![0, 1, 2] : Fin 3 → Fin S8x512x1024.rank)
  shapeCasts_S8x512x1024_S4194304 : S8x512x1024.ShapeCasts S4194304
  bcast_S_S152 : S_.BroadcastsInDim S152 (![] : Fin 0 → Fin S152.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  shapeCasts_S152_S8x19 : S152.ShapeCasts S8x19
  bcast_S_S8x19 : S_.BroadcastsInDim S8x19 (![] : Fin 0 → Fin S8x19.rank)
  reducesTo_S8x19_S8_d1 : S8x19.ReducesTo [1] S8
  bcast_S8_S8x1_0 : S8.BroadcastsInDim S8x1 (![0] : Fin 1 → Fin S8x1.rank)
  bcast_S8x1_S8x19_0_1 : S8x1.BroadcastsInDim S8x19 (![0, 1] : Fin 2 → Fin S8x19.rank)
  bcast_S_S8x1x512x1024 : S_.BroadcastsInDim S8x1x512x1024 (![] : Fin 0 → Fin S8x1x512x1024.rank)
  shapeCasts_S8x1x512x1024_S8x1x512x1024x1 : S8x1x512x1024.ShapeCasts S8x1x512x1024x1
  bcast_S_S8x1x512x1024x1 : S_.BroadcastsInDim S8x1x512x1024x1 (![] : Fin 0 → Fin S8x1x512x1024x1.rank)
  bcast_S1_S1x1x1x1x1_4 : S1.BroadcastsInDim S1x1x1x1x1 (![4] : Fin 1 → Fin S1x1x1x1x1.rank)
  bcast_S1x1x1x1x1_S8x1x512x1024x1_0_1_2_3_4 : S1x1x1x1x1.BroadcastsInDim S8x1x512x1024x1 (![0, 1, 2, 3, 4] : Fin 5 → Fin S8x1x512x1024x1.rank)
  reducesTo_S8x1x512x1024x1_S8x1x512x1024_d4 : S8x1x512x1024x1.ReducesTo [4] S8x1x512x1024
  shapeCasts_S8x1x512x1024_S8x512x1024 : S8x1x512x1024.ShapeCasts S8x512x1024
  shapeCasts_S8x512x1024_S8x524288 : S8x512x1024.ShapeCasts S8x524288
  bcast_S_S8x524288 : S_.BroadcastsInDim S8x524288 (![] : Fin 0 → Fin S8x524288.rank)
  shapeCasts_S8x524288_S8x524288x1 : S8x524288.ShapeCasts S8x524288x1
  bcast_S_S8x524288x1 : S_.BroadcastsInDim S8x524288x1 (![] : Fin 0 → Fin S8x524288x1.rank)
  bcast_S1_S1x1x1_2 : S1.BroadcastsInDim S1x1x1 (![2] : Fin 1 → Fin S1x1x1.rank)
  bcast_S1x1x1_S8x524288x1_0_1_2 : S1x1x1.BroadcastsInDim S8x524288x1 (![0, 1, 2] : Fin 3 → Fin S8x524288x1.rank)
  reducesTo_S8x524288x1_S8x524288_d2 : S8x524288x1.ReducesTo [2] S8x524288
  shapeCasts_S8x524288_S8x512x1024 : S8x524288.ShapeCasts S8x512x1024
  reducesTo_S8x512x1024_S_d0_1_2 : S8x512x1024.ReducesTo [0, 1, 2] S_
  scatter_S152_S4194304x1_S4194304_n_0_0_1_wf : ScatterDims.WF S152 S4194304x1 S4194304 [] [0] [0] 1
  gather_S8x19x512x1024_S8x1x512x1024x1_S8x1x512x1024_n_1_023_023_1_4_1111_wf : GatherDims.WF S8x19x512x1024 S8x1x512x1024x1 S8x1x512x1024 [] [1] [0, 2, 3] [1] [0, 2, 3] 4 ![1, 1, 1, 1]
  gather_S8x19_S8x524288x1_S8x524288_n_1_0_0_1_2_11_wf : GatherDims.WF S8x19 S8x524288x1 S8x524288 [] [1] [0] [1] [0] 2 ![1, 1]

variable [Facts₀]

def scatter_S152_S4194304x1_S4194304_n_0_0_1 : ScatterDims S152 S4194304x1 S4194304 where
  updateWindowDims := []
  insertedWindowDims := [0]
  scatterDimsToOperandDims := [0]
  indexVectorDim := 1
  wf := scatter_S152_S4194304x1_S4194304_n_0_0_1_wf
def gather_S8x19x512x1024_S8x1x512x1024x1_S8x1x512x1024_n_1_023_023_1_4_1111 : GatherDims S8x19x512x1024 S8x1x512x1024x1 S8x1x512x1024 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x19x512x1024_S8x1x512x1024x1_S8x1x512x1024_n_1_023_023_1_4_1111_wf
def gather_S8x19_S8x524288x1_S8x524288_n_1_0_0_1_2_11 : GatherDims S8x19 S8x524288x1 S8x524288 where
  offsetDims := []
  collapsedSliceDims := [1]
  operandBatchingDims := [0]
  startIndicesBatchingDims := [0]
  startIndexMap := [1]
  indexVectorDim := 2
  sliceSizes := ![1, 1]
  wf := gather_S8x19_S8x524288x1_S8x524288_n_1_0_0_1_2_11_wf

class Facts : Prop extends Facts₀ where

variable [Facts]
-- ==== Proof.Spec.lean ====
/-
  The weighted cross-entropy of one pixel, as both programs compute it at the exact extended reals.

  A pixel carries a class vector `z : Fin 19 → EReal` (its 19 logits), a weight vector `w : Fin 19 → EReal`
  (its sample's class weights) and a label word `t`.  A label is a class id below 19, or the ignore word 255,
  which is read as class 0 and multiplied by the indicator 0.

  `pixR` is the textbook form: minus the log-softmax at the label's class, times that class's weight, times the
  indicator.  `pixK` is the same quantity computed channel by channel: a running maximum from `⊥`, a running sum
  of exponentials from `0`, and the class's logit and weight picked out by a chain of nineteen equality tests
  that starts from `0`.  The two agree on every admissible label (Proof/PixelLaw.lean).
-/
import Idealize.ShloMosaic.PureOps.Ideal
import Idealize.ShloMosaic.Lib.ValueIdx

noncomputable section

namespace Cert.WCE

open Idealize.ShloMosaic Idealize.ShloMosaic.ValueIdx

/-- A label word is admissible: a class id below 19, or the ignore word 255. -/
def LabelOK (t : BitVec 32) : Prop := t.toNat < 19 ∨ t = 255#32

/-- The indicator of "not the ignore word", as an extended real. -/
def validF (t : BitVec 32) : EReal := if t = 255#32 then 0 else 1

/-- The class word a label is read at: the label itself, class 0 for the ignore word. -/
def clampT (t : BitVec 32) : BitVec 32 := if t = 255#32 then 0#32 else t

/-- The class a label is read at, as a channel index (total: reduced modulo 19; on an admissible label it is
    the class word's value). -/
def cls (t : BitVec 32) : Fin 19 := ⟨(clampT t).toNat % 19, Nat.mod_lt _ (by norm_num)⟩

/-- The maximum of a pixel's logits. -/
def cmax (z : Fin 19 → EReal) : EReal := (Finset.univ : Finset (Fin 19)).fold max ⊥ z

/-- The sum over the channels of the exponentials of the logits less their maximum. -/
def csumexp (z : Fin 19 → EReal) : EReal := ∑ k : Fin 19, Ideal.exp (z k - cmax z)

/-- One pixel's weighted negative log-likelihood, textbook form. -/
def pixR (z w : Fin 19 → EReal) (t : BitVec 32) : EReal :=
  (-((z (cls t) - cmax z) - Ideal.log (csumexp z)) * w (cls t)) * validF t

/-- The running maximum over the channels in order, from `⊥`. -/
def kmax (z : Fin 19 → EReal) : EReal := (List.finRange 19).foldl (fun a k => max a (z k)) ⊥

/-- The running sum of exponentials over the channels in order, from `0`. -/
def ksumexp (z : Fin 19 → EReal) : EReal := (List.finRange 19).foldl (fun a k => a + Ideal.exp (z k - kmax z)) 0

/-- A channel's entry picked by nineteen equality tests of the class word in order, from `0`. -/
def kpick (a : Fin 19 → EReal) (t : BitVec 32) : EReal :=
  (List.finRange 19).foldl (fun r k => if clampT t = BitVec.ofNat 32 k.val then a k else r) 0

/-- One pixel's weighted negative log-likelihood, channel by channel. -/
def pixK (z w : Fin 19 → EReal) (t : BitVec 32) : EReal :=
  ((0 - ((kpick z t - kmax z) - Ideal.log (ksumexp z))) * kpick w t) * validF t

/-- The channels in order. -/
theorem finRange19 : List.finRange 19 = [0, 1, 2, 3, 4, 5, 6, 7, 8, 9, 10, 11, 12, 13, 14, 15, 16, 17, 18] := by decide

end Cert.WCE

end
-- ==== Proof.Labels.lean ====
/-
  The precondition read back: it is the conjunction of two all-reductions, and the second says of every label
  word that it is at least 0 and below 19 as a signed word, or equal to 255 — that is, admissible.
-/
import proofs.«426354_j20512763806283_3_alg».proof.Defs
import proofs.«426354_j20512763806283_3_alg».proof.Proof.Gen.KernelIdeal
import proofs.«426354_j20512763806283_3_alg».proof.Proof.Gen.Pre_finite_inputs
import proofs.«426354_j20512763806283_3_alg».proof.Proof.Spec
import Idealize.ShloMosaic.Lib.ReduceAll
import Idealize.ShloMosaic.Lib.StableHlo.Predicate

set_option maxRecDepth 16384

noncomputable section

namespace Cert.KernelIdeal.Labels

open Cert.KernelIdeal Cert.WCE Idealize.ShloMosaic Idealize.ShloMosaic.TcCoe Idealize.SL.Sem Idealize.ShloMosaic.ValueIdx

/-- A word that is at least 0 and below 19 read signed, or equal to 255, is an admissible label. -/
theorem labelOK_of_words (t : BitVec 32)
    (h : IntOp.ori (IntOp.andi (IntOp.cmpi .sge t 0#32) (IntOp.cmpi .slt t 19#32)) (IntOp.cmpi .eq t 255#32) = 1#1) :
    LabelOK t := by
  rcases IntOp.ori_eq_one.1 h with h | h
  · obtain ⟨h0, h19⟩ := IntOp.andi_eq_one.1 h
    rw [IntOp.cmpi_sge] at h0
    rw [IntOp.cmpi_slt] at h19
    rw [show (0#32 : BitVec 32).toInt = 0 from by decide] at h0
    rw [show (19#32 : BitVec 32).toInt = 19 from by decide] at h19
    left
    have hc := BitVec.toInt_eq_toNat_cond t
    split at hc <;> omega
  · right
    exact IntOp.cmpi_eq.1 h

theorem labelOK_of_pre (m : (ℓ : Loc nD τ sig) → Buf (Elt Ideal) ℓ) (hpre : Cert.Pre_KernelIdeal m) (c : Dev nD)
    (i : S8x512x1024.Idx) : LabelOK (m ((c.tc : Thread nD τ).loc main_arg1) i) := by
  have h := congrFun (hpre c) ValueIdx.ix0
  dsimp only [Cert.Pre_finite_inputs.fn] at h
  obtain ⟨-, h2⟩ := IntOp.andi_eq_one.1 h
  haveI : Subsingleton Cert.Pre_finite_inputs.S_.Idx := ⟨fun a b => funext fun d => d.elim0⟩
  have h3 := Host.reduce_andi_all _ _ _ _ _ h2 i
  have hb : ∀ (b : BitVec 32), broadcastInDim Cert.Pre_finite_inputs.S8x512x1024 ![]
      Cert.Pre_finite_inputs.Facts.bcast_S_S8x512x1024 (constantI Cert.Pre_finite_inputs.S_ 32 b) i = b :=
    fun b => StableHlo.Predicate.bcast_scalar _ (by decide) _ _
  change IntOp.ori (IntOp.andi (IntOp.cmpi .sge _ (broadcastInDim _ _ _ _ i)) (IntOp.cmpi .slt _ (broadcastInDim _ _ _ _ i)))
    (IntOp.cmpi .eq _ (broadcastInDim _ _ _ _ i)) = 1#1 at h3
  rw [hb, hb, hb] at h3
  exact labelOK_of_words _ h3

end Cert.KernelIdeal.Labels

end
-- ==== Proof.Grid.lean ====
/-
  The grid of the kernel's one region: 32 points, point `b` working on sample `b / 4` and on the rows
  `(b % 4) * 128 … (b % 4) * 128 + 127` of that sample's 512 rows, all 1024 columns.
-/
import Idealize.ShloMosaic.Lib.ValueIdx

namespace Cert.WCE

/-- The sample a grid point works on. -/
def blkN (b : Fin 32) : Fin 8 := ⟨b.val / 4, by omega⟩

/-- The row of the sample that row `r` of a grid point's block is. -/
def blkRow (b : Fin 32) (r : Fin 128) : Fin 512 := ⟨(b.val % 4) * 128 + r.val, by omega⟩

end Cert.WCE
-- ==== Proof.KernelRun.lean ====
/-
  The idealized kernel's run read back.  Every weakly fair execution ends with the result at the quotient of the
  total of the numerators' array by the larger of the total of the denominators' array and one, where each of the
  two arrays, slice `b` of 32, is what grid point `b`'s body left (the blocks tile the arrays), and grid point
  `b`'s three input blocks are: the 19 × 128 × 1024 logits of sample `b / 4` at rows `(b % 4) * 128 …`, the
  labels there, and row `b / 4` of the class-weight table as the host operations before the region left it.
-/
import proofs.«426354_j20512763806283_3_alg».proof.Proof.Gen.KernelIdeal.Frame
import proofs.«426354_j20512763806283_3_alg».proof.Proof.Grid
import Idealize.ShloMosaic.Lib.Pipeline.Value
import Idealize.ShloMosaic.Lib.StableHlo.Run

set_option maxRecDepth 16384

noncomputable section

namespace Cert.KernelIdeal.RunValue

open Cert.KernelIdeal Cert.KernelIdeal.Gen Cert.WCE Idealize.ShloMosaic Idealize.ShloMosaic.TcCoe Idealize.SL.Sem
open Idealize.ShloMosaic.ValueIdx

variable (m : (ℓ : Loc nD τ sig) → Buf (Elt Ideal) ℓ) (ρ : Dev nD → PrngReg)

/-- Grid point `b` as a point of the region's grid. -/
def pt (b : Fin 32) : Fin cfg0.N := b.cast (by decide)

/-- The numerators' array after the region. -/
def numArr (c : Dev nD) : FVec Ideal S32x8x128 .f32 := (Gen.dats (F := Ideal) m 0 c).arrAt 3 cfg0.N
/-- The denominators' array after the region. -/
def denArr (c : Dev nD) : FVec Ideal S32x8x128 .f32 := (Gen.dats (F := Ideal) m 0 c).arrAt 4 cfg0.N

/-! ## The block index maps, decided once over the 32 grid points -/

/-- The logits' block at point `t`: sample `t / 4`, all classes, row block `t % 4`, all columns. -/
theorem idx0 : ∀ t : Fin cfg0.N, win0_0.index t (0 : Fin 4) = t.val / 4 ∧ win0_0.index t (1 : Fin 4) = 0
    ∧ win0_0.index t (2 : Fin 4) = t.val % 4 ∧ win0_0.index t (3 : Fin 4) = 0 :=
  (by decide +kernel : ∀ t : Fin grid0.N, _)

/-- The labels' block at point `t`: sample `t / 4`, row block `t % 4`, all columns. -/
theorem idx1 : ∀ t : Fin cfg0.N, win0_1.index t (0 : Fin 3) = t.val / 4 ∧ win0_1.index t (1 : Fin 3) = t.val % 4
    ∧ win0_1.index t (2 : Fin 3) = 0 :=
  (by decide +kernel : ∀ t : Fin grid0.N, _)

/-- The class weights' block at point `t`: row `t / 4`. -/
theorem idx2 : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- The numerators' block at point `t`: slice `t`. -/
theorem idx3 : ∀ t : Fin cfg0.N, win0_3.index t (0 : Fin 3) = t.val ∧ win0_3.index t (1 : Fin 3) = 0
    ∧ win0_3.index t (2 : Fin 3) = 0 :=
  (by decide +kernel : ∀ t : Fin grid0.N, _)

/-- The denominators' block at point `t`: slice `t`. -/
theorem idx4 : ∀ t : Fin cfg0.N, win0_4.index t (0 : Fin 3) = t.val ∧ win0_4.index t (1 : Fin 3) = 0
    ∧ win0_4.index t (2 : Fin 3) = 0 :=
  (by decide +kernel : ∀ t : Fin grid0.N, _)

/-! ## Where an element of a block sits in its array: block index times block size plus the coordinate inside -/

theorem emb0 (t : Fin cfg0.N) (n : Fin 8) (k : Fin 19) (r : Fin 128) (h : Fin 512) (w : Fin 1024)
    (hn : n.val = t.val / 4) (hh : h.val = (t.val % 4) * 128 + r.val) :
    ((cfg0.win 0).blk t).view.emb (ix4 (0 : Fin 1) k r w) = ix4 n k h w := by
  obtain ⟨e0, e1, e2, e3⟩ := idx0 t
  funext a; apply Fin.ext
  match a with
  | ⟨0, _⟩ => show win0_0.index t (0 : Fin 4) * 1 + 1 * 0 = n.val; omega
  | ⟨1, _⟩ => show win0_0.index t (1 : Fin 4) * 19 + 1 * k.val = k.val; omega
  | ⟨2, _⟩ => show win0_0.index t (2 : Fin 4) * 128 + 1 * r.val = h.val; omega
  | ⟨3, _⟩ => show win0_0.index t (3 : Fin 4) * 1024 + 1 * w.val = w.val; omega

theorem emb1 (t : Fin cfg0.N) (n : Fin 8) (r : Fin 128) (h : Fin 512) (w : Fin 1024)
    (hn : n.val = t.val / 4) (hh : h.val = (t.val % 4) * 128 + r.val) :
    ((cfg0.win 1).blk t).view.emb (ix3 (0 : Fin 1) r w) = ix3 n h w := by
  obtain ⟨e0, e1, e2⟩ := idx1 t
  funext a; apply Fin.ext
  match a with
  | ⟨0, _⟩ => show win0_1.index t (0 : Fin 3) * 1 + 1 * 0 = n.val; omega
  | ⟨1, _⟩ => show win0_1.index t (1 : Fin 3) * 128 + 1 * r.val = h.val; omega
  | ⟨2, _⟩ => show win0_1.index t (2 : Fin 3) * 1024 + 1 * w.val = w.val; omega

theorem emb2 (t : Fin cfg0.N) (n : Fin 8) (k : Fin 19) (hn : n.val = t.val / 4) :
    ((cfg0.win 2).blk t).view.emb (ix3 (0 : Fin 1) (0 : Fin 1) k) = ix3 n (0 : Fin 1) k := by
  obtain ⟨e0, e1, e2⟩ := idx2 t
  funext a; apply Fin.ext
  match a with
  | ⟨0, _⟩ => show win0_2.index t (0 : Fin 3) * 1 + 1 * 0 = n.val; omega
  | ⟨1, _⟩ => show win0_2.index t (1 : Fin 3) * 1 + 1 * 0 = 0; omega
  | ⟨2, _⟩ => show win0_2.index t (2 : Fin 3) * 19 + 1 * k.val = k.val; omega

theorem emb3 (t : Fin cfg0.N) (b : Fin 32) (y1 : Fin 8) (y2 : Fin 128) (hb : b.val = t.val) :
    ((cfg0.win 3).blk t).view.emb (ix3 (0 : Fin 1) y1 y2) = ix3 b y1 y2 := by
  obtain ⟨e0, e1, e2⟩ := idx3 t
  funext a; apply Fin.ext
  match a with
  | ⟨0, _⟩ => show win0_3.index t (0 : Fin 3) * 1 + 1 * 0 = b.val; omega
  | ⟨1, _⟩ => show win0_3.index t (1 : Fin 3) * 8 + 1 * y1.val = y1.val; omega
  | ⟨2, _⟩ => show win0_3.index t (2 : Fin 3) * 128 + 1 * y2.val = y2.val; omega

theorem emb4 (t : Fin cfg0.N) (b : Fin 32) (y1 : Fin 8) (y2 : Fin 128) (hb : b.val = t.val) :
    ((cfg0.win 4).blk t).view.emb (ix3 (0 : Fin 1) y1 y2) = ix3 b y1 y2 := by
  obtain ⟨e0, e1, e2⟩ := idx4 t
  funext a; apply Fin.ext
  match a with
  | ⟨0, _⟩ => show win0_4.index t (0 : Fin 3) * 1 + 1 * 0 = b.val; omega
  | ⟨1, _⟩ => show win0_4.index t (1 : Fin 3) * 8 + 1 * y1.val = y1.val; omega
  | ⟨2, _⟩ => show win0_4.index t (2 : Fin 3) * 128 + 1 * y2.val = y2.val; omega

/-! ## The output blocks are pairwise disjoint: distinct points write distinct slices -/

theorem disj3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have e : win0_3.index t (0 : Fin 3) = win0_3.index t' (0 : Fin 3) := congrFun h 0
    rw [(idx3 t).1, (idx3 t').1] at e; exact e))

theorem disj4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (by
    have e : win0_4.index t (0 : Fin 3) = win0_4.index t' (0 : Fin 3) := congrFun h 0
    rw [(idx4 t).1, (idx4 t').1] at e; exact e))

/-- The run, with the result named. -/
theorem run : θ_run (defs (F := Ideal)) (onTc (τ := τ) (main (F := Ideal))) ⟨m, fun _ => 0, ρ⟩ (fun r => ∀ c : Dev nD,
      r.2.mem ((c.tc : Thread nD τ).loc main_v31)
        = Host.divf (Host.reduceAdd (numArr m c) (constant S_ .f32 0x00000000#32) reducesTo_S32x8x128_S_d0_1_2 h_S_)
            (maximumf (Host.reduceAdd (denArr m c) (constant S_ .f32 0x00000000#32) reducesTo_S32x8x128_S_d0_1_2 h_S_)
              (constant S_ .f32 0x3F800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun r h c => ⟨?_, ?_, ?_⟩) (Gen.run_main (F := Ideal) m ρ)
  · -- the result is no array of the pipeline: it holds what the operations after the region compute
    have h31 : main_v31 ∈ Pipeline.restRefs sig (cfgs 0).spec :=
      Pipeline.mem_restRefs_of main_v31 rfl (by decide)
    rw [(h c).2 main_v31 h31]
    unfold Pipeline.afterTail₀
    show StableHlo.after hostOps1 _ (Proc.devRef .tc main_v31) = _
    after_results
    have e3 : Pipeline.withArrays (cfgs 0).spec c (V0 m c) (fun w => (dats m 0 c).arrAt w (cfgs 0).N)
        (Proc.devRef .tc main_v27_0) = numArr m c :=
      Pipeline.withArrays_arr spec0 launch0.win.arr_inj c _ _ 3
    have e4 : Pipeline.withArrays (cfgs 0).spec c (V0 m c) (fun w => (dats m 0 c).arrAt w (cfgs 0).N)
        (Proc.devRef .tc main_v27_1) = denArr m c :=
      Pipeline.withArrays_arr spec0 launch0.win.arr_inj c _ _ 4
    rw [e3, e4]
  · exact ((h c).1 0).trans (((Gen.dats m 0 c).arrAt_in 0 rfl _).trans ((Gen.A_eq m c 0).trans (Gen.V_main_arg0 m c)))
  · exact ((h c).1 1).trans (((Gen.dats m 0 c).arrAt_in 1 rfl _).trans ((Gen.A_eq m c 1).trans (Gen.V_main_arg1 m c)))

/-- Slice `b` of the numerators' array is what grid point `b` wrote back. -/
theorem numArr_apply (c : Dev nD) (b : Fin 32) (y1 : Fin 8) (y2 : Fin 128) :
    numArr m c (ix3 b y1 y2)
      = Gen.out0_3 (F := Ideal) (iblk m c 0 (pt b)) (iblk m c 1 (pt b)) (iblk m c 2 (pt b)) (ix3 0 y1 y2) := by
  have h := (Gen.dats (F := Ideal) m 0 c).arrAt_emb_eq_flushed 3 disj3 (pt b) (Gen.flush0_3 (pt b)) (ix3 (0 : Fin 1) y1 y2)
  rw [emb3 (pt b) b y1 y2 rfl] at h
  refine h.trans ?_
  show (cfg0.win 3).cut (grid0.coords (pt b)) ((Gen.dats m 0 c).after 3 (pt b)) (ix3 0 y1 y2) = _
  rw [Gen.after0_3]
  exact congrArg (Gen.out0_3 (F := Ideal) (iblk m c 0 (pt b)) (iblk m c 1 (pt b)) (iblk m c 2 (pt b)))
    (funext fun a => Fin.ext rfl)

/-- Slice `b` of the denominators' array is what grid point `b` wrote back. -/
theorem denArr_apply (c : Dev nD) (b : Fin 32) (y1 : Fin 8) (y2 : Fin 128) :
    denArr m c (ix3 b y1 y2)
      = Gen.out0_4 (F := Ideal) (iblk m c 0 (pt b)) (iblk m c 1 (pt b)) (iblk m c 2 (pt b)) (ix3 0 y1 y2) := by
  have h := (Gen.dats (F := Ideal) m 0 c).arrAt_emb_eq_flushed 4 disj4 (pt b) (Gen.flush0_4 (pt b)) (ix3 (0 : Fin 1) y1 y2)
  rw [emb4 (pt b) b y1 y2 rfl] at h
  refine h.trans ?_
  show (cfg0.win 4).cut (grid0.coords (pt b)) ((Gen.dats m 0 c).after 4 (pt b)) (ix3 0 y1 y2) = _
  rw [Gen.after0_4]
  exact congrArg (Gen.out0_4 (F := Ideal) (iblk m c 0 (pt b)) (iblk m c 1 (pt b)) (iblk m c 2 (pt b)))
    (funext fun a => Fin.ext rfl)

/-- Grid point `b`'s block of logits. -/
theorem iblk0_apply (c : Dev nD) (b : Fin 32) (k : Fin 19) (r : Fin 128) (w : Fin 1024) :
    iblk m c 0 (pt b) (ix4 0 k r w) = m ((c.tc : Thread nD τ).loc main_arg0) (ix4 (blkN b) k (blkRow b r) w) := by
  unfold Gen.iblk
  show V m c main_arg0 (((cfg0.win 0).blk (pt b)).view.emb (ix4 (0 : Fin 1) k r w)) = _
  rw [emb0 (pt b) (blkN b) k r (blkRow b r) w rfl rfl]
  exact congrFun (Gen.V_main_arg0 m c) _

/-- Grid point `b`'s block of labels. -/
theorem iblk1_apply (c : Dev nD) (b : Fin 32) (r : Fin 128) (w : Fin 1024) :
    iblk m c 1 (pt b) (ix3 0 r w) = m ((c.tc : Thread nD τ).loc main_arg1) (ix3 (blkN b) (blkRow b r) w) := by
  unfold Gen.iblk
  show V m c main_arg1 (((cfg0.win 1).blk (pt b)).view.emb (ix3 (0 : Fin 1) r w)) = _
  rw [emb1 (pt b) (blkN b) r (blkRow b r) w rfl rfl]
  exact congrFun (Gen.V_main_arg1 m c) _

/-- Grid point `b`'s row of class weights. -/
theorem iblk2_apply (c : Dev nD) (b : Fin 32) (k : Fin 19) :
    iblk m c 2 (pt b) (ix3 0 0 k) = Gen.V (F := Ideal) m c main_v26 (ix3 (blkN b) 0 k) := by
  unfold Gen.iblk
  show V m c main_v26 (((cfg0.win 2).blk (pt b)).view.emb (ix3 (0 : Fin 1) (0 : Fin 1) k)) = _
  rw [emb2 (pt b) (blkN b) k rfl]

end Cert.KernelIdeal.RunValue

end
-- ==== Proof.KernelBlock.lean ====
/-
  What one grid point's body leaves in its two output blocks, read at an index.  Every operation of the body but
  the two final reductions is pointwise over the block's 128 × 1024 pixels, so the value it reduces is, pixel by
  pixel, `pixK` of that pixel's 19 logits, the sample's 19 class weights and the pixel's label; the block written
  back holds the sum over the pixels at its first entry and zero elsewhere.  The second output likewise holds the
  number of pixels that are not ignored.
-/
import proofs.«426354_j20512763806283_3_alg».proof.Proof.Gen.KernelIdeal.Frame
import proofs.«426354_j20512763806283_3_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.Block

open Cert.KernelIdeal Cert.KernelIdeal.Gen Cert.WCE Idealize.ShloMosaic Idealize.ShloMosaic.ValueIdx

/-! ## Layout reads -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- The logits' plane `k` of the block, loaded and cast to the pixel grid, read at a pixel. -/
theorem plane_apply (x0 : Vec Ideal S1x19x128x1024 .f32) (k : Fin 19)
    (inb : ∀ a, (![0, k.val, 0, 0] : Fin 4 → ℕ) a + S1x1x128x1024.size a ≤ S1x19x128x1024.size a)
    (h : S1x1x128x1024.ShapeCasts S128x1024) (r : Fin 128) (c : Fin 1024) :
    (shapeCast S128x1024 (View.ld x0 (Rect.unit (s := S1x19x128x1024) ![0, k.val, 0, 0] S1x1x128x1024.size inb)) h
        : FVec Ideal S128x1024 .f32) (ix2 r c)
      = x0 (ix4 0 k r c) := by
  rw [shapeCast_11ab_ab_apply]
  show x0 _ = x0 _
  congr 1
  funext a
  match a with
  | ⟨0, _⟩ => exact Fin.ext rfl
  | ⟨1, _⟩ => exact Fin.ext (by show k.val + 1 * 0 = k.val; omega)
  | ⟨2, _⟩ => exact Fin.ext (by show 0 + 1 * r.val = r.val; omega)
  | ⟨3, _⟩ => exact Fin.ext (by show 0 + 1 * c.val = c.val; omega)

/-! ## Scalar readings -/

/-- A select on an equality test is an `if`. -/
theorem select_cmpi_eq {α : Type} (a b : BitVec 32) (u v : α) :
    Scalar.select (IntOp.cmpi .eq a b) u v = if a = b then u else v := by
  unfold Scalar.select IntOp.cmpi
  by_cases h : a = b
  · simp [h]
  · have hb : (a == b) = false := beq_eq_false_iff_ne.mpr h
    simp [h, hb]

/-- The class word: the label, or class 0 for the ignore word. -/
theorem clamp_eq (t : BitVec 32) : Scalar.select (IntOp.cmpi .ne t 255#32) t 0#32 = clampT t := by
  unfold Scalar.select IntOp.cmpi clampT
  by_cases h : t = 255#32
  · simp [h]
  · have hb : (t != 255#32) = true := bne_iff_ne.mpr h
    simp [h, hb]

/-- The indicator: the one-bit test widened and read as a float. -/
theorem valid_eq (t : BitVec 32) :
    FloatOps.sitofp (F := Ideal) .f32 ((IntOp.cmpi .ne t 255#32).setWidth 32) = validF t := by
  show (((((IntOp.cmpi .ne t 255#32).setWidth 32).toInt : ℝ)) : EReal) = validF t
  unfold IntOp.cmpi validF
  by_cases h : t = 255#32
  · simp [h]
  · have hb : (t != 255#32) = true := bne_iff_ne.mpr h
    simp [h, hb]

/-- The −∞ splat's value. -/
theorem ofBits_neg_inf : Ideal.ofBits .f32 0xFF800000#32 = ⊥ := by simp [Ideal.ofBits, Ideal.ieee]

/-! ## Pointwise operations read at an index -/

theorem cmpi_apply {s : Shape} {w : ℕ} (p : CmpIPredicate) (a b : IVec s w) (i : s.Idx) :
    cmpi p a b i = IntOp.cmpi p (a i) (b i) := rfl

theorem exp_apply {s : Shape} {φ : FTy} (a : FVec Ideal s φ) (i : s.Idx) : exp a i = Ideal.exp (a i) := rfl

theorem log_apply {s : Shape} {φ : FTy} (a : FVec Ideal s φ) (i : s.Idx) : log a i = Ideal.log (a i) := rfl

/-- The one-entry slice of a nineteen-vector at offset `k`, extracted, is the vector's entry `k`. -/
theorem extract_at {α : Type} (v : S19.Idx → α) (k : ℕ) (hk : k < 19) (h : S19.Slices ![k] S1)
    (h' : ∀ a, (![0] : Fin 1 → ℕ) a < S1.size a) :
    extractAt ![0] (extractStridedSlice S1 ![k] v h) h' = v (ix1 (⟨k, hk⟩ : Fin 19)) := by
  unfold extractAt extractStridedSlice
  congr 1
  funext a
  match a with
  | ⟨0, _⟩ => exact Fin.ext (by show k + 0 = k; omega)

/-! ## The label's plane: the class word and the indicator at a pixel -/

section Pixel
variable (x0 : Vec Ideal S1x19x128x1024 .f32) (x1 : Vec Ideal S1x128x1024 .i32) (x2 : Vec Ideal S1x1x19 .f32)
  (r : Fin 128) (c : Fin 1024)

/-- The label at a pixel. -/
theorem pay1_px : k0_pay1 x1 (ix2 r c) = x1 (ix3 0 r c) :=
  shapeCast_1ab_ab_apply x1 _ r c

/-- The class word at a pixel. -/
theorem pay5_px : k0_pay5 x1 (ix2 r c) = clampT (x1 (ix3 0 r c)) := by
  show Scalar.select (IntOp.cmpi .ne (k0_pay1 x1 (ix2 r c)) 255#32) (k0_pay1 x1 (ix2 r c)) 0#32 = _
  rw [pay1_px]; exact clamp_eq _

/-- The indicator at a pixel. -/
theorem pay4_px : k0_pay4 x1 (ix2 r c) = validF (x1 (ix3 0 r c)) := by
  show FloatOps.sitofp (F := Ideal) .f32 ((IntOp.cmpi .ne (k0_pay1 x1 (ix2 r c)) 255#32).setWidth 32) = _
  rw [pay1_px]; exact valid_eq _

/-! ## The nineteen planes of logits at a pixel -/

variable (h : S1x1x128x1024.ShapeCasts S128x1024)

theorem ld2_px : (shapeCast S128x1024 (View.ld x0 r0_2) h : FVec Ideal S128x1024 .f32) (ix2 r c) = x0 (ix4 0 0 r c) := plane_apply x0 0 _ h r c
theorem ld3_px : (shapeCast S128x1024 (View.ld x0 r0_3) h : FVec Ideal S128x1024 .f32) (ix2 r c) = x0 (ix4 0 1 r c) := plane_apply x0 1 _ h r c
theorem ld4_px : (shapeCast S128x1024 (View.ld x0 r0_4) h : FVec Ideal S128x1024 .f32) (ix2 r c) = x0 (ix4 0 2 r c) := plane_apply x0 2 _ h r c
theorem ld5_px : (shapeCast S128x1024 (View.ld x0 r0_5) h : FVec Ideal S128x1024 .f32) (ix2 r c) = x0 (ix4 0 3 r c) := plane_apply x0 3 _ h r c
theorem ld6_px : (shapeCast S128x1024 (View.ld x0 r0_6) h : FVec Ideal S128x1024 .f32) (ix2 r c) = x0 (ix4 0 4 r c) := plane_apply x0 4 _ h r c
theorem ld7_px : (shapeCast S128x1024 (View.ld x0 r0_7) h : FVec Ideal S128x1024 .f32) (ix2 r c) = x0 (ix4 0 5 r c) := plane_apply x0 5 _ h r c
theorem ld8_px : (shapeCast S128x1024 (View.ld x0 r0_8) h : FVec Ideal S128x1024 .f32) (ix2 r c) = x0 (ix4 0 6 r c) := plane_apply x0 6 _ h r c
theorem ld9_px : (shapeCast S128x1024 (View.ld x0 r0_9) h : FVec Ideal S128x1024 .f32) (ix2 r c) = x0 (ix4 0 7 r c) := plane_apply x0 7 _ h r c
theorem ld10_px : (shapeCast S128x1024 (View.ld x0 r0_10) h : FVec Ideal S128x1024 .f32) (ix2 r c) = x0 (ix4 0 8 r c) := plane_apply x0 8 _ h r c
theorem ld11_px : (shapeCast S128x1024 (View.ld x0 r0_11) h : FVec Ideal S128x1024 .f32) (ix2 r c) = x0 (ix4 0 9 r c) := plane_apply x0 9 _ h r c
theorem ld12_px : (shapeCast S128x1024 (View.ld x0 r0_12) h : FVec Ideal S128x1024 .f32) (ix2 r c) = x0 (ix4 0 10 r c) := plane_apply x0 10 _ h r c
theorem ld13_px : (shapeCast S128x1024 (View.ld x0 r0_13) h : FVec Ideal S128x1024 .f32) (ix2 r c) = x0 (ix4 0 11 r c) := plane_apply x0 11 _ h r c
theorem ld14_px : (shapeCast S128x1024 (View.ld x0 r0_14) h : FVec Ideal S128x1024 .f32) (ix2 r c) = x0 (ix4 0 12 r c) := plane_apply x0 12 _ h r c
theorem ld15_px : (shapeCast S128x1024 (View.ld x0 r0_15) h : FVec Ideal S128x1024 .f32) (ix2 r c) = x0 (ix4 0 13 r c) := plane_apply x0 13 _ h r c
theorem ld16_px : (shapeCast S128x1024 (View.ld x0 r0_16) h : FVec Ideal S128x1024 .f32) (ix2 r c) = x0 (ix4 0 14 r c) := plane_apply x0 14 _ h r c
theorem ld17_px : (shapeCast S128x1024 (View.ld x0 r0_17) h : FVec Ideal S128x1024 .f32) (ix2 r c) = x0 (ix4 0 15 r c) := plane_apply x0 15 _ h r c
theorem ld18_px : (shapeCast S128x1024 (View.ld x0 r0_18) h : FVec Ideal S128x1024 .f32) (ix2 r c) = x0 (ix4 0 16 r c) := plane_apply x0 16 _ h r c
theorem ld19_px : (shapeCast S128x1024 (View.ld x0 r0_19) h : FVec Ideal S128x1024 .f32) (ix2 r c) = x0 (ix4 0 17 r c) := plane_apply x0 17 _ h r c
theorem ld20_px : (shapeCast S128x1024 (View.ld x0 r0_20) h : FVec Ideal S128x1024 .f32) (ix2 r c) = x0 (ix4 0 18 r c) := plane_apply x0 18 _ h r c

/-! ## The running maximum at a pixel -/

/-- The nineteen `max` steps from the −∞ splat are the running maximum of the pixel's logits. -/
theorem max_px :
    k0_pay8 (k0_pay7 (k0_pay6 (View.ld x0 r0_2) (View.ld x0 r0_3) (View.ld x0 r0_4) (View.ld x0 r0_5) (View.ld x0 r0_6))
        (View.ld x0 r0_7) (View.ld x0 r0_8) (View.ld x0 r0_9) (View.ld x0 r0_10) (View.ld x0 r0_11) (View.ld x0 r0_12)
        (View.ld x0 r0_13) (View.ld x0 r0_14) (View.ld x0 r0_15))
      (View.ld x0 r0_16) (View.ld x0 r0_17) (View.ld x0 r0_18) (View.ld x0 r0_19) (View.ld x0 r0_20) (ix2 r c)
      = kmax (fun k => x0 (ix4 0 k r c)) := by
  simp only [k0_pay8, k0_pay7, k0_pay6, maximumf_apply, broadcast_apply, ld2_px, ld3_px, ld4_px, ld5_px, ld6_px, ld7_px,
    ld8_px, ld9_px, ld10_px, ld11_px, ld12_px, ld13_px, ld14_px, ld15_px, ld16_px, ld17_px, ld18_px, ld19_px, ld20_px,
    Ideal.ofBits_def, ofBits_neg_inf, kmax, finRange19, List.foldl]

end Pixel

/-! ## The running sum of exponentials, the picked logit and the picked weight at a pixel -/

section Pixel2
variable (x0 : Vec Ideal S1x19x128x1024 .f32) (x1 : Vec Ideal S1x128x1024 .i32) (x2 : Vec Ideal S1x1x19 .f32)
  (r : Fin 128) (c : Fin 1024)

/-- The vector of running maxima: what the nineteen `max` steps leave. -/
local notation "𝐌" => (k0_pay8 (k0_pay7 (k0_pay6 (View.ld x0 r0_2) (View.ld x0 r0_3) (View.ld x0 r0_4) (View.ld x0 r0_5) (View.ld x0
    r0_6)) (View.ld x0 r0_7) (View.ld x0 r0_8) (View.ld x0 r0_9) (View.ld x0 r0_10) (View.ld x0 r0_11) (View.ld x0
    r0_12) (View.ld x0 r0_13) (View.ld x0 r0_14) (View.ld x0 r0_15)) (View.ld x0 r0_16) (View.ld x0 r0_17) (View.ld
    x0 r0_18) (View.ld x0 r0_19) (View.ld x0 r0_20))

/-- The nineteen `exp`-and-add steps from the zero splat are the running sum of the pixel's exponentials. -/
theorem sum_px :
    (k0_pay63 𝐌 (k0_pay51 𝐌 (k0_pay44 𝐌 (k0_pay31 𝐌 (k0_pay23 𝐌 (k0_pay10 (k0_pay7 (k0_pay6 (View.ld x0 r0_2)
      (View.ld x0 r0_3) (View.ld x0 r0_4) (View.ld x0 r0_5) (View.ld x0 r0_6)) (View.ld x0 r0_7) (View.ld x0 r0_8)
      (View.ld x0 r0_9) (View.ld x0 r0_10) (View.ld x0 r0_11) (View.ld x0 r0_12) (View.ld x0 r0_13) (View.ld x0 r0_14)
      (View.ld x0 r0_15)) (View.ld x0 r0_16) (View.ld x0 r0_17) (View.ld x0 r0_18) (View.ld x0 r0_19) (View.ld x0
      r0_20) (View.ld x0 r0_2)) (View.ld x0 r0_3) (View.ld x0 r0_4) (View.ld x0 r0_5) (View.ld x0 r0_6)) (View.ld x0
      r0_7) (View.ld x0 r0_8) (View.ld x0 r0_9)) (View.ld x0 r0_10) (View.ld x0 r0_11) (View.ld x0 r0_12) (View.ld x0
      r0_13)) (View.ld x0 r0_14) (View.ld x0 r0_15) (View.ld x0 r0_16)) (View.ld x0 r0_17) (View.ld x0 r0_18) (View.ld
      x0 r0_19) (View.ld x0 r0_20)) (ix2 r c)
      = ksumexp (fun k => x0 (ix4 0 k r c)) := by
  simp only [k0_pay63, k0_pay51, k0_pay44, k0_pay31, k0_pay23, k0_pay10, k0_pay9, k0_pay14, k0_pay16, k0_pay18, k0_pay22, k0_pay26, k0_pay28, k0_pay30, k0_pay35, k0_pay37, k0_pay39, k0_pay43,
    k0_pay46, k0_pay48, k0_pay50, k0_pay55, k0_pay57, k0_pay59, k0_pay62,
    addf_apply, subf_apply, exp_apply, broadcast_apply, max_px, ld2_px, ld3_px, ld4_px, ld5_px, ld6_px, ld7_px, ld8_px, ld9_px, ld10_px, ld11_px, ld12_px, ld13_px, ld14_px,
    ld15_px, ld16_px, ld17_px, ld18_px, ld19_px, ld20_px,
    Ideal.ofBits_def, Ideal.ofBits_zero_f32, ksumexp, finRange19, List.foldl]

/-- The nineteen selects on the class word, from the zero splat, pick the pixel's logit at its class. -/
theorem logit_px :
    (k0_pay65 (k0_pay5 x1) (k0_pay53 (k0_pay5 x1) (k0_pay41 (k0_pay5 x1) (k0_pay33 (k0_pay5 x1) (k0_pay20 (k0_pay5
      x1) (k0_pay12 (k0_pay5 x1) (View.ld x0 r0_2)) (View.ld x0 r0_3) (View.ld x0 r0_4) (View.ld x0 r0_5)) (k0_pay22
      (View.ld x0 r0_6)) k0_pay24 (View.ld x0 r0_7) (View.ld x0 r0_8) (View.ld x0 r0_9)) (View.ld x0 r0_10) (View.ld
      x0 r0_11) (View.ld x0 r0_12)) (k0_pay43 (View.ld x0 r0_13)) (k0_pay45 (k0_pay5 x1)) (View.ld x0 r0_14) (View.ld
      x0 r0_15) (View.ld x0 r0_16)) (View.ld x0 r0_17) (View.ld x0 r0_18) (View.ld x0 r0_19) (View.ld x0 r0_20)) (ix2 r c)
      = kpick (fun k => x0 (ix4 0 k r c)) (x1 (ix3 0 r c)) := by
  simp only [k0_pay65, k0_pay53, k0_pay41, k0_pay33, k0_pay20, k0_pay12, k0_pay11, k0_pay15, k0_pay17, k0_pay19, k0_pay24, k0_pay25, k0_pay27, k0_pay29, k0_pay32, k0_pay36, k0_pay38, k0_pay40,
    k0_pay45, k0_pay47, k0_pay49, k0_pay52, k0_pay56, k0_pay58, k0_pay60, k0_pay64,
    k0_pay9, k0_pay14, k0_pay16, k0_pay18, k0_pay22, k0_pay26, k0_pay28, k0_pay30, k0_pay35, k0_pay37, k0_pay39, k0_pay43,
    k0_pay46, k0_pay48, k0_pay50, k0_pay55, k0_pay57, k0_pay59, k0_pay62,
    select_apply, cmpi_apply, broadcast_apply, pay5_px, ld2_px, ld3_px, ld4_px, ld5_px, ld6_px, ld7_px, ld8_px, ld9_px, ld10_px, ld11_px, ld12_px, ld13_px, ld14_px,
    ld15_px, ld16_px, ld17_px, ld18_px, ld19_px, ld20_px,
    select_cmpi_eq, Ideal.ofBits_def, Ideal.ofBits_zero_f32, kpick, finRange19, List.foldl]
  rfl

/-! ### The class weights -/

/-- Entry `k` of the sample's weight vector. -/
theorem pay2_at (k : Fin 19) : k0_pay2 x2 (ix1 k) = x2 (ix3 0 0 k) := shapeCast_11a_a_apply x2 _ k

variable (h' : ∀ a, (![0] : Fin 1 → ℕ) a < S1.size a)

theorem w0_at (h : S19.Slices ![0] S1) : extractAt ![0] (extractStridedSlice S1 ![0] (k0_pay2 x2) h) h' = x2 (ix3 0 0 0) := (extract_at _ 0 (by omega) h h').trans (pay2_at x2 0)
theorem w1_at (h : S19.Slices ![1] S1) : extractAt ![0] (extractStridedSlice S1 ![1] (k0_pay2 x2) h) h' = x2 (ix3 0 0 1) := (extract_at _ 1 (by omega) h h').trans (pay2_at x2 1)
theorem w2_at (h : S19.Slices ![2] S1) : extractAt ![0] (extractStridedSlice S1 ![2] (k0_pay2 x2) h) h' = x2 (ix3 0 0 2) := (extract_at _ 2 (by omega) h h').trans (pay2_at x2 2)
theorem w3_at (h : S19.Slices ![3] S1) : extractAt ![0] (extractStridedSlice S1 ![3] (k0_pay2 x2) h) h' = x2 (ix3 0 0 3) := (extract_at _ 3 (by omega) h h').trans (pay2_at x2 3)
theorem w4_at (h : S19.Slices ![4] S1) : extractAt ![0] (extractStridedSlice S1 ![4] (k0_pay2 x2) h) h' = x2 (ix3 0 0 4) := (extract_at _ 4 (by omega) h h').trans (pay2_at x2 4)
theorem w5_at (h : S19.Slices ![5] S1) : extractAt ![0] (extractStridedSlice S1 ![5] (k0_pay2 x2) h) h' = x2 (ix3 0 0 5) := (extract_at _ 5 (by omega) h h').trans (pay2_at x2 5)
theorem w6_at (h : S19.Slices ![6] S1) : extractAt ![0] (extractStridedSlice S1 ![6] (k0_pay2 x2) h) h' = x2 (ix3 0 0 6) := (extract_at _ 6 (by omega) h h').trans (pay2_at x2 6)
theorem w7_at (h : S19.Slices ![7] S1) : extractAt ![0] (extractStridedSlice S1 ![7] (k0_pay2 x2) h) h' = x2 (ix3 0 0 7) := (extract_at _ 7 (by omega) h h').trans (pay2_at x2 7)
theorem w8_at (h : S19.Slices ![8] S1) : extractAt ![0] (extractStridedSlice S1 ![8] (k0_pay2 x2) h) h' = x2 (ix3 0 0 8) := (extract_at _ 8 (by omega) h h').trans (pay2_at x2 8)
theorem w9_at (h : S19.Slices ![9] S1) : extractAt ![0] (extractStridedSlice S1 ![9] (k0_pay2 x2) h) h' = x2 (ix3 0 0 9) := (extract_at _ 9 (by omega) h h').trans (pay2_at x2 9)
theorem w10_at (h : S19.Slices ![10] S1) : extractAt ![0] (extractStridedSlice S1 ![10] (k0_pay2 x2) h) h' = x2 (ix3 0 0 10) := (extract_at _ 10 (by omega) h h').trans (pay2_at x2 10)
theorem w11_at (h : S19.Slices ![11] S1) : extractAt ![0] (extractStridedSlice S1 ![11] (k0_pay2 x2) h) h' = x2 (ix3 0 0 11) := (extract_at _ 11 (by omega) h h').trans (pay2_at x2 11)
theorem w12_at (h : S19.Slices ![12] S1) : extractAt ![0] (extractStridedSlice S1 ![12] (k0_pay2 x2) h) h' = x2 (ix3 0 0 12) := (extract_at _ 12 (by omega) h h').trans (pay2_at x2 12)
theorem w13_at (h : S19.Slices ![13] S1) : extractAt ![0] (extractStridedSlice S1 ![13] (k0_pay2 x2) h) h' = x2 (ix3 0 0 13) := (extract_at _ 13 (by omega) h h').trans (pay2_at x2 13)
theorem w14_at (h : S19.Slices ![14] S1) : extractAt ![0] (extractStridedSlice S1 ![14] (k0_pay2 x2) h) h' = x2 (ix3 0 0 14) := (extract_at _ 14 (by omega) h h').trans (pay2_at x2 14)
theorem w15_at (h : S19.Slices ![15] S1) : extractAt ![0] (extractStridedSlice S1 ![15] (k0_pay2 x2) h) h' = x2 (ix3 0 0 15) := (extract_at _ 15 (by omega) h h').trans (pay2_at x2 15)
theorem w16_at (h : S19.Slices ![16] S1) : extractAt ![0] (extractStridedSlice S1 ![16] (k0_pay2 x2) h) h' = x2 (ix3 0 0 16) := (extract_at _ 16 (by omega) h h').trans (pay2_at x2 16)
theorem w17_at (h : S19.Slices ![17] S1) : extractAt ![0] (extractStridedSlice S1 ![17] (k0_pay2 x2) h) h' = x2 (ix3 0 0 17) := (extract_at _ 17 (by omega) h h').trans (pay2_at x2 17)

/-- The nineteen selects on the class word, from the zero splat, pick the sample's weight at the pixel's class
    (the last of them is the one the tail of the body makes). -/
theorem wpick_px :
    Scalar.select (k0_pay64 (k0_pay5 x1) (ix2 r c)) (k0_pay2 x2 (ix1 (18 : Fin 19)))
        ((k0_pay61 (k0_pay2 x2) (k0_pay5 x1) (k0_pay54 (k0_pay2 x2) (k0_pay5 x1) (k0_pay42 (k0_pay2 x2) (k0_pay5 x1)
          (k0_pay34 (k0_pay2 x2) (k0_pay5 x1) (k0_pay21 (k0_pay2 x2) (k0_pay5 x1) (k0_pay13 (k0_pay2 x2) (k0_pay5 x1)))
          k0_pay24)) (k0_pay45 (k0_pay5 x1)))) (ix2 r c))
      = kpick (fun k => x2 (ix3 0 0 k)) (x1 (ix3 0 r c)) := by
  simp only [k0_pay61, k0_pay54, k0_pay42, k0_pay34, k0_pay21, k0_pay13, k0_pay11, k0_pay15, k0_pay17, k0_pay19, k0_pay24, k0_pay25, k0_pay27, k0_pay29, k0_pay32, k0_pay36, k0_pay38, k0_pay40,
    k0_pay45, k0_pay47, k0_pay49, k0_pay52, k0_pay56, k0_pay58, k0_pay60, k0_pay64,
    select_apply, cmpi_apply, broadcast_apply, pay5_px, pay2_at, w0_at, w1_at, w2_at, w3_at, w4_at, w5_at, w6_at, w7_at, w8_at, w9_at, w10_at, w11_at, w12_at, w13_at, w14_at, w15_at, w16_at, w17_at,
    select_cmpi_eq, Ideal.ofBits_def, Ideal.ofBits_zero_f32, kpick, finRange19, List.foldl]
  rfl

end Pixel2

/-! ## The tail of the body: the total over the pixels, kept at the block's first entry -/

/-- A small natural as a 32-bit word equals the zero word exactly when it is zero. -/
theorem cmpi_ofNat_zero (n : ℕ) (hn : n < 2 ^ 32) :
    IntOp.cmpi .eq (BitVec.ofNat 32 n) 0#32 = if n = 0 then 1#1 else 0#1 := by
  unfold IntOp.cmpi
  by_cases h : n = 0
  · subst h; simp
  · have hne : BitVec.ofNat 32 n ≠ 0#32 := fun e => h (by
      have e' := congrArg BitVec.toNat e
      rw [BitVec.toNat_ofNat, Nat.mod_eq_of_lt hn] at e'
      simpa using e')
    have hb : (BitVec.ofNat 32 n == 0#32) = false := beq_eq_false_iff_ne.mpr hne
    simp [h, hb]

/-- The mask of the block's first entry: row 0 and lane 0. -/
theorem pay66_apply (p : Fin 8) (q : Fin 128) :
    k0_pay66 (ix2 p q) = if p.val = 0 ∧ q.val = 0 then 1#1 else 0#1 := by
  show IntOp.andi (IntOp.cmpi .eq (iota .tc S8x128 32 [0] _ (ix2 p q)) 0#32)
      (IntOp.cmpi .eq (iota .tc S8x128 32 [1] _ (ix2 p q)) 0#32) = _
  rw [iota_single_apply, iota_single_apply]
  show IntOp.andi (IntOp.cmpi .eq (BitVec.ofNat 32 p.val) 0#32) (IntOp.cmpi .eq (BitVec.ofNat 32 q.val) 0#32) = _
  rw [cmpi_ofNat_zero _ (by omega), cmpi_ofNat_zero _ (by omega)]
  unfold IntOp.andi
  by_cases hp : p.val = 0 <;> by_cases hq : q.val = 0 <;> simp [hp, hq]

/-- The reduction over both pixel axes into the one-entry vector, cast and extracted, is the sum over the pixels. -/
theorem total_apply (v : FVec Ideal S128x1024 .f32) (h1 : S128x1024.ShapeCasts S1x128x1024)
    (h2 : S1x128x1024.Reduces [1, 2] S1) (hφ : FKind.Formats .f32) (hacc : (0x00000000#32 : BitVec 32) = FKind.add.neutral .f32 hφ)
    (h3 : S1.ShapeCasts S1x1x1) (h4 : ∀ a, (![0, 0, 0] : Fin 3 → ℕ) a < S1x1x1.size a) :
    extractAt ![0, 0, 0] (shapeCast S1x1x1 (multiReduction (F := Ideal) .add [1, 2] S1 (shapeCast S1x128x1024 v h1) 0x00000000#32 h2 hφ hacc) h3) h4
      = ∑ i : S128x1024.Idx, v i := by
  unfold extractAt
  rw [shapeCast_apply _ h3 _ (ix1 (0 : Fin 1)) (by
    rw [Shape.rowMajor_val_one, Shape.rowMajor_val_three]; rfl)]
  rw [Ideal.multiReduction_add_total _ _ h2 (fun b => by match b with | ⟨0, _⟩ => rfl)]
  exact Equiv.sum_comp (Shape.reshapeEquiv h1) v

/-- The numerators' payload over any vectors: the total of the per-pixel products at the first entry, zero elsewhere. -/
theorem pay67_apply (v3 : FVec Ideal S19 .f32) (v7 v67 v286 v291 : FVec Ideal S128x1024 .f32) (v293 : IVec S128x1024 1)
    (v294 : FVec Ideal S128x1024 .f32) (a : Fin 1) (p : Fin 8) (q : Fin 128) :
    k0_pay67 v3 v7 v67 v286 v291 v293 v294 (ix3 a p q)
      = if p.val = 0 ∧ q.val = 0 then
          ∑ i : S128x1024.Idx, ((0 - ((v294 i - v67 i) - Ideal.log (v291 i)))
            * Scalar.select (v293 i) (v3 (ix1 (18 : Fin 19))) (v286 i)) * v7 i
        else 0 := by
  simp only [k0_pay67, shapeCast_ab_1ab_apply, select_apply, pay66_apply, broadcast_apply]
  by_cases hpq : p.val = 0 ∧ q.val = 0
  · rw [if_pos hpq, if_pos hpq, select_one]
    refine (total_apply _ _ _ _ _ _ _).trans ?_
    exact Finset.sum_congr rfl fun i _ => by
      simp only [mulf_apply, subf_apply, log_apply, select_apply, broadcast_apply, Ideal.ofBits_def, Ideal.ofBits_zero_f32,
        extract_at v3 18 (by omega)]
      rfl
  · rw [if_neg hpq, if_neg hpq, select_zero]; exact Ideal.ofBits_zero_f32

/-- The denominators' payload over any vector: its total at the first entry, zero elsewhere. -/
theorem pay68_apply (v7 : FVec Ideal S128x1024 .f32) (a : Fin 1) (p : Fin 8) (q : Fin 128) :
    k0_pay68 v7 (ix3 a p q) = if p.val = 0 ∧ q.val = 0 then ∑ i : S128x1024.Idx, v7 i else 0 := by
  simp only [k0_pay68, shapeCast_ab_1ab_apply, select_apply, pay66_apply, broadcast_apply]
  by_cases hpq : p.val = 0 ∧ q.val = 0
  · rw [if_pos hpq, if_pos hpq, select_one]
    exact total_apply _ _ _ _ _ _ _
  · rw [if_neg hpq, if_neg hpq, select_zero]; exact Ideal.ofBits_zero_f32

/-! ## The two output blocks at an index -/

theorem zeros3 : (![0, 0, 0] : Fin 3 → ℕ) = fun _ => 0 :=
  funext fun a => match a with | ⟨0, _⟩ => rfl | ⟨1, _⟩ => rfl | ⟨2, _⟩ => rfl

/-- The numerators' block after the body. -/
theorem out0_3_apply (x0 : Vec Ideal S1x19x128x1024 .f32) (x1 : Vec Ideal S1x128x1024 .i32) (x2 : Vec Ideal S1x1x19 .f32)
    (y : S1x8x128.Idx) :
    Gen.out0_3 (F := Ideal) x0 x1 x2 y
      = if (y 1).val = 0 ∧ (y 2).val = 0 then
          ∑ q : S128x1024.Idx, pixK (fun k => x0 (ix4 0 k (q 0) (q 1))) (fun k => x2 (ix3 0 0 k)) (x1 (ix3 0 (q 0) (q 1)))
        else 0 := by
  obtain ⟨a, p, q, rfl⟩ : ∃ (a : Fin 1) (p : Fin 8) (q : Fin 128), y = ix3 a p q := ⟨y 0, y 1, y 2, eq_ix3 y⟩
  unfold Gen.out0_3
  rw [View.canon_unit_zero (S := S1x8x128) zeros3, View.ld_unit_zero (S := S1x128x1024) zeros3,
    View.ld_unit_zero (S := S1x1x19) zeros3, pay67_apply]
  refine if_congr Iff.rfl (Finset.sum_congr rfl fun i _ => ?_) rfl
  obtain ⟨r, c, rfl⟩ : ∃ (r : Fin 128) (c : Fin 1024), i = ix2 r c := ⟨i 0, i 1, eq_ix2 i⟩
  show _ = pixK (fun k => x0 (ix4 0 k r c)) (fun k => x2 (ix3 0 0 k)) (x1 (ix3 0 r c))
  rw [logit_px, max_px, sum_px, wpick_px, pay4_px]
  rfl

/-- The denominators' block after the body. -/
theorem out0_4_apply (x0 : Vec Ideal S1x19x128x1024 .f32) (x1 : Vec Ideal S1x128x1024 .i32) (x2 : Vec Ideal S1x1x19 .f32)
    (y : S1x8x128.Idx) :
    Gen.out0_4 (F := Ideal) x0 x1 x2 y
      = if (y 1).val = 0 ∧ (y 2).val = 0 then ∑ q : S128x1024.Idx, validF (x1 (ix3 0 (q 0) (q 1))) else 0 := by
  obtain ⟨a, p, q, rfl⟩ : ∃ (a : Fin 1) (p : Fin 8) (q : Fin 128), y = ix3 a p q := ⟨y 0, y 1, y 2, eq_ix3 y⟩
  unfold Gen.out0_4
  rw [View.canon_unit_zero (S := S1x8x128) zeros3, View.ld_unit_zero (S := S1x128x1024) zeros3, pay68_apply]
  refine if_congr Iff.rfl (Finset.sum_congr rfl fun i _ => ?_) rfl
  obtain ⟨r, c, rfl⟩ : ∃ (r : Fin 128) (c : Fin 1024), i = ix2 r c := ⟨i 0, i 1, eq_ix2 i⟩
  exact pay4_px x1 r c

end Cert.KernelIdeal.Block

end
-- ==== Proof.HistSpec.lean ====
/-
  The per-sample class histogram both programs build from the labels: entry `(n, k)` counts the pixels of sample
  `n` whose label word is the class id `k` (a label outside `0 … 18`, the ignore word included, is counted nowhere).
-/
import Idealize.ShloMosaic.PureOps.Ideal
import Idealize.ShloMosaic.Lib.ValueIdx

noncomputable section

namespace Cert.WCE

open Idealize.ShloMosaic Idealize.ShloMosaic.ValueIdx

/-- The number of pixels of sample `n` labelled with class `k`, as an extended real. -/
def histSpec (t : IVec (⟨3, ![8, 512, 1024]⟩ : Shape) 32) (n : Fin 8) (k : Fin 19) : EReal :=
  ∑ p : (⟨2, ![512, 1024]⟩ : Shape).Idx, if t (ix3 n (p 0) (p 1)) = BitVec.ofNat 32 k.val then 1 else 0

end Cert.WCE

end
-- ==== Proof.Hist.lean ====
/-
  The reference's histogram read at an entry.  It scatters, with addition, the 0/1 word "this label is in
  `0 … 18`" of every pixel into a flat table of 8 × 19 zeros at the position `19 n + (the label, or 0 when it is
  out of range)`.  Position `19 n + k` with `k < 19` receives exactly the in-range pixels of sample `n` labelled
  `k` (an out-of-range pixel lands on class 0 of its sample and adds zero), so the entry is the count `histSpec`.
-/
import proofs.«426354_j20512763806283_3_alg».proof.Proof.RefRead
import proofs.«426354_j20512763806283_3_alg».proof.Proof.HistSpec
import Idealize.ShloMosaic.Lib.StableHlo.Predicate

set_option maxRecDepth 16384

noncomputable section

namespace Cert.ReferenceIdeal.Hist

open Cert.ReferenceIdeal Cert.ReferenceIdeal.Gen Cert.ReferenceIdeal.ReadP Cert.WCE Idealize.ShloMosaic Idealize.ShloMosaic.ValueIdx
open Idealize.ShloMosaic.StableHlo.Predicate

/-! ## The scatter's landing position

With one inserted window axis, no update window axes and the index vector on the indices' second axis, update
`j` (one coordinate) lands at the operand position whose coordinate is the signed value of the index word at
`(j, 0)`, and is dropped when that value is outside `0 … 151`. -/

/-- The scatter indices' entry update `j` reads its start from. -/
abbrev sIdx (j : S4194304.Idx) : S4194304x1.Idx := ix2 (j 0) (0 : Fin 1)

theorem scatter_start (idx : IVec S4194304x1 32) (j : S4194304.Idx) :
    scatter_S152_S4194304x1_S4194304_n_0_0_1.start j idx 0 = (idx (sIdx j)).toInt := by
  unfold ScatterDims.start
  rw [dif_pos (show (0 : Fin 1) ∈ scatter_S152_S4194304x1_S4194304_n_0_0_1.scatterDimsToOperandDims from
    List.mem_singleton.mpr rfl)]
  have hsi : scatter_S152_S4194304x1_S4194304_n_0_0_1.siIdx j
      ⟨List.idxOf (0 : Fin 1) scatter_S152_S4194304x1_S4194304_n_0_0_1.scatterDimsToOperandDims,
        List.idxOf_lt_length_iff.2 (List.mem_singleton.mpr rfl)⟩ = sIdx j := by
    funext b; refine Fin.ext ?_
    match b with
    | ⟨0, _⟩ => rfl
    | ⟨1, _⟩ => rfl
  rw [hsi]

theorem scatter_window (j : S4194304.Idx) :
    scatter_S152_S4194304x1_S4194304_n_0_0_1.window j 0 = 0 := by
  unfold ScatterDims.window
  rw [dif_neg (show ¬ (0 : Fin 1) ∈ scatter_S152_S4194304x1_S4194304_n_0_0_1.sKept by decide)]

theorem scatter_lands (idx : IVec S4194304x1 32) (j : S4194304.Idx) (i : S152.Idx) :
    scatter_S152_S4194304x1_S4194304_n_0_0_1.resultIdx? j idx = some i ↔
      (idx (sIdx j)).toInt = ((i 0).val : Int) := by
  have hs : ∀ a : Fin 1, scatter_S152_S4194304x1_S4194304_n_0_0_1.start j idx a
      + (scatter_S152_S4194304x1_S4194304_n_0_0_1.window j a : Int) = (idx (sIdx j)).toInt := by
    intro a
    obtain rfl : a = 0 := Subsingleton.elim _ _
    rw [scatter_start, scatter_window]; simp
  have hi : (i 0).val < 152 := (i 0).isLt
  unfold ScatterDims.resultIdx?
  by_cases h : ∀ a : Fin S152.rank, 0 ≤ scatter_S152_S4194304x1_S4194304_n_0_0_1.start j idx a
      + (scatter_S152_S4194304x1_S4194304_n_0_0_1.window j a : Int)
      ∧ scatter_S152_S4194304x1_S4194304_n_0_0_1.start j idx a
      + (scatter_S152_S4194304x1_S4194304_n_0_0_1.window j a : Int) < S152.size a
  · rw [dif_pos h]
    have h0 := h 0
    rw [hs 0] at h0
    constructor
    · intro e
      have e' := congrArg (fun f : S152.Idx => ((f 0).val : Int)) (Option.some.inj e)
      simp only [hs 0] at e'
      omega
    · intro e
      congr 1
      funext a
      obtain rfl : a = 0 := Subsingleton.elim _ _
      apply Fin.ext
      show (scatter_S152_S4194304x1_S4194304_n_0_0_1.start j idx 0
        + (scatter_S152_S4194304x1_S4194304_n_0_0_1.window j 0 : Int)).toNat = (i 0).val
      rw [hs 0]; omega
  · rw [dif_neg h]
    constructor
    · intro e; cases e
    · intro e
      exfalso; apply h
      intro a
      obtain rfl : a = 0 := Subsingleton.elim _ _
      rw [hs 0, e]
      constructor
      · omega
      · show ((i 0).val : Int) < (152 : Nat); omega

/-! ## Words: the range test, the guarded label, and the flat position -/

/-- The bit "the label is in `0 … 18`", both comparisons signed: set exactly when the word's unsigned value is below 19
    (a word from 2³¹ on is negative and fails the first comparison). -/
theorem inRange_bit (x : BitVec 32) :
    IntOp.andi (IntOp.cmpi .sge x 0#32) (IntOp.cmpi .slt x 19#32) = if x.toNat < 19 then 1#1 else 0#1 := by
  have h0 : (0#32 : BitVec 32).toNat < 2 ^ 31 := by decide
  have h19 : (19#32 : BitVec 32).toNat < 2 ^ 31 := by decide
  have e19 : (19#32 : BitVec 32).toNat = 19 := by decide
  by_cases hx : x.toNat < 2 ^ 31
  · have a : IntOp.cmpi .sge x 0#32 = 1#1 := (sge_iff_toNat hx h0).2 (Nat.zero_le _)
    rw [a]
    by_cases hl : x.toNat < 19
    · rw [if_pos hl, (slt_iff_toNat hx h19).2 (by rw [e19]; exact hl)]; rfl
    · rw [if_neg hl]
      have hb : ¬ IntOp.cmpi .slt x 19#32 = 1#1 := fun e => hl (by have := (slt_iff_toNat hx h19).1 e; rw [e19] at this; exact this)
      rw [eq_zero_of_ne_one hb]; rfl
  · have hl : ¬ x.toNat < 19 := by omega
    rw [if_neg hl]
    have hneg : x.toInt < 0 := BitVec.toInt_neg_iff.2 (by omega)
    have a : IntOp.cmpi .sge x 0#32 = 0#1 := by
      unfold IntOp.cmpi
      show BitVec.ofBool ((0#32 : BitVec 32).sle x) = 0#1
      have : (0#32 : BitVec 32).sle x = false := by
        simp only [BitVec.sle, BitVec.toInt_zero, decide_eq_false_iff_not]; omega
      rw [this]; rfl
    rw [a]
    unfold IntOp.andi
    exact BitVec.zero_and

/-- The guarded label of a word: the word when it is in range, else class `0`. -/
def safe (x : BitVec 32) : BitVec 32 := if x.toNat < 19 then x else 0#32

theorem safe_of_lt {x : BitVec 32} (h : x.toNat < 19) : safe x = x := if_pos h
theorem safe_of_not_lt {x : BitVec 32} (h : ¬ x.toNat < 19) : safe x = 0#32 := if_neg h

/-- The select on the range bit is the guarded label. -/
theorem safe_eq (x : BitVec 32) :
    Scalar.select (IntOp.andi (IntOp.cmpi .sge x 0#32) (IntOp.cmpi .slt x 19#32)) x 0#32 = safe x := by
  rw [inRange_bit]
  by_cases hl : x.toNat < 19
  · rw [if_pos hl, safe_of_lt hl, select_one]
  · rw [if_neg hl, safe_of_not_lt hl, select_zero]

theorem safe_toNat_lt (x : BitVec 32) : (safe x).toNat < 19 := by
  by_cases hl : x.toNat < 19
  · rw [safe_of_lt hl]; exact hl
  · rw [safe_of_not_lt hl]; decide

/-- The flat position `safe + 19 n'` does not wrap (`n' < 8`). -/
theorem flat_toNat (y : BitVec 32) (hy : y.toNat < 19) (m : Nat) (hm : m < 8) :
    (IntOp.addi y (IntOp.muli (BitVec.ofNat 32 m) 19#32)).toNat = y.toNat + 19 * m := by
  unfold IntOp.addi IntOp.muli
  rw [BitVec.toNat_add, BitVec.toNat_mul, BitVec.toNat_ofNat]
  have e19 : (19#32 : BitVec 32).toNat = 19 := by decide
  rw [e19]
  omega

/-- A word is the class id `k` exactly when its unsigned value is `k`. -/
theorem eq_ofNat_iff (x : BitVec 32) (k : Nat) (hk : k < 19) : x = BitVec.ofNat 32 k ↔ x.toNat = k := by
  constructor
  · intro e; rw [e, BitVec.toNat_ofNat]; omega
  · intro e; apply BitVec.eq_of_toNat_eq; rw [BitVec.toNat_ofNat, e]; omega

/-! ## The stages read at a pixel -/

/-- The pixel a flat update index names (the reshape's inverse row-major map). -/
abbrev pix (j : S4194304.Idx) : S8x512x1024.Idx := idx_main_v13 j

theorem v5_at (t : IVec S8x512x1024 32) (p : S8x512x1024.Idx) :
    val_main_v5 (F := Ideal) t p = if (t p).toNat < 19 then 1#1 else 0#1 := by
  rw [val_main_v5_apply, val_main_v2_apply, val_main_v4_apply, val_main_v1_apply, val_main_v3_apply,
    val_main_c_apply, val_main_c_0_apply]
  exact inRange_bit (t p)

theorem v6_at (t : IVec S8x512x1024 32) (p : S8x512x1024.Idx) :
    val_main_v6 (F := Ideal) t p = safe (t p) := by
  rw [val_main_v6_apply, val_main_v5_apply, val_main_v2_apply, val_main_v4_apply, val_main_v1_apply,
    val_main_v3_apply, val_main_c_apply, val_main_c_0_apply, val_main_call1_v1_apply, val_main_call1_v0_apply,
    val_main_c_1_apply]
  exact safe_eq (t p)

theorem v11_at (p : S8x512x1024.Idx) :
    val_main_v11 (F := Ideal) p = IntOp.muli (BitVec.ofNat 32 (p 0).val) 19#32 := by
  rw [val_main_v11_apply, val_main_v10_apply, val_main_v8_apply, val_main_v9_apply, val_main_v7_apply,
    val_main_c_2_apply]

/-- The flat position word at a pixel, as a number: the guarded label plus `19` times the sample. -/
theorem v12_toNat (t : IVec S8x512x1024 32) (p : S8x512x1024.Idx) :
    (val_main_v12 (F := Ideal) t p).toNat = (safe (t p)).toNat + 19 * (p 0).val := by
  rw [val_main_v12_apply, v6_at, v11_at]
  have h0 : (p 0).val < 8 := (p 0).isLt
  exact flat_toNat _ (safe_toNat_lt (t p)) _ h0

theorem v13_toNat (t : IVec S8x512x1024 32) (j : S4194304.Idx) :
    (val_main_v13 (F := Ideal) t j).toNat = (safe (t (pix j))).toNat + 19 * ((pix j) 0).val := by
  rw [val_main_v13_apply]; exact v12_toNat t (pix j)

/-- The index normalisation leaves a non-negative position as it is. -/
theorem v21_at (t : IVec S8x512x1024 32) (j : S4194304.Idx) :
    val_main_v21 (F := Ideal) t j = val_main_v13 (F := Ideal) t j := by
  rw [val_main_v21_apply, val_main_v18_apply, val_main_v17_apply, val_main_c_3_apply]
  have hlt : (val_main_v13 (F := Ideal) t j).toNat < 2 ^ 31 := by
    rw [v13_toNat]
    have h0 : ((pix j) 0).val < 8 := ((pix j) 0).isLt
    have h1 := safe_toNat_lt (t (pix j))
    omega
  have h0 : (0#32 : BitVec 32).toNat < 2 ^ 31 := by decide
  have hb : ¬ IntOp.cmpi .slt (val_main_v13 (F := Ideal) t j) 0#32 = 1#1 := fun e => by
    have := (slt_iff_toNat hlt h0).1 e
    simp at this
  rw [eq_zero_of_ne_one hb, select_zero]

/-- The index word update `j` reads, as a signed number. -/
theorem v22_toInt (t : IVec S8x512x1024 32) (j : S4194304.Idx) :
    (val_main_v22 (F := Ideal) t (sIdx j)).toInt
      = (((safe (t (pix j))).toNat + 19 * ((pix j) 0).val : Nat) : Int) := by
  rw [val_main_v22_apply]
  have hj : idx_main_v22 (sIdx j) = j := by
    funext a
    match a with
    | ⟨0, _⟩ => rfl
  rw [hj, v21_at]
  have hlt : (val_main_v13 (F := Ideal) t j).toNat < 2 ^ 31 := by
    rw [v13_toNat]
    have h0 : ((pix j) 0).val < 8 := ((pix j) 0).isLt
    have h1 := safe_toNat_lt (t (pix j))
    omega
  rw [toInt_eq_toNat_of_lt hlt, v13_toNat]

/-- The update at `j`: one when the pixel's label is in range, else zero. -/
theorem v16_at (t : IVec S8x512x1024 32) (j : S4194304.Idx) :
    val_main_v16 (F := Ideal) t j = if (t (pix j)).toNat < 19 then (1 : EReal) else 0 := by
  rw [val_main_v16_apply, val_main_v15_apply]
  have hp : idx_main_v15 j = pix j := rfl
  rw [hp, v5_at]
  show (((if (t (pix j)).toNat < 19 then 1#1 else 0#1 : BitVec 1).toNat : ℝ) : EReal) = _
  by_cases hl : (t (pix j)).toNat < 19
  · rw [if_pos hl, if_pos hl]; simp
  · rw [if_neg hl, if_neg hl]; simp

/-- The table the scatter adds into is zero. -/
theorem v14_at (i : S152.Idx) : val_main_v14 (F := Ideal) i = (0 : EReal) := by
  rw [val_main_v14_apply, val_main_cst_apply]
  exact Ideal.ofBits_zero_f32

/-! ## Which updates land on `19 n + k`, and what they add -/

/-- Update `j` lands on position `19 n + k` exactly when its pixel is in sample `n` and its guarded label is `k`
    (`safe + 19 n'` with `safe, k < 19` determines both). -/
theorem lands_iff (t : IVec S8x512x1024 32) (n : Fin 8) (k : Fin 19) (j : S4194304.Idx) :
    scatter_S152_S4194304x1_S4194304_n_0_0_1.resultIdx? j (val_main_v22 (F := Ideal) t)
        = some (idx_main_v24 (ix2 n k))
      ↔ (((pix j) 0).val = n.val ∧ (safe (t (pix j))).toNat = k.val) := by
  rw [scatter_lands, v22_toInt]
  show (((safe (t (pix j))).toNat + 19 * ((pix j) 0).val : Nat) : Int) = ((n.val * 19 + k.val : Nat) : Int) ↔ _
  have h1 := safe_toNat_lt (t (pix j))
  have hk : k.val < 19 := k.isLt
  constructor
  · intro e; omega
  · rintro ⟨e1, e2⟩; omega

/-- The term update `j` contributes to position `19 n + k`: one when its pixel is in sample `n` with label `k`, else
    nothing (an out-of-range label lands on class `0` but adds zero). -/
theorem term_eq (t : IVec S8x512x1024 32) (n : Fin 8) (k : Fin 19) (j : S4194304.Idx)
    {inst : Decidable (scatter_S152_S4194304x1_S4194304_n_0_0_1.resultIdx? j (val_main_v22 (F := Ideal) t)
        = some (idx_main_v24 (ix2 n k)))} :
    (@ite EReal (scatter_S152_S4194304x1_S4194304_n_0_0_1.resultIdx? j (val_main_v22 (F := Ideal) t)
        = some (idx_main_v24 (ix2 n k))) inst (val_main_v16 (F := Ideal) t j) 0)
      = if ((pix j) 0).val = n.val ∧ t (pix j) = BitVec.ofNat 32 k.val then (1 : EReal) else 0 := by
  rw [v16_at]
  by_cases hl : (t (pix j)).toNat < 19
  · rw [if_pos hl]
    apply if_congr _ rfl rfl
    rw [lands_iff, safe_of_lt hl, eq_ofNat_iff _ _ k.isLt]
  · rw [if_neg hl, ite_self, if_neg]
    rintro ⟨_, e⟩
    apply hl
    rw [(eq_ofNat_iff _ _ k.isLt).1 e]; exact k.isLt

/-! ## Re-indexing the sum: flat update indices are the pixels, and a pixel is a sample with a position -/

/-- Flat update indices are the pixels, row-major. -/
def pixEquiv : S4194304.Idx ≃ S8x512x1024.Idx where
  toFun j := pix j
  invFun p := (ix1 (⟨((p 0).val * 512 + (p 1).val) * 1024 + (p 2).val, by
    have h0 : (p 0).val < 8 := (p 0).isLt
    have h1 : (p 1).val < 512 := (p 1).isLt
    have h2 : (p 2).val < 1024 := (p 2).isLt
    omega⟩ : Fin 4194304) : S4194304.Idx)
  left_inv j := by
    funext a
    match a with
    | ⟨0, _⟩ =>
      apply Fin.ext
      have h0 : (j 0).val < 4194304 := (j 0).isLt
      show ((j 0).val / 524288 * 512 + (j 0).val / 1024 % 512) * 1024 + (j 0).val % 1024 = (j 0).val
      omega
  right_inv p := by
    have h0 : (p 0).val < 8 := (p 0).isLt
    have h1 : (p 1).val < 512 := (p 1).isLt
    have h2 : (p 2).val < 1024 := (p 2).isLt
    funext a
    match a with
    | ⟨0, _⟩ =>
      apply Fin.ext
      show (((p 0).val * 512 + (p 1).val) * 1024 + (p 2).val) / 524288 = (p 0).val
      omega
    | ⟨1, _⟩ =>
      apply Fin.ext
      show (((p 0).val * 512 + (p 1).val) * 1024 + (p 2).val) / 1024 % 512 = (p 1).val
      omega
    | ⟨2, _⟩ =>
      apply Fin.ext
      show (((p 0).val * 512 + (p 1).val) * 1024 + (p 2).val) % 1024 = (p 2).val
      omega

/-- A sum over the flat update indices is the sum over the pixels (whatever enumeration of the flat indices the
    sum was written with: an index set has one). -/
theorem sum_pix {inst : Fintype S4194304.Idx} (g : S8x512x1024.Idx → EReal) :
    @Finset.sum S4194304.Idx EReal _ (@Finset.univ S4194304.Idx inst) (fun j => g (pix j)) = ∑ p, g p := by
  exact Equiv.sum_comp pixEquiv g

/-- A pixel is a sample with a position in the image. -/
def sampleEquiv : S8x512x1024.Idx ≃ Fin 8 × (⟨2, ![512, 1024]⟩ : Shape).Idx where
  toFun p := (p 0, ix2 (p 1) (p 2))
  invFun q := ix3 q.1 (q.2 0) (q.2 1)
  left_inv p := (eq_ix3 p).symm
  right_inv q := Prod.ext rfl (eq_ix2 q.2).symm

theorem sum_sample (g : S8x512x1024.Idx → EReal) :
    ∑ p, g p = ∑ a : Fin 8, ∑ q : (⟨2, ![512, 1024]⟩ : Shape).Idx, g (ix3 a (q 0) (q 1)) := by
  rw [← Equiv.sum_comp sampleEquiv.symm g, Fintype.sum_prod_type]
  exact Finset.sum_congr rfl (fun a _ => Finset.sum_congr rfl (fun q _ => rfl))

/-- Counting over all pixels those of sample `n` labelled `k` is the count within sample `n`. -/
theorem count_eq (t : IVec S8x512x1024 32) (n : Fin 8) (k : Fin 19) :
    (∑ p : S8x512x1024.Idx, if (p 0).val = n.val ∧ t p = BitVec.ofNat 32 k.val then (1 : EReal) else 0)
      = histSpec t n k := by
  rw [sum_sample, Finset.sum_eq_single n]
  · unfold histSpec
    apply Finset.sum_congr rfl
    intro q _
    apply if_congr _ rfl rfl
    show (n.val = n.val ∧ _) ↔ _
    exact and_iff_right rfl
  · intro b _ hb
    apply Finset.sum_eq_zero
    intro q _
    rw [if_neg]
    rintro ⟨e, _⟩
    exact hb (Fin.ext e)
  · intro h; exact absurd (Finset.mem_univ n) h

/-! ## The histogram entry -/

/-- The accumulating scatter at the extended reals, read at a position, for any shapes and operands: the operand's
    entry plus the sum of the updates landing there. -/
theorem scatterAdd_ideal {s si su : Shape} {w : Nat} (d : ScatterDims s si su) (x : s.Idx → EReal) (idx : IVec si w)
    (upd : su.Idx → EReal) (i : s.Idx) :
    Host.scatterAdd (F := Ideal) (φ := .f32) d x idx upd i
      = x i + ∑ j ∈ Finset.univ.filter (fun j => d.resultIdx? j idx = some i), upd j := rfl

theorem refHist_apply (t : IVec S8x512x1024 32) (n : Fin 8) (k : Fin 19) :
    val_main_v24 (F := Ideal) t (ix2 n k) = histSpec t n k := by
  rw [val_main_v24_apply]
  unfold val_main_v23
  rw [scatterAdd_ideal, v14_at, zero_add, Finset.sum_filter]
  refine (Finset.sum_congr rfl (fun j _ => term_eq t n k j)).trans ?_
  rw [sum_pix (fun p => if (p 0).val = n.val ∧ t p = BitVec.ofNat 32 k.val then (1 : EReal) else 0)]
  exact count_eq t n k

end Cert.ReferenceIdeal.Hist

end
-- ==== Proof.WeightK.lean ====
/-
  The class-weight table the kernel's region finds.  The host operations before the region build the same
  histogram as the reference by comparing every label with every class id and summing the 0/1 results over a
  sample's pixels (entry `(n, k)` is the count `histSpec`), and from it the weights by the same operations as
  the reference's (an empty class counted as one, the row total divided by the entry, the power 1); so the table,
  reshaped to 8 × 1 × 19, is the reference's weight table entry by entry.
-/
import proofs.«426354_j20512763806283_3_alg».proof.Proof.Gen.KernelIdeal.Frame
import proofs.«426354_j20512763806283_3_alg».proof.Proof.RefRead
import proofs.«426354_j20512763806283_3_alg».proof.Proof.HistSpec
import proofs.«426354_j20512763806283_3_alg».proof.Proof.Hist
import Idealize.ShloMosaic.Lib.StableHlo.Run
import Idealize.ShloMosaic.Lib.StableHlo.Predicate
import Idealize.ShloMosaic.Lib.Pipeline.Value
import Idealize.ShloMosaic.PureOps.Ideal.Laws

set_option maxRecDepth 16384

noncomputable section

namespace Cert.KernelIdeal.Weight

open Cert.KernelIdeal Cert.KernelIdeal.Gen Cert.WCE Idealize.ShloMosaic Idealize.ShloMosaic.TcCoe Idealize.SL.Sem
open Idealize.ShloMosaic.ValueIdx

/-- The kernel's word "this label is a class id": the label is at least 0 and below 19, both read signed. -/
def inRangeK (t : IVec S8x512x1024 32) : IVec S8x512x1024 1 :=
  andi (cmpi .sge t (broadcastInDim S8x512x1024 ![] bcast_S_S8x512x1024 (constantI S_ 32 0#32)))
    (cmpi .slt t (broadcastInDim S8x512x1024 ![] bcast_S_S8x512x1024 (constantI S_ 32 19#32)))

/-- The label where it is a class id, class 0 elsewhere. -/
def safeK (t : IVec S8x512x1024 32) : IVec S8x512x1024 32 :=
  select (inRangeK t) t (broadcastInDim S8x512x1024 ![] bcast_S_S8x512x1024 (id (constantI S_ 32 0#32)))

/-- The 0/1 table over (sample, class, row, column): one where the pixel's label is that class id. -/
def cellK (t : IVec S8x512x1024 32) : FVec Ideal S8x19x512x1024 .f32 :=
  uitofp (F := Ideal) .f32
    (andi
      (cmpi .eq
        (broadcastInDim S8x19x512x1024 ![0, 1, 2, 3] bcast_S8x1x512x1024_S8x19x512x1024_0_1_2_3
          (broadcastInDim S8x1x512x1024 ![0, 2, 3] bcast_S8x512x1024_S8x1x512x1024_0_2_3 (safeK t)))
        (broadcastInDim S8x19x512x1024 ![0, 1, 2, 3] bcast_S1x19x1x1_S8x19x512x1024_0_1_2_3
          (broadcastInDim S1x19x1x1 ![1] bcast_S19_S1x19x1x1_1 (iotaInDim S19 32 0))))
      (broadcastInDim S8x19x512x1024 ![0, 1, 2, 3] bcast_S8x1x512x1024_S8x19x512x1024_0_1_2_3
        (broadcastInDim S8x1x512x1024 ![0, 2, 3] bcast_S8x512x1024_S8x1x512x1024_0_2_3 (inRangeK t))))

/-- The kernel's histogram: the 0/1 table summed over a sample's pixels. -/
def histK (t : IVec S8x512x1024 32) : FVec Ideal S8x19 .f32 :=
  Host.reduceAdd (F := Ideal) (cellK t) (constant (F := Ideal) S_ .f32 0x00000000#32)
    reducesTo_S8x19x512x1024_S8x19_d2_3 h_S_

/-- A histogram with its empty classes counted as one. -/
def fillK (h : FVec Ideal S8x19 .f32) : FVec Ideal S8x19 .f32 :=
  select (cmpf (F := Ideal) .oeq h (broadcastInDim S8x19 ![] bcast_S_S8x19 (constant (F := Ideal) S_ .f32 0x00000000#32)))
    (broadcastInDim S8x19 ![] bcast_S_S8x19 (id (constant (F := Ideal) S_ .f32 0x3F800000#32))) h

/-- The weights from a histogram: the row total of the filled histogram divided by the entry, to the power one. -/
def weightTailK (h : FVec Ideal S8x19 .f32) : FVec Ideal S8x19 .f32 :=
  Host.powf (F := Ideal)
    (Host.divf (F := Ideal)
      (broadcastInDim S8x19 ![0, 1] bcast_S8x1_S8x19_0_1
        (broadcastInDim S8x1 ![0] bcast_S8_S8x1_0
          (Host.reduceAdd (F := Ideal) (fillK h) (constant (F := Ideal) S_ .f32 0x00000000#32) reducesTo_S8x19_S8_d1 h_S_)))
      (fillK h))
    (broadcastInDim S8x19 ![] bcast_S_S8x19 (constant (F := Ideal) S_ .f32 0x3F800000#32))

/-! ## The reference's tail is the same function of its histogram -/

/-- The reference's weight table is the same tail applied to the reference's histogram: the two programs build
    the weights from a histogram by the same operations at the same shapes. -/
theorem ref_weight_eq (t : IVec S8x512x1024 32) :
    Cert.ReferenceIdeal.ReadP.val_main_v33 (F := Ideal) t
      = weightTailK (Cert.ReferenceIdeal.ReadP.val_main_v24 (F := Ideal) t) := rfl

/-! ## The broadcasts read at an index -/

/-- A sample's pixel table with a unit class axis inserted reads the table at (sample, row, column). -/
theorem bcA_apply {α : Type} (x : S8x512x1024.Idx → α) (n : Fin 8) (z : Fin 1) (h : Fin 512) (w : Fin 1024) :
    broadcastInDim S8x1x512x1024 ![0, 2, 3] bcast_S8x512x1024_S8x1x512x1024_0_2_3 x (ix4 n z h w) = x (ix3 n h w) :=
  broadcastInDim_apply _ bcast_S8x512x1024_S8x1x512x1024_0_2_3 x (ix4 n z h w) (ix3 n h w) (fun a => match a with
    | ⟨0, _⟩ => by show n.val = if (8 : Nat) = 1 then 0 else n.val; rw [if_neg (by decide)]
    | ⟨1, _⟩ => by show h.val = if (512 : Nat) = 1 then 0 else h.val; rw [if_neg (by decide)]
    | ⟨2, _⟩ => by show w.val = if (1024 : Nat) = 1 then 0 else w.val; rw [if_neg (by decide)])

/-- Repeated along the class axis it reads the unit-axis table at class coordinate 0. -/
theorem bcB_apply {α : Type} (x : S8x1x512x1024.Idx → α) (n : Fin 8) (k : Fin 19) (h : Fin 512) (w : Fin 1024) :
    broadcastInDim S8x19x512x1024 ![0, 1, 2, 3] bcast_S8x1x512x1024_S8x19x512x1024_0_1_2_3 x (ix4 n k h w)
      = x (ix4 n (0 : Fin 1) h w) :=
  broadcastInDim_apply _ bcast_S8x1x512x1024_S8x19x512x1024_0_1_2_3 x (ix4 n k h w) (ix4 n (0 : Fin 1) h w) (fun a => match a with
    | ⟨0, _⟩ => by show n.val = if (8 : Nat) = 1 then 0 else n.val; rw [if_neg (by decide)]
    | ⟨1, _⟩ => by show 0 = if (1 : Nat) = 1 then 0 else k.val; rw [if_pos rfl]
    | ⟨2, _⟩ => by show h.val = if (512 : Nat) = 1 then 0 else h.val; rw [if_neg (by decide)]
    | ⟨3, _⟩ => by show w.val = if (1024 : Nat) = 1 then 0 else w.val; rw [if_neg (by decide)])

/-- The class ids laid along the class axis of a 1 × 19 × 1 × 1 table read the id at the class coordinate. -/
theorem bcC_apply {α : Type} (x : S19.Idx → α) (a : Fin 1) (k : Fin 19) (b c : Fin 1) :
    broadcastInDim S1x19x1x1 ![1] bcast_S19_S1x19x1x1_1 x (ix4 a k b c) = x (ix1 k) :=
  broadcastInDim_apply _ bcast_S19_S1x19x1x1_1 x (ix4 a k b c) (ix1 k) (fun a => match a with
    | ⟨0, _⟩ => by show k.val = if (19 : Nat) = 1 then 0 else k.val; rw [if_neg (by decide)])

/-- Repeated over samples, rows and columns it reads the 1 × 19 × 1 × 1 table at the class coordinate. -/
theorem bcD_apply {α : Type} (x : S1x19x1x1.Idx → α) (n : Fin 8) (k : Fin 19) (h : Fin 512) (w : Fin 1024) :
    broadcastInDim S8x19x512x1024 ![0, 1, 2, 3] bcast_S1x19x1x1_S8x19x512x1024_0_1_2_3 x (ix4 n k h w)
      = x (ix4 (0 : Fin 1) k (0 : Fin 1) (0 : Fin 1)) :=
  broadcastInDim_apply _ bcast_S1x19x1x1_S8x19x512x1024_0_1_2_3 x (ix4 n k h w) (ix4 (0 : Fin 1) k (0 : Fin 1) (0 : Fin 1)) (fun a => match a with
    | ⟨0, _⟩ => by show 0 = if (1 : Nat) = 1 then 0 else n.val; rw [if_pos rfl]
    | ⟨1, _⟩ => by show k.val = if (19 : Nat) = 1 then 0 else k.val; rw [if_neg (by decide)]
    | ⟨2, _⟩ => by show 0 = if (1 : Nat) = 1 then 0 else h.val; rw [if_pos rfl]
    | ⟨3, _⟩ => by show 0 = if (1 : Nat) = 1 then 0 else w.val; rw [if_pos rfl])

/-! ## One pixel against one class -/

/-- A class id is in range. -/
theorem inRange_ofNat (k : Fin 19) :
    IntOp.andi (IntOp.cmpi .sge (BitVec.ofNat 32 k.val) 0#32) (IntOp.cmpi .slt (BitVec.ofNat 32 k.val) 19#32) = 1#1 := by
  revert k; decide

/-- The kernel's test of one label word against one class id — the guarded label equals the id, and the label is
    in range — holds exactly when the label word is the id: an id is in range and guards to itself; any other
    word either is out of range or guards to itself and differs. -/
theorem word_cell (x : BitVec 32) (k : Fin 19) :
    IntOp.andi
        (IntOp.cmpi .eq (Scalar.select (IntOp.andi (IntOp.cmpi .sge x 0#32) (IntOp.cmpi .slt x 19#32)) x 0#32)
          (BitVec.ofNat 32 k.val))
        (IntOp.andi (IntOp.cmpi .sge x 0#32) (IntOp.cmpi .slt x 19#32))
      = if x = BitVec.ofNat 32 k.val then 1#1 else 0#1 := by
  by_cases hx : x = BitVec.ofNat 32 k.val
  · subst hx
    rw [if_pos rfl, inRange_ofNat k, select_one, StableHlo.Predicate.cmpi_eq_iff.mpr rfl]
    rfl
  · rw [if_neg hx]
    generalize IntOp.andi (IntOp.cmpi .sge x 0#32) (IntOp.cmpi .slt x 19#32) = r
    rcases BitVec.eq_zero_or_eq_one r with rfl | rfl
    · exact BitVec.and_zero
    · rw [select_one, eq_zero_of_ne_one (fun h => hx (StableHlo.Predicate.cmpi_eq_iff.mp h))]
      rfl

/-- The 0/1 table at (sample, class, row, column) is one exactly where the pixel's label word is the class id. -/
theorem cellK_apply (t : IVec S8x512x1024 32) (n : Fin 8) (k : Fin 19) (h : Fin 512) (w : Fin 1024) :
    cellK t (ix4 n k h w) = if t (ix3 n h w) = BitVec.ofNat 32 k.val then (1 : EReal) else 0 := by
  unfold cellK
  show FloatOps.uitofp (F := Ideal) .f32 (IntOp.andi (IntOp.cmpi .eq
      (broadcastInDim S8x19x512x1024 ![0, 1, 2, 3] bcast_S8x1x512x1024_S8x19x512x1024_0_1_2_3
          (broadcastInDim S8x1x512x1024 ![0, 2, 3] bcast_S8x512x1024_S8x1x512x1024_0_2_3 (safeK t)) (ix4 n k h w))
      (broadcastInDim S8x19x512x1024 ![0, 1, 2, 3] bcast_S1x19x1x1_S8x19x512x1024_0_1_2_3
          (broadcastInDim S1x19x1x1 ![1] bcast_S19_S1x19x1x1_1 (iotaInDim S19 32 0)) (ix4 n k h w)))
      (broadcastInDim S8x19x512x1024 ![0, 1, 2, 3] bcast_S8x1x512x1024_S8x19x512x1024_0_1_2_3
          (broadcastInDim S8x1x512x1024 ![0, 2, 3] bcast_S8x512x1024_S8x1x512x1024_0_2_3 (inRangeK t)) (ix4 n k h w))) = _
  rw [bcB_apply, bcA_apply, bcD_apply, bcC_apply, bcB_apply, bcA_apply]
  show FloatOps.uitofp (F := Ideal) .f32 (IntOp.andi
      (IntOp.cmpi .eq (Scalar.select (IntOp.andi (IntOp.cmpi .sge (t (ix3 n h w)) 0#32) (IntOp.cmpi .slt (t (ix3 n h w)) 19#32)) (t (ix3 n h w)) 0#32)
        (BitVec.ofNat 32 k.val))
      (IntOp.andi (IntOp.cmpi .sge (t (ix3 n h w)) 0#32) (IntOp.cmpi .slt (t (ix3 n h w)) 19#32))) = _
  rw [word_cell]
  split_ifs
  · show (((1#1 : BitVec 1).toNat : ℝ) : EReal) = 1
    simp
  · show (((0#1 : BitVec 1).toNat : ℝ) : EReal) = 0
    simp

/-! ## The sum over a sample's pixels -/

/-- An index (sample, class, row, column) drops, under the sum over rows and columns, to (sample, class). -/
theorem drop_ix4 (n : Fin 8) (k : Fin 19) (h : Fin 512) (w : Fin 1024) :
    reducesTo_S8x19x512x1024_S8x19_d2_3.drop (ix4 n k h w) = ix2 n k := by
  funext b; match b with | ⟨0, _⟩ => rfl | ⟨1, _⟩ => rfl

/-- The sum over the indices that drop to entry (sample, class) is the sum over the sample's pixels: those
    indices are exactly (sample, class, row, column), one for each pixel. -/
theorem sum_drop (x : S8x19x512x1024.Idx → EReal) (n : Fin 8) (k : Fin 19) :
    ∑ i ∈ Finset.univ.filter (fun i => reducesTo_S8x19x512x1024_S8x19_d2_3.drop i = ix2 n k), x i
      = ∑ p : (⟨2, ![512, 1024]⟩ : Shape).Idx, x (ix4 n k (p 0) (p 1)) := by
  symm
  refine Finset.sum_bij' (fun p _ => ix4 n k (p 0) (p 1)) (fun i _ => ix2 (i 2) (i 3)) ?_ ?_ ?_ ?_ ?_
  · intro p _; exact Finset.mem_filter.mpr ⟨Finset.mem_univ _, drop_ix4 n k (p 0) (p 1)⟩
  · intro i _; exact Finset.mem_univ _
  · intro p _; exact (eq_ix2 p).symm
  · intro i hi
    have hd := (Finset.mem_filter.mp hi).2
    have h0 : i 0 = n := congrFun hd 0
    have h1 : i 1 = k := congrFun hd 1
    subst h0; subst h1
    exact (eq_ix4 i).symm
  · intro p _; rfl

/-- The kernel's histogram at entry (sample, class) is the number of the sample's pixels labelled with the class. -/
theorem histK_apply (t : IVec S8x512x1024 32) (n : Fin 8) (k : Fin 19) : histK t (ix2 n k) = histSpec t n k := by
  unfold histK histSpec
  simp only [Host.reduceAdd, Ideal.hostReduceAdd_def]
  unfold Ideal.hostReduceAdd
  rw [sum_drop]
  show Ideal.ofBits .f32 0x00000000#32 + _ = _
  rw [Ideal.ofBits_zero_f32, zero_add]
  exact Finset.sum_congr rfl fun p _ => cellK_apply t n k (p 0) (p 1)

/-- So the kernel's histogram is the reference's, the reference's entries being the same counts. -/
theorem histK_eq (t : IVec S8x512x1024 32)
    (hR : ∀ (n : Fin 8) (k : Fin 19), Cert.ReferenceIdeal.ReadP.val_main_v24 (F := Ideal) t (ix2 n k) = histSpec t n k) :
    histK t = Cert.ReferenceIdeal.ReadP.val_main_v24 (F := Ideal) t := by
  funext j
  obtain ⟨a, b, rfl⟩ : ∃ a b, j = ix2 a b := ⟨j 0, j 1, eq_ix2 j⟩
  rw [histK_apply, hR]

variable (m : (ℓ : Loc nD τ sig) → Buf (Elt Ideal) ℓ)

set_option maxHeartbeats 4000000 in
/-- The weight table when the region is entered is the composed term of the host operations before it: the
    weights of the kernel's histogram of the label array, reshaped to 8 × 1 × 19. -/
theorem V_eq (c : Dev nD) :
    (Gen.V (F := Ideal) m c main_v26 : S8x1x19.Idx → EReal)
      = shapeCast S8x1x19 (weightTailK (histK (m ((c.tc : Thread nD τ).loc main_arg1)))) shapeCasts_S8x19_S8x1x19 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

/-- The weight table the region finds is the reference's, entry by entry. -/
theorem V_weight (c : Dev nD) (n : Fin 8) (k : Fin 19) :
    Gen.V (F := Ideal) m c main_v26 (ix3 n 0 k)
      = Cert.ReferenceIdeal.ReadP.val_main_v33 (F := Ideal) (m ((c.tc : Thread nD τ).loc main_arg1)) (ix2 n k) := by
  rw [ref_weight_eq, ← histK_eq _ (fun n k => Cert.ReferenceIdeal.Hist.refHist_apply _ n k)]
  exact (congrFun (V_eq m c) (ix3 n 0 k)).trans
    (shapeCast_apply _ shapeCasts_S8x19_S8x1x19 (ix3 n 0 k) (ix2 n k) (by
      rw [Shape.rowMajor_val_two, Shape.rowMajor_val_three]
      show n.val * 19 + k.val = (n.val * 1 + 0) * 19 + k.val
      omega))

end Cert.KernelIdeal.Weight

end
-- ==== Proof.RefSoftmax.lean ====
/-
  The reference's log-softmax over the 19 channels, read at an entry: the logit less the channel maximum, less the
  logarithm of the sum over the channels of the exponentials of the logits less that maximum.
-/
import proofs.«426354_j20512763806283_3_alg».proof.Proof.RefRead
import proofs.«426354_j20512763806283_3_alg».proof.Proof.Spec
import Idealize.ShloMosaic.PureOps.Ideal.Laws

set_option maxRecDepth 16384

noncomputable section

namespace Cert.ReferenceIdeal.Softmax

open Cert.ReferenceIdeal Cert.ReferenceIdeal.Gen Cert.ReferenceIdeal.ReadP Cert.WCE Idealize.ShloMosaic Idealize.ShloMosaic.ValueIdx

/-- The bit pattern of minus infinity denotes `⊥`. -/
private theorem ofBits_negInf : Ideal.ofBits .f32 0xFF800000#32 = (⊥ : EReal) := by
  simp [Ideal.ofBits, Ideal.ieee]

/-- The entry over pixel `(n, h, w)` with channel `k` put back on the channel axis is `(n, k, h, w)`. -/
private theorem lift_pixel (hr : S8x19x512x1024.Reduces [1] S8x512x1024) (n : Fin 8) (h : Fin 512) (w : Fin 1024)
    (k : Fin 19) : hr.lift (ix3 n h w) k = ix4 n k h w := by
  funext c
  exact Fin.ext (by match c with | ⟨0, _⟩ => rfl | ⟨1, _⟩ => rfl | ⟨2, _⟩ => rfl | ⟨3, _⟩ => rfl)

/-- The reduction with a maximum body over the channel axis, from minus infinity, is the pixel's channel maximum. -/
private theorem v0_pixel (x : FVec Ideal S8x19x512x1024 .f32) (n : Fin 8) (h : Fin 512) (w : Fin 1024) :
    val_main_call0_v0 (F := Ideal) x (ix3 n h w) = cmax (fun j => x (ix4 n j h w)) := by
  have hr : S8x19x512x1024.Reduces [1] S8x512x1024 := by decide
  unfold val_main_call0_v0 cmax
  rw [Host.reduce_eq_fold_single FloatOps.maximumf x _ reducesTo_S8x19x512x1024_S8x512x1024_d1 hr h_S_]
  rw [val_main_call0_cst_apply, Ideal.ofBits_def, ofBits_negInf]
  have hf : (x ∘ hr.lift (ix3 n h w)) = fun j : Fin 19 => x (ix4 n j h w) :=
    funext fun j => congrArg x (lift_pixel hr n h w j)
  exact congrArg (fun f => Finset.fold max (⊥ : EReal) f (Finset.univ : Finset (Fin 19))) hf

/-- Taking the maximum with minus infinity once more changes nothing. -/
private theorem v2_pixel (x : FVec Ideal S8x19x512x1024 .f32) (n : Fin 8) (h : Fin 512) (w : Fin 1024) :
    val_main_call0_v2 (F := Ideal) x (ix3 n h w) = cmax (fun j => x (ix4 n j h w)) := by
  rw [val_main_call0_v2_apply, val_main_call0_v1_apply, val_main_call0_cst_0_apply, v0_pixel, Ideal.ofBits_def,
    ofBits_negInf, Ideal.maximumf_def]
  exact max_eq_right bot_le

/-- The maximum broadcast back over the channels. -/
private theorem v4_entry (x : FVec Ideal S8x19x512x1024 .f32) (n : Fin 8) (k : Fin 19) (h : Fin 512) (w : Fin 1024) :
    val_main_call0_v4 (F := Ideal) x (ix4 n k h w) = cmax (fun j => x (ix4 n j h w)) := by
  rw [val_main_call0_v4_apply, val_main_call0_v3_apply]
  have hi : idx_main_call0_v3 (idx_main_call0_v4 (ix4 n k h w)) = ix3 n h w := by
    funext a; match a with | ⟨0, _⟩ => rfl | ⟨1, _⟩ => rfl | ⟨2, _⟩ => rfl
  rw [hi, v2_pixel]

/-- The logit less the channel maximum. -/
private theorem v5_entry (x : FVec Ideal S8x19x512x1024 .f32) (n : Fin 8) (k : Fin 19) (h : Fin 512) (w : Fin 1024) :
    val_main_call0_v5 (F := Ideal) x (ix4 n k h w) = x (ix4 n k h w) - cmax (fun j => x (ix4 n j h w)) := by
  rw [val_main_call0_v5_apply, v4_entry, Ideal.subf_def]

/-- The sum over the channels of the exponentials of the shifted logits. -/
private theorem v7_pixel (x : FVec Ideal S8x19x512x1024 .f32) (n : Fin 8) (h : Fin 512) (w : Fin 1024) :
    val_main_call0_v7 (F := Ideal) x (ix3 n h w) = csumexp (fun j => x (ix4 n j h w)) := by
  rw [val_main_call0_v7_apply, val_main_call0_cst_1_apply, Ideal.ofBits_def, Ideal.ofBits_zero_f32, zero_add]
  unfold csumexp
  refine Finset.sum_congr rfl fun k _ => ?_
  have hi : idx_main_call0_v7 (ix3 n h w) k = ix4 n k h w := by
    funext a; match a with | ⟨0, _⟩ => rfl | ⟨1, _⟩ => rfl | ⟨2, _⟩ => rfl | ⟨3, _⟩ => rfl
  rw [hi, val_main_call0_v6_apply, v5_entry, Ideal.hostUnary_exp_def]

/-- Its logarithm broadcast back over the channels. -/
private theorem v10_entry (x : FVec Ideal S8x19x512x1024 .f32) (n : Fin 8) (k : Fin 19) (h : Fin 512) (w : Fin 1024) :
    val_main_call0_v10 (F := Ideal) x (ix4 n k h w) = Ideal.log (csumexp (fun j => x (ix4 n j h w))) := by
  rw [val_main_call0_v10_apply, val_main_call0_v9_apply, val_main_call0_v8_apply]
  have hi : idx_main_call0_v8 (idx_main_call0_v10 (ix4 n k h w)) = ix3 n h w := by
    funext a; match a with | ⟨0, _⟩ => rfl | ⟨1, _⟩ => rfl | ⟨2, _⟩ => rfl
  rw [hi, v7_pixel, Ideal.hostUnary_log_def]

theorem ref_logsoftmax (x : FVec Ideal S8x19x512x1024 .f32) (n : Fin 8) (k : Fin 19) (h : Fin 512) (w : Fin 1024) :
    val_main_v0 (F := Ideal) x (ix4 n k h w)
      = (x (ix4 n k h w) - cmax (fun j => x (ix4 n j h w))) - Ideal.log (csumexp (fun j => x (ix4 n j h w))) := by
  rw [val_main_v0_apply, v5_entry, v10_entry, Ideal.subf_def]

end Cert.ReferenceIdeal.Softmax

end
-- ==== Proof.RefLogp.lean ====
/-
  The reference's log-probability at a pixel's label.  `log_softmax` over the 19 channels is, entry by entry, the
  logit less the channel maximum, less the logarithm of the sum over the channels of the exponentials of the
  logits less that maximum; `take_along_axis` then reads it at the label's class — on an admissible label the
  class index is in `0 … 18`, the index normalisation leaves it alone and the out-of-range fill is not taken.

  The steps, each at one pixel (n, h, w): the label with the ignore word sent to class 0 is the class word, below 19
  on an admissible label; as a signed word it is not negative, so adding 19 to negative indices leaves it alone; both
  range tests (at least 0, at most 18) hold, so their conjunction over the unit index-vector axis is one and the
  select takes the gathered value; the gather reads the operand at (n, c, h, w), c the start-index word read signed
  and clamped into `0 … 18`, which for a word below 19 is its own value; the last reshape drops the unit channel
  axis.  The log-softmax entry at (n, c, h, w) is read from the log-softmax module.
-/
import proofs.«426354_j20512763806283_3_alg».proof.Proof.RefRead
import proofs.«426354_j20512763806283_3_alg».proof.Proof.Spec
import proofs.«426354_j20512763806283_3_alg».proof.Proof.RefSoftmax
import Idealize.ShloMosaic.PureOps.Ideal.Laws
import Idealize.ShloMosaic.Lib.StableHlo.Predicate

set_option maxRecDepth 16384

noncomputable section

namespace Cert.ReferenceIdeal.Logp

open Cert.ReferenceIdeal Cert.ReferenceIdeal.Gen Cert.ReferenceIdeal.ReadP Cert.WCE Idealize.ShloMosaic Idealize.ShloMosaic.ValueIdx

/-- An admissible label's class word is below 19. -/
theorem clampT_lt {tt : BitVec 32} (hL : LabelOK tt) : (clampT tt).toNat < 19 := by
  unfold clampT
  rcases hL with h | h
  · split
    · decide
    · exact h
  · rw [if_pos h]; decide

/-- Keeping a word that differs from 255 and replacing 255 by 0 gives the class word. -/
theorem select_ne_255 (a : BitVec 32) : Scalar.select (IntOp.cmpi .ne a 255#32) a 0#32 = clampT a := by
  show (if BitVec.ofBool (a != 255#32) = 1 then a else 0#32) = if a = 255#32 then 0#32 else a
  by_cases h : a = 255#32
  · rw [h]; rfl
  · rw [if_neg h, show (a != 255#32) = true from bne_iff_ne.mpr h]; rfl

/-- The label with the ignore word replaced by class 0 is the class word. -/
theorem v36_at (t : IVec S8x512x1024 32) (i : S8x512x1024.Idx) :
    val_main_v36 (F := Ideal) t i = clampT (t i) := by
  rw [val_main_v36_apply, val_main_v35_apply, val_main_v34_apply, val_main_c_9_apply,
    val_main_call3_v1_apply, val_main_call3_v0_apply, val_main_c_10_apply]
  exact select_ne_255 (t i)

/-- Broadcast along a unit channel axis, the class word is read at the pixel. -/
theorem v37_at (t : IVec S8x512x1024 32) (n : Fin 8) (h : Fin 512) (w : Fin 1024) :
    val_main_v37 (F := Ideal) t (ix4 n (0 : Fin 1) h w) = clampT (t (ix3 n h w)) := by
  have e : idx_main_v37 (ix4 n (0 : Fin 1) h w) = ix3 n h w := by
    funext a
    match a with
    | ⟨0, _⟩ => rfl
    | ⟨1, _⟩ => rfl
    | ⟨2, _⟩ => rfl
  rw [val_main_v37_apply, e, v36_at]

/-- A class word below 19 is not negative, so the wrap-around of negative indices leaves it alone. -/
theorem call4_v4_at (t : IVec S8x512x1024 32) (n : Fin 8) (h : Fin 512) (w : Fin 1024)
    (hc : (clampT (t (ix3 n h w))).toNat < 19) :
    val_main_call4_v4 (F := Ideal) t (ix4 n (0 : Fin 1) h w) = clampT (t (ix3 n h w)) := by
  rw [val_main_call4_v4_apply, val_main_call4_v1_apply, val_main_call4_v0_apply, val_main_call4_c_apply, v37_at]
  have hn : ¬ IntOp.cmpi .slt (clampT (t (ix3 n h w))) 0#32 = 1#1 := by
    rw [StableHlo.Predicate.slt_iff_toNat (by omega) (by decide)]
    simp
  rw [eq_zero_of_ne_one hn, select_zero]

/-- The reshape that appends a unit axis reads the same word. -/
theorem call4_v5_at (t : IVec S8x512x1024 32) (n : Fin 8) (h : Fin 512) (w : Fin 1024)
    (hc : (clampT (t (ix3 n h w))).toNat < 19) :
    val_main_call4_v5 (F := Ideal) t (ix5 n (0 : Fin 1) h w (0 : Fin 1)) = clampT (t (ix3 n h w)) := by
  have hn := n.isLt
  have hh := h.isLt
  have hw := w.isLt
  have e : idx_main_call4_v5 (ix5 n (0 : Fin 1) h w (0 : Fin 1)) = ix4 n (0 : Fin 1) h w := by
    funext a
    match a with
    | ⟨0, _⟩ =>
      refine Fin.ext ?_
      show ((((n.val * 1 + 0) * 512 + h.val) * 1024 + w.val) * 1 + 0) / 524288 = n.val
      omega
    | ⟨1, _⟩ => rfl
    | ⟨2, _⟩ =>
      refine Fin.ext ?_
      show ((((n.val * 1 + 0) * 512 + h.val) * 1024 + w.val) * 1 + 0) / 1024 % 512 = h.val
      omega
    | ⟨3, _⟩ =>
      refine Fin.ext ?_
      show ((((n.val * 1 + 0) * 512 + h.val) * 1024 + w.val) * 1 + 0) % 1024 = w.val
      omega
  rw [val_main_call4_v5_apply, e, call4_v4_at t n h w hc]

/-- The one-bit conjunction is commutative and associative: a fold of it does not depend on the order. -/
instance andi1_comm : Std.Commutative (IntOp.andi : BitVec 1 → BitVec 1 → BitVec 1) :=
  ⟨fun a b => by unfold IntOp.andi; exact BitVec.and_comm a b⟩
instance andi1_assoc : Std.Associative (IntOp.andi : BitVec 1 → BitVec 1 → BitVec 1) :=
  ⟨fun a b c => by unfold IntOp.andi; exact BitVec.and_assoc a b c⟩

/-- A conjunction of ones, from one, is one. -/
theorem fold_andi_one {ι : Type} (S : Finset ι) :
    S.fold (IntOp.andi : BitVec 1 → BitVec 1 → BitVec 1) 1#1 (fun _ => 1#1) = 1#1 := by
  classical
  induction S using Finset.induction_on with
  | empty => rfl
  | insert a s ha ih => rw [Finset.fold_insert ha, ih]; rfl

/-- A class word below 19 passes both range tests: it is at least 0 and at most 18. -/
theorem call4_v11_at (t : IVec S8x512x1024 32) (n : Fin 8) (h : Fin 512) (w : Fin 1024)
    (hc : (clampT (t (ix3 n h w))).toNat < 19) :
    val_main_call4_v11 (F := Ideal) t (ix5 n (0 : Fin 1) h w (0 : Fin 1)) = 1#1 := by
  rw [val_main_call4_v11_apply, val_main_call4_v7_apply, val_main_call4_v10_apply, call4_v5_at t n h w hc,
    val_main_call4_v6_apply, val_main_call4_c_2_apply, val_main_call4_v9_apply, val_main_call4_v8_apply,
    val_main_call4_c_1_apply]
  have h18 : (18#32 : BitVec 32).toNat = 18 := rfl
  rw [(StableHlo.Predicate.sge_iff_toNat (by omega) (by decide)).2 (by simp),
    (StableHlo.Predicate.sle_iff_toNat (by omega) (by decide)).2 (by omega)]
  rfl

/-- The conjunction of the range tests over the unit index-vector axis is one. -/
theorem call4_v12_at (t : IVec S8x512x1024 32) (n : Fin 8) (h : Fin 512) (w : Fin 1024)
    (hc : (clampT (t (ix3 n h w))).toNat < 19) :
    val_main_call4_v12 (F := Ideal) t (ix4 n (0 : Fin 1) h w) = 1#1 := by
  unfold val_main_call4_v12
  have hR : S8x1x512x1024x1.Reduces [4] S8x1x512x1024 := by decide
  rw [Host.reduce_eq_fold_single IntOp.andi _ _ reducesTo_S8x1x512x1024x1_S8x1x512x1024_d4 hR h_S_]
  have hf : (val_main_call4_v11 (F := Ideal) t ∘ hR.lift (ix4 n (0 : Fin 1) h w)) = fun _ => 1#1 := by
    funext k
    have hk : k.val < 1 := k.isLt
    have e : hR.lift (ix4 n (0 : Fin 1) h w) k = ix5 n (0 : Fin 1) h w (0 : Fin 1) := by
      funext c
      match c with
      | ⟨0, _⟩ => rfl
      | ⟨1, _⟩ => rfl
      | ⟨2, _⟩ => rfl
      | ⟨3, _⟩ => rfl
      | ⟨4, _⟩ => exact Fin.ext (by show k.val = 0; omega)
    show val_main_call4_v11 (F := Ideal) t (hR.lift (ix4 n (0 : Fin 1) h w) k) = 1#1
    rw [e, call4_v11_at t n h w hc]
  rw [hf, val_main_call4_c_3_apply]
  exact fold_andi_one _

/-- The gather's dimension numbers: the sample, row and column axes are batch axes on both sides; the channel axis
    is collapsed and is the one the start index names. -/
abbrev gd := gather_S8x19x512x1024_S8x1x512x1024x1_S8x1x512x1024_n_1_023_023_1_4_1111

/-- The channel a start-index word selects: read signed and clamped into `0 … 18`. -/
def chan (v : BitVec 32) : Fin 19 := ⟨min v.toInt.toNat 18, by omega⟩

/-- A word below 19 selects the channel of its own value. -/
theorem chan_of_lt {v : BitVec 32} (hv : v.toNat < 19) : chan v = ⟨v.toNat % 19, Nat.mod_lt _ (by norm_num)⟩ := by
  refine Fin.ext ?_
  show min v.toInt.toNat 18 = v.toNat % 19
  rw [StableHlo.Predicate.toInt_eq_toNat_of_lt (by omega), Int.toNat_natCast]
  omega

/-- Every component of the start index of result position (n, 0, h, w) is read at (n, 0, h, w, 0). -/
theorem gd_siIdx (n : Fin 8) (h : Fin 512) (w : Fin 1024) (c : Fin gd.startIndexMap.length) :
    gd.siIdx (ix4 n (0 : Fin 1) h w) c = ix5 n (0 : Fin 1) h w (0 : Fin 1) := by
  have hc : c.val < 1 := c.isLt
  funext b
  match b with
  | ⟨0, _⟩ => rfl
  | ⟨1, _⟩ => rfl
  | ⟨2, _⟩ => rfl
  | ⟨3, _⟩ => rfl
  | ⟨4, _⟩ => exact Fin.ext (by show c.val = 0; omega)

/-- THE GATHER AT A PIXEL: result position (n, 0, h, w) reads the operand at (n, c, h, w), c the channel the start
    index word at (n, 0, h, w, 0) selects. -/
theorem gather_at {α : Type} (y : S8x19x512x1024.Idx → α) (idx : IVec S8x1x512x1024x1 32)
    (n : Fin 8) (h : Fin 512) (w : Fin 1024) :
    Host.gather gd y idx (ix4 n (0 : Fin 1) h w)
      = y (ix4 n (chan (idx (ix5 n (0 : Fin 1) h w (0 : Fin 1)))) h w) := by
  have hb0 : (0 : Fin 4) ∈ gd.operandBatchingDims := by decide
  have hb2 : (2 : Fin 4) ∈ gd.operandBatchingDims := by decide
  have hb3 : (3 : Fin 4) ∈ gd.operandBatchingDims := by decide
  have hb1 : (1 : Fin 4) ∉ gd.operandBatchingDims := by decide
  have hc1 : (1 : Fin 4) ∈ gd.collapsedSliceDims := by decide
  have hm1 : (1 : Fin 4) ∈ gd.startIndexMap := by decide
  unfold Host.gather
  congr 1
  funext a
  match a with
  | ⟨0, _⟩ =>
    refine Fin.ext ?_
    show gd.start (ix4 n (0 : Fin 1) h w) idx 0 + gd.batchCoord (ix4 n (0 : Fin 1) h w) 0
      + gd.offCoord (ix4 n (0 : Fin 1) h w) 0 = n.val
    rw [gd.start_batching _ _ _ hb0, gd.offCoord_eq_zero _ _ (fun hm => ((gd.mem_sKept _).mp hm).2 hb0),
      Nat.zero_add, Nat.add_zero]
    rfl
  | ⟨1, _⟩ =>
    refine Fin.ext ?_
    show gd.start (ix4 n (0 : Fin 1) h w) idx 1 + gd.batchCoord (ix4 n (0 : Fin 1) h w) 1
      + gd.offCoord (ix4 n (0 : Fin 1) h w) 1 = min (idx (ix5 n (0 : Fin 1) h w (0 : Fin 1))).toInt.toNat 18
    rw [gd.batchCoord_eq_zero _ _ hb1, gd.offCoord_eq_zero _ _ (fun hm => ((gd.mem_sKept _).mp hm).1 hc1),
      Nat.add_zero]
    unfold GatherDims.start
    rw [dif_pos hm1, gd_siIdx]
    rfl
  | ⟨2, _⟩ =>
    refine Fin.ext ?_
    show gd.start (ix4 n (0 : Fin 1) h w) idx 2 + gd.batchCoord (ix4 n (0 : Fin 1) h w) 2
      + gd.offCoord (ix4 n (0 : Fin 1) h w) 2 = h.val
    rw [gd.start_batching _ _ _ hb2, gd.offCoord_eq_zero _ _ (fun hm => ((gd.mem_sKept _).mp hm).2 hb2),
      Nat.zero_add, Nat.add_zero]
    rfl
  | ⟨3, _⟩ =>
    refine Fin.ext ?_
    show gd.start (ix4 n (0 : Fin 1) h w) idx 3 + gd.batchCoord (ix4 n (0 : Fin 1) h w) 3
      + gd.offCoord (ix4 n (0 : Fin 1) h w) 3 = w.val
    rw [gd.start_batching _ _ _ hb3, gd.offCoord_eq_zero _ _ (fun hm => ((gd.mem_sKept _).mp hm).2 hb3),
      Nat.zero_add, Nat.add_zero]
    rfl

/-- On an admissible label the gather reads the log-softmax at the label's class. -/
theorem call4_v13_at (x : FVec Ideal S8x19x512x1024 .f32) (t : IVec S8x512x1024 32) (n : Fin 8) (h : Fin 512)
    (w : Fin 1024) (hc : (clampT (t (ix3 n h w))).toNat < 19) :
    val_main_call4_v13 (F := Ideal) x t (ix4 n (0 : Fin 1) h w)
      = val_main_v0 (F := Ideal) x (ix4 n (cls (t (ix3 n h w))) h w) := by
  unfold val_main_call4_v13
  rw [gather_at, call4_v5_at t n h w hc, chan_of_lt hc]
  rfl

/-- The reference's log-probability at a pixel's label, from the log-softmax read at an index. -/
theorem ref_logp_of (x : FVec Ideal S8x19x512x1024 .f32) (t : IVec S8x512x1024 32) (n : Fin 8) (h : Fin 512) (w : Fin 1024)
    (hL : LabelOK (t (ix3 n h w)))
    (hS : ∀ (n : Fin 8) (k : Fin 19) (h : Fin 512) (w : Fin 1024),
      val_main_v0 (F := Ideal) x (ix4 n k h w)
        = (x (ix4 n k h w) - cmax (fun j => x (ix4 n j h w))) - Ideal.log (csumexp (fun j => x (ix4 n j h w)))) :
    val_main_v39 (F := Ideal) x t (ix3 n h w)
      = (x (ix4 n (cls (t (ix3 n h w))) h w) - cmax (fun k => x (ix4 n k h w)))
          - Ideal.log (csumexp (fun k => x (ix4 n k h w))) := by
  have hc := clampT_lt hL
  have hn := n.isLt
  have hh := h.isLt
  have hw := w.isLt
  have e : idx_main_v39 (ix3 n h w) = ix4 n (0 : Fin 1) h w := by
    funext a
    match a with
    | ⟨0, _⟩ =>
      refine Fin.ext ?_
      show ((n.val * 512 + h.val) * 1024 + w.val) / 524288 = n.val
      omega
    | ⟨1, _⟩ => rfl
    | ⟨2, _⟩ =>
      refine Fin.ext ?_
      show ((n.val * 512 + h.val) * 1024 + w.val) / 1024 % 512 = h.val
      omega
    | ⟨3, _⟩ =>
      refine Fin.ext ?_
      show ((n.val * 512 + h.val) * 1024 + w.val) % 1024 = w.val
      omega
  rw [val_main_v39_apply, e, val_main_v38_apply, call4_v12_at t n h w hc, select_one, call4_v13_at x t n h w hc, hS]

theorem ref_logp (x : FVec Ideal S8x19x512x1024 .f32) (t : IVec S8x512x1024 32) (n : Fin 8) (h : Fin 512) (w : Fin 1024)
    (hL : LabelOK (t (ix3 n h w))) :
    val_main_v39 (F := Ideal) x t (ix3 n h w)
      = (x (ix4 n (cls (t (ix3 n h w))) h w) - cmax (fun k => x (ix4 n k h w)))
          - Ideal.log (csumexp (fun k => x (ix4 n k h w))) :=
  ref_logp_of x t n h w hL (Softmax.ref_logsoftmax x)

end Cert.ReferenceIdeal.Logp

end
-- ==== Proof.RefWeight.lean ====
/-
  The reference's class weight at a pixel's label, and its 0/1 indicator.  The second `take_along_axis` reads the
  8 × 19 weight table at the label's class, sample by sample over the flattened 512 × 1024 pixels — on an
  admissible label the class index is in `0 … 18`, so the normalisation leaves it alone and the out-of-range fill
  is not taken.  The indicator is the 0/1 word "the label is not 255" converted to a float.
-/
import proofs.«426354_j20512763806283_3_alg».proof.Proof.RefRead
import proofs.«426354_j20512763806283_3_alg».proof.Proof.Spec
import Idealize.ShloMosaic.PureOps.Ideal.Laws
import Idealize.ShloMosaic.Lib.StableHlo.Predicate

set_option maxRecDepth 16384

noncomputable section

namespace Cert.ReferenceIdeal.Wt

open Cert.ReferenceIdeal Cert.ReferenceIdeal.Gen Cert.ReferenceIdeal.ReadP Cert.WCE Idealize.ShloMosaic Idealize.ShloMosaic.ValueIdx

/-! ### Words -/

/-- A one-bit word that is not 1 is 0. -/
theorem bit_eq_zero (c : BitVec 1) (h : ¬ c = 1#1) : c = 0#1 := by revert c; decide

/-- An admissible label's class word is below 19. -/
theorem clampT_lt (t : BitVec 32) (hL : LabelOK t) : (clampT t).toNat < 19 := by
  unfold clampT
  rcases hL with h | h
  · split
    · decide
    · exact h
  · rw [if_pos h]; decide

/-- On an admissible label the class is the class word's value. -/
theorem cls_val (t : BitVec 32) (hL : LabelOK t) : (cls t).val = (clampT t).toNat :=
  Nat.mod_eq_of_lt (clampT_lt t hL)

/-- A word below 19 is not negative read signed. -/
theorem slt_zero_of_lt (c : BitVec 32) (hc : c.toNat < 19) : IntOp.cmpi .slt c 0#32 = 0#1 := by
  apply bit_eq_zero
  rw [IntOp.cmpi_slt, StableHlo.Predicate.toInt_eq_toNat_of_lt (by omega : c.toNat < 2 ^ 31),
    show (0#32 : BitVec 32).toInt = 0 from by decide]
  omega

/-- A word below 19 passes the range test "at least 0 and at most 18, read signed". -/
theorem inrange_of_lt (c : BitVec 32) (hc : c.toNat < 19) :
    IntOp.andi (IntOp.cmpi .sge c 0#32) (IntOp.cmpi .sle c 18#32) = 1#1 := by
  rw [IntOp.andi_eq_one, IntOp.cmpi_sge, IntOp.cmpi_sle, StableHlo.Predicate.toInt_eq_toNat_of_lt (by omega : c.toNat < 2 ^ 31),
    show (0#32 : BitVec 32).toInt = 0 from by decide, show (18#32 : BitVec 32).toInt = 18 from by decide]
  omega

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a (List.mem_cons.2 (Or.inl rfl))⟩)
      (fun n hn => hl n (List.mem_cons.2 (Or.inr hn)))

/-! ### Indices -/

/-- The flat position of pixel (h, w) in a sample's 512 × 1024 pixels. -/
def pix (h : Fin 512) (w : Fin 1024) : Fin 524288 := ⟨h.val * 1024 + w.val, by have := h.isLt; have := w.isLt; omega⟩

theorem idx42 (n : Fin 8) (h : Fin 512) (w : Fin 1024) : idx_main_v42 (ix3 n h w) = ix2 n (pix h w) := by
  have hn := n.isLt; have hh := h.isLt; have hw := w.isLt
  funext a
  match a with
  | ⟨0, _⟩ => exact Fin.ext (show ((n.val * 512 + h.val) * 1024 + w.val) / 524288 = n.val by omega)
  | ⟨1, _⟩ => exact Fin.ext (show ((n.val * 512 + h.val) * 1024 + w.val) % 524288 = h.val * 1024 + w.val by omega)

theorem idx40 (n : Fin 8) (h : Fin 512) (w : Fin 1024) : idx_main_v40 (ix2 n (pix h w)) = ix3 n h w := by
  have hn := n.isLt; have hh := h.isLt; have hw := w.isLt
  funext a
  match a with
  | ⟨0, _⟩ => exact Fin.ext (show (n.val * 524288 + (h.val * 1024 + w.val)) / 524288 = n.val by omega)
  | ⟨1, _⟩ => exact Fin.ext (show (n.val * 524288 + (h.val * 1024 + w.val)) / 1024 % 512 = h.val by omega)
  | ⟨2, _⟩ => exact Fin.ext (show (n.val * 524288 + (h.val * 1024 + w.val)) % 1024 = w.val by omega)

theorem idx5 (n : Fin 8) (p : Fin 524288) (z : Fin 1) : idx_main_call5_v5 (ix3 n p z) = ix2 n p := by
  have hn := n.isLt; have hp := p.isLt; have hz := z.isLt
  funext a
  match a with
  | ⟨0, _⟩ => exact Fin.ext (show ((n.val * 524288 + p.val) * 1 + z.val) / 524288 = n.val by omega)
  | ⟨1, _⟩ => exact Fin.ext (show ((n.val * 524288 + p.val) * 1 + z.val) % 524288 = p.val by omega)

/-! ### The class word on its way to the gather -/

/-- The label with the ignore word replaced by 0 is the class word. -/
theorem v36_eq (t : IVec S8x512x1024 32) (i : S8x512x1024.Idx) : val_main_v36 (F := Ideal) t i = clampT (t i) := by
  rw [val_main_v36_apply, val_main_v35_apply, val_main_v34_apply, val_main_c_9_apply, val_main_call3_v1_apply,
    val_main_call3_v0_apply, val_main_c_10_apply]
  unfold clampT
  by_cases h : t i = 255#32
  · rw [if_pos h, h, show IntOp.cmpi .ne (255#32 : BitVec 32) 255#32 = 0#1 from by decide, select_zero]
  · rw [if_neg h, IntOp.cmpi_ne.2 h, select_one]

theorem v40_eq (t : IVec S8x512x1024 32) (n : Fin 8) (h : Fin 512) (w : Fin 1024) :
    val_main_v40 (F := Ideal) t (ix2 n (pix h w)) = clampT (t (ix3 n h w)) := by
  rw [val_main_v40_apply, idx40, v36_eq]

/-- The negative-index wrap leaves an admissible label's class word alone. -/
theorem v4_eq (t : IVec S8x512x1024 32) (n : Fin 8) (h : Fin 512) (w : Fin 1024) (hL : LabelOK (t (ix3 n h w))) :
    val_main_call5_v4 (F := Ideal) t (ix2 n (pix h w)) = clampT (t (ix3 n h w)) := by
  rw [val_main_call5_v4_apply, val_main_call5_v1_apply, val_main_call5_v0_apply, val_main_call5_c_apply, v40_eq,
    slt_zero_of_lt _ (clampT_lt _ hL), select_zero]

theorem v5_eq (t : IVec S8x512x1024 32) (n : Fin 8) (p : Fin 524288) (z : Fin 1) :
    val_main_call5_v5 (F := Ideal) t (ix3 n p z) = val_main_call5_v4 (F := Ideal) t (ix2 n p) := by
  rw [val_main_call5_v5_apply, idx5]

/-- The range test of the start index passes where the index word is below 19. -/
theorem v11_eq (t : IVec S8x512x1024 32) (n : Fin 8) (p : Fin 524288) (z : Fin 1)
    (hb : (val_main_call5_v4 (F := Ideal) t (ix2 n p)).toNat < 19) :
    val_main_call5_v11 (F := Ideal) t (ix3 n p z) = 1#1 := by
  rw [val_main_call5_v11_apply, val_main_call5_v7_apply, val_main_call5_v10_apply, v5_eq, val_main_call5_v6_apply,
    val_main_call5_c_2_apply, val_main_call5_v9_apply, val_main_call5_v8_apply, val_main_call5_c_1_apply]
  exact inrange_of_lt _ hb

/-- The in-range mask, the `and` over the index vector's one component of the range test. -/
theorem v12_eq (t : IVec S8x512x1024 32) (n : Fin 8) (p : Fin 524288)
    (hb : (val_main_call5_v4 (F := Ideal) t (ix2 n p)).toNat < 19) :
    val_main_call5_v12 (F := Ideal) t (ix2 n p) = 1#1 := by
  unfold val_main_call5_v12
  rw [Host.reduce_eq_foldl]
  refine foldl_andi_one _ _ _ rfl ?_
  intro i hi
  have hd := of_decide_eq_true (List.mem_filter.1 hi).2
  obtain ⟨a, b, c, rfl⟩ : ∃ a b c, i = ix3 a b c := ⟨_, _, _, eq_ix3 i⟩
  have e0 := congrArg Fin.val (congrFun hd ⟨0, by decide⟩)
  have e1 := congrArg Fin.val (congrFun hd ⟨1, by decide⟩)
  have ha : a = n := Fin.ext e0
  have hb' : b = p := Fin.ext e1
  subst ha; subst hb'
  exact v11_eq t _ _ c hb

/-! ### The gather -/

/-- The gather's dimension numbers: batching over the samples, the class axis collapsed and start-indexed. -/
abbrev gd := gather_S8x19_S8x524288x1_S8x524288_n_1_0_0_1_2_11

/-- On the sample axis the operand index is the result's sample. -/
theorem op0 (idx : IVec S8x524288x1 32) (n : Fin 8) (p : Fin 524288) :
    (gd.operandIdx (ix2 n p) idx (0 : Fin 2)).val = n.val := by
  show gd.start (ix2 n p) idx (0 : Fin 2) + gd.batchCoord (ix2 n p) (0 : Fin 2) + gd.offCoord (ix2 n p) (0 : Fin 2) = n.val
  rw [GatherDims.start_batching _ _ _ _ (by decide : (0 : Fin 2) ∈ gd.operandBatchingDims),
    GatherDims.offCoord_eq_zero _ _ _ (fun h => ((GatherDims.mem_sKept _ _).mp h).2 (by decide)), Nat.zero_add, Nat.add_zero]
  rfl

/-- On the class axis the operand index is the start index read signed and clamped into 0 … 18. -/
theorem op1 (idx : IVec S8x524288x1 32) (n : Fin 8) (p : Fin 524288) :
    (gd.operandIdx (ix2 n p) idx (1 : Fin 2)).val = min (idx (ix3 n p 0)).toInt.toNat 18 := by
  show gd.start (ix2 n p) idx (1 : Fin 2) + gd.batchCoord (ix2 n p) (1 : Fin 2) + gd.offCoord (ix2 n p) (1 : Fin 2) = _
  rw [GatherDims.batchCoord_eq_zero _ _ _ (by decide : (1 : Fin 2) ∉ gd.operandBatchingDims),
    GatherDims.offCoord_eq_zero _ _ _ (fun h => ((GatherDims.mem_sKept _ _).mp h).1 (by decide)), Nat.add_zero]
  unfold GatherDims.start
  rw [dif_pos (by decide : (1 : Fin 2) ∈ gd.startIndexMap)]
  have hsi : gd.siIdx (ix2 n p) ⟨List.idxOf (1 : Fin 2) gd.startIndexMap, List.idxOf_lt_length_iff.2 (by decide)⟩ = ix3 n p 0 := by
    funext b; refine Fin.ext ?_
    match b with
    | ⟨0, _⟩ => rfl
    | ⟨1, _⟩ => rfl
    | ⟨2, _⟩ => rfl
  rw [hsi]
  rfl

/-- The batched take: sample n, position p reads the operand's row n at the start index read signed and clamped
    into 0 … 18. -/
theorem gather_at {α : Type} (x : S8x19.Idx → α) (idx : IVec S8x524288x1 32) (n : Fin 8) (p : Fin 524288) (k : Fin 19)
    (hk : k.val = min (idx (ix3 n p 0)).toInt.toNat 18) :
    Host.gather gd x idx (ix2 n p) = x (ix2 n k) := by
  unfold Host.gather
  congr 1
  funext a
  match a with
  | ⟨0, _⟩ => exact Fin.ext (op0 idx n p)
  | ⟨1, _⟩ => exact Fin.ext ((op1 idx n p).trans hk.symm)

/-- The weight the reference multiplies a pixel by: its sample's class weight at the label's class. -/
theorem ref_wt (t : IVec S8x512x1024 32) (n : Fin 8) (h : Fin 512) (w : Fin 1024) (hL : LabelOK (t (ix3 n h w))) :
    val_main_v42 (F := Ideal) t (ix3 n h w) = val_main_v33 (F := Ideal) t (ix2 n (cls (t (ix3 n h w)))) := by
  have hlt := clampT_lt _ hL
  have h4 := v4_eq t n h w hL
  rw [val_main_v42_apply, idx42, val_main_v41_apply, v12_eq t n (pix h w) (by rw [h4]; exact hlt), select_one]
  unfold val_main_call5_v13
  refine gather_at _ _ n (pix h w) _ ?_
  rw [v5_eq, h4, cls_val _ hL, StableHlo.Predicate.toInt_eq_toNat_of_lt (by omega : (clampT (t (ix3 n h w))).toNat < 2 ^ 31)]
  omega

/-! ### The indicator -/

theorem uitofp_one : FloatOps.uitofp (F := Ideal) .f32 (1#1 : BitVec 1) = (1 : EReal) := by
  show (((1#1 : BitVec 1).toNat : ℝ) : EReal) = 1
  rw [show (1#1 : BitVec 1).toNat = 1 from rfl, Nat.cast_one, EReal.coe_one]

theorem uitofp_zero : FloatOps.uitofp (F := Ideal) .f32 (0#1 : BitVec 1) = (0 : EReal) := by
  show (((0#1 : BitVec 1).toNat : ℝ) : EReal) = 0
  rw [show (0#1 : BitVec 1).toNat = 0 from rfl, Nat.cast_zero, EReal.coe_zero]

theorem ref_valid (t : IVec S8x512x1024 32) (i : S8x512x1024.Idx) :
    val_main_v45 (F := Ideal) t i = validF (t i) := by
  rw [val_main_v45_apply, val_main_v35_apply, val_main_v34_apply, val_main_c_9_apply]
  unfold validF
  by_cases h : t i = 255#32
  · rw [if_pos h, h, show IntOp.cmpi .ne (255#32 : BitVec 32) 255#32 = 0#1 from by decide]
    exact uitofp_zero
  · rw [if_neg h, IntOp.cmpi_ne.2 h]
    exact uitofp_one

end Cert.ReferenceIdeal.Wt

end
-- ==== Proof.RefPixel.lean ====
/-
  The reference's per-pixel term: minus the log-probability at the label's class, times that class's weight,
  times the 0/1 indicator — `pixR` of the pixel's logits, its sample's weights and its label.
-/
import proofs.«426354_j20512763806283_3_alg».proof.Proof.RefRead
import proofs.«426354_j20512763806283_3_alg».proof.Proof.RefLogp
import proofs.«426354_j20512763806283_3_alg».proof.Proof.RefWeight
import proofs.«426354_j20512763806283_3_alg».proof.Proof.Spec

set_option maxRecDepth 16384

noncomputable section

namespace Cert.ReferenceIdeal.Pixel

open Cert.ReferenceIdeal Cert.ReferenceIdeal.Gen Cert.ReferenceIdeal.ReadP Cert.WCE Idealize.ShloMosaic Idealize.ShloMosaic.ValueIdx

theorem ref_pix (x : FVec Ideal S8x19x512x1024 .f32) (t : IVec S8x512x1024 32) (n : Fin 8) (h : Fin 512) (w : Fin 1024)
    (hL : LabelOK (t (ix3 n h w))) :
    val_main_v46 (F := Ideal) x t (ix3 n h w)
      = pixR (fun k => x (ix4 n k h w)) (fun k => val_main_v33 (F := Ideal) t (ix2 n k)) (t (ix3 n h w)) := by
  rw [val_main_v46_apply, val_main_v44_apply, val_main_v43_apply, Logp.ref_logp x t n h w hL, Wt.ref_wt t n h w hL,
    Wt.ref_valid]
  simp only [Ideal.hostNegf_def, Ideal.negf_def, Ideal.mulf_def, pixR]

end Cert.ReferenceIdeal.Pixel

end
-- ==== Proof.PixelLaw.lean ====
/-
  The two forms of one pixel's weighted negative log-likelihood agree on every admissible label:
  a running maximum from `⊥` is the maximum, a running sum from `0` is the sum, a chain of equality tests of a
  class word below 19 picks that class's entry, and `0 - y = -y` on the extended reals.
-/
import proofs.«426354_j20512763806283_3_alg».proof.Proof.Spec

noncomputable section

namespace Cert.WCE

open Idealize.ShloMosaic

/-- A left fold of a commutative, associative operation over the channels in order is the unordered fold over
    all channels: the list of channels in order is the underlying list of the full finite set. -/
private theorem foldl_finRange_eq_fold {α : Type*} (op : α → α → α) [hc : Std.Commutative op] [ha : Std.Associative op]
    (b : α) (n : ℕ) (z : Fin n → α) :
    (List.finRange n).foldl (fun a k => op a (z k)) b = (Finset.univ : Finset (Fin n)).fold op b z := by
  rw [Finset.fold, Fin.univ_def]
  show _ = Multiset.fold op b (Multiset.map z (List.finRange n : Multiset (Fin n)))
  rw [Multiset.map_coe, Multiset.coe_fold_l, List.foldl_map]

theorem kmax_eq (z : Fin 19 → EReal) : kmax z = cmax z := by
  unfold kmax cmax
  exact foldl_finRange_eq_fold max ⊥ 19 z

theorem ksumexp_eq (z : Fin 19 → EReal) : ksumexp z = csumexp z := by
  unfold ksumexp csumexp
  rw [kmax_eq, Fin.sum_univ_def, List.sum_eq_foldl, List.foldl_map]

/-- A chain of equality tests over a list, the last match winning: if the tested word matches the key of at most
    the one entry `j`, the chain yields `j`'s value when `j` is in the list and the starting value otherwise. -/
private theorem foldl_pick {ι β γ : Type*} [DecidableEq ι] [DecidableEq γ] (c : γ) (key : ι → γ) (g : ι → β) (j : ι)
    (hj : c = key j) (huniq : ∀ k, c = key k → k = j) :
    ∀ (l : List ι) (r0 : β),
      l.foldl (fun r k => if c = key k then g k else r) r0 = if j ∈ l then g j else r0 := by
  intro l
  induction l with
  | nil => intro r0; simp
  | cons x l ih =>
    intro r0
    rw [List.foldl_cons, ih]
    by_cases hjl : j ∈ l
    · simp [hjl]
    · by_cases hx : x = j
      · subst hx
        simp [hjl, hj]
      · have hne : ¬ c = key x := fun h => hx (huniq x h)
        have hjx : ¬ j = x := fun h => hx h.symm
        simp [hjl, hne, hjx]

/-- On an admissible label the class word is below 19. -/
private theorem clampT_lt (t : BitVec 32) (h : LabelOK t) : (clampT t).toNat < 19 := by
  unfold clampT
  by_cases h255 : t = 255#32
  · simp [h255]
  · rcases h with h | h
    · simpa [h255] using h
    · exact absurd h h255

theorem kpick_eq (a : Fin 19 → EReal) (t : BitVec 32) (h : LabelOK t) : kpick a t = a (cls t) := by
  have hlt := clampT_lt t h
  have hcls : (cls t).val = (clampT t).toNat := by
    show (clampT t).toNat % 19 = (clampT t).toNat
    exact Nat.mod_eq_of_lt hlt
  have hj : clampT t = BitVec.ofNat 32 (cls t).val := by
    rw [hcls, BitVec.ofNat_toNat, BitVec.setWidth_eq]
  have huniq : ∀ k : Fin 19, clampT t = BitVec.ofNat 32 k.val → k = cls t := by
    intro k hk
    apply Fin.ext
    rw [hcls, hk, BitVec.toNat_ofNat]
    have := k.isLt
    omega
  unfold kpick
  rw [foldl_pick (clampT t) (fun k : Fin 19 => BitVec.ofNat 32 k.val) a (cls t) hj huniq]
  simp

theorem pixK_eq_pixR (z w : Fin 19 → EReal) (t : BitVec 32) (h : LabelOK t) : pixK z w t = pixR z w t := by
  unfold pixK pixR
  rw [kpick_eq z t h, kpick_eq w t h, kmax_eq, ksumexp_eq, zero_sub]

end Cert.WCE

end
-- ==== Proof.SumBlocks.lean ====
/-
  Two regroupings of finite sums of extended reals (addition there is commutative and associative, so no
  finiteness is needed): the sum over all pixels is the sum over the 32 grid points of the sum over each point's
  128 × 1024 block; and an array that is zero away from the first entry of each of its 32 leading slices sums to
  the sum of those first entries.
-/
import proofs.«426354_j20512763806283_3_alg».proof.Proof.Grid

noncomputable section

namespace Cert.WCE

open Idealize.ShloMosaic Idealize.ShloMosaic.ValueIdx

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Grid point `b` and a row `r` of its block name sample `b / 4` and row `(b % 4) * 128 + r`; conversely sample
    `n` and row `r` lie in grid point `4 n + r / 128` at block row `r % 128`. -/
private def blkEquiv : Fin 32 × Fin 128 ≃ Fin 8 × Fin 512 where
  toFun p := (blkN p.1, blkRow p.1 p.2)
  invFun p := (⟨4 * p.1.val + p.2.val / 128, by have := p.1.isLt; have := p.2.isLt; omega⟩,
               ⟨p.2.val % 128, Nat.mod_lt _ (by norm_num)⟩)
  left_inv p := by
    rcases p with ⟨b, r⟩
    have hb := b.isLt
    have hr := r.isLt
    refine Prod.ext (Fin.ext ?_) (Fin.ext ?_)
    · show 4 * (b.val / 4) + ((b.val % 4) * 128 + r.val) / 128 = b.val
      omega
    · show ((b.val % 4) * 128 + r.val) % 128 = r.val
      omega
  right_inv p := by
    rcases p with ⟨n, r⟩
    have hn := n.isLt
    have hr := r.isLt
    refine Prod.ext (Fin.ext ?_) (Fin.ext ?_)
    · show (4 * n.val + r.val / 128) / 4 = n.val
      omega
    · show ((4 * n.val + r.val / 128) % 4) * 128 + r.val % 128 = r.val
      omega

/-- A double sum over samples and rows, regrouped by grid point and block row. -/
private theorem sum_blk {M : Type*} [AddCommMonoid M] (F : Fin 8 → Fin 512 → M) :
    ∑ n : Fin 8, ∑ r : Fin 512, F n r = ∑ b : Fin 32, ∑ r : Fin 128, F (blkN b) (blkRow b r) :=
  calc ∑ n : Fin 8, ∑ r : Fin 512, F n r
      = ∑ p : Fin 8 × Fin 512, F p.1 p.2 := (Fintype.sum_prod_type' F).symm
    _ = ∑ p : Fin 32 × Fin 128, F (blkEquiv p).1 (blkEquiv p).2 :=
        (Equiv.sum_comp blkEquiv (fun p : Fin 8 × Fin 512 => F p.1 p.2)).symm
    _ = ∑ b : Fin 32, ∑ r : Fin 128, F (blkN b) (blkRow b r) :=
        Fintype.sum_prod_type' (fun (b : Fin 32) (r : Fin 128) => F (blkN b) (blkRow b r))

theorem sum_pixels_blocks (f : (⟨3, ![8, 512, 1024]⟩ : Shape).Idx → EReal) :
    ∑ i, f i = ∑ b : Fin 32, ∑ q : (⟨2, ![128, 1024]⟩ : Shape).Idx, f (ix3 (blkN b) (blkRow b (q 0)) (q 1)) := by
  have hR : ∀ b : Fin 32, ∑ q : (⟨2, ![128, 1024]⟩ : Shape).Idx, f (ix3 (blkN b) (blkRow b (q 0)) (q 1))
      = ∑ r : Fin 128, ∑ c : Fin 1024, f (ix3 (blkN b) (blkRow b r) c) :=
    fun b => sum_idx2 (fun q : (⟨2, ![128, 1024]⟩ : Shape).Idx => f (ix3 (blkN b) (blkRow b (q 0)) (q 1)))
  rw [sum_idx3, Finset.sum_congr rfl (fun b _ => hR b)]
  exact sum_blk (fun n r => ∑ c : Fin 1024, f (ix3 n r c))

/-- A 8 × 128 slice that is `x` at its first entry and zero elsewhere sums to `x`. -/
private theorem sum_first {M : Type*} [AddCommMonoid M] (x : M) :
    ∑ b : Fin 8, ∑ c : Fin 128, (if b.val = 0 ∧ c.val = 0 then x else 0) = x := by
  rw [Finset.sum_eq_single (0 : Fin 8)]
  · rw [Finset.sum_eq_single (0 : Fin 128)]
    · simp
    · intro c _ hc
      have : ¬ c.val = 0 := fun h => hc (Fin.ext h)
      simp [this]
    · intro h; exact absurd (Finset.mem_univ _) h
  · intro b _ hb
    have : ¬ b.val = 0 := fun h => hb (Fin.ext h)
    simp [this]
  · intro h; exact absurd (Finset.mem_univ _) h

theorem sum_partials (g : Fin 32 → EReal) :
    ∑ j : (⟨3, ![32, 8, 128]⟩ : Shape).Idx, (if (j 1).val = 0 ∧ (j 2).val = 0 then g (j 0) else 0) = ∑ b : Fin 32, g b := by
  rw [sum_idx3]
  refine Finset.sum_congr rfl fun a _ => ?_
  exact sum_first (g a)

end Cert.WCE

end
-- ==== Proof.Totals.lean ====
/-
  The total of an array of per-grid-point partial sums is the total over all pixels: if slice `b` of a
  32 × 8 × 128 array holds, at its first entry, the sum over grid point `b`'s 128 × 1024 block of a per-pixel
  function, and zero elsewhere, and that function at a block's pixel is `f` at the pixel's place in the whole
  8 × 512 × 1024 array, then the array sums to the sum of `f` over every pixel.
-/
import proofs.«426354_j20512763806283_3_alg».proof.Proof.SumBlocks

noncomputable section

namespace Cert.WCE

open Idealize.ShloMosaic Idealize.ShloMosaic.ValueIdx

theorem total_of_blocks (A : (⟨3, ![32, 8, 128]⟩ : Shape).Idx → EReal) (f : (⟨3, ![8, 512, 1024]⟩ : Shape).Idx → EReal)
    (g : Fin 32 → (⟨2, ![128, 1024]⟩ : Shape).Idx → EReal)
    (hA : ∀ (b : Fin 32) (y1 : Fin 8) (y2 : Fin 128),
      A (ix3 b y1 y2) = if y1.val = 0 ∧ y2.val = 0 then ∑ q : (⟨2, ![128, 1024]⟩ : Shape).Idx, g b q else 0)
    (hg : ∀ (b : Fin 32) (q : (⟨2, ![128, 1024]⟩ : Shape).Idx), g b q = f (ix3 (blkN b) (blkRow b (q 0)) (q 1))) :
    ∑ j, A j = ∑ i, f i := by
  have hj : ∀ j : (⟨3, ![32, 8, 128]⟩ : Shape).Idx,
      A j = if (j 1).val = 0 ∧ (j 2).val = 0 then (fun b : Fin 32 => ∑ q, g b q) (j 0) else 0 := by
    intro j
    exact (congrArg A (eq_ix3 j)).trans (hA (j 0) (j 1) (j 2))
  calc ∑ j, A j
      = ∑ j : (⟨3, ![32, 8, 128]⟩ : Shape).Idx,
          (if (j 1).val = 0 ∧ (j 2).val = 0 then (fun b : Fin 32 => ∑ q, g b q) (j 0) else 0) :=
        Finset.sum_congr rfl fun j _ => hj j
    _ = ∑ b : Fin 32, ∑ q, g b q := sum_partials (fun b : Fin 32 => ∑ q, g b q)
    _ = ∑ b : Fin 32, ∑ q : (⟨2, ![128, 1024]⟩ : Shape).Idx, f (ix3 (blkN b) (blkRow b (q 0)) (q 1)) :=
        Finset.sum_congr rfl fun b _ => Finset.sum_congr rfl fun q _ => hg b q
    _ = ∑ i, f i := (sum_pixels_blocks f).symm

end Cert.WCE

end
-- ==== Proof.Final.lean ====
/-
  The idealized kernel's result is the reference's result on the same arguments, on admissible labels.

  The kernel's result is the quotient of the total of the numerators' array by the larger of the total of the
  denominators' array and one; the reference's is the quotient of the sum over all pixels of the per-pixel term by
  the larger of the sum over all pixels of the indicator and one.  Slice `b` of each kernel array holds, at its
  first entry, grid point `b`'s sum over its block and zero elsewhere; a block's pixel is a pixel of the whole
  array; and at a pixel the kernel's term (`pixK` of the pixel's logits, the sample's weights as the host
  operations before the region left them, and the label) is the reference's term (`pixR`, with the reference's
  weight table) — the two weight tables being equal entry by entry and the two forms agreeing on admissible
  labels.  So the two totals are equal, and with them the quotients.
-/
import proofs.«426354_j20512763806283_3_alg».proof.Proof.KernelRun
import proofs.«426354_j20512763806283_3_alg».proof.Proof.KernelBlock
import proofs.«426354_j20512763806283_3_alg».proof.Proof.WeightK
import proofs.«426354_j20512763806283_3_alg».proof.Proof.RefPixel
import proofs.«426354_j20512763806283_3_alg».proof.Proof.RefWeight
import proofs.«426354_j20512763806283_3_alg».proof.Proof.PixelLaw
import proofs.«426354_j20512763806283_3_alg».proof.Proof.Totals
import Idealize.ShloMosaic.PureOps.Ideal.Laws

set_option maxRecDepth 16384

noncomputable section

namespace Cert.Proof.Final

open Idealize.ShloMosaic Idealize.ShloMosaic.TcCoe Idealize.SL.Sem Idealize.ShloMosaic.ValueIdx Cert.WCE
open Cert.KernelIdeal.RunValue Cert.KernelIdeal.Block Cert.KernelIdeal.Weight

variable (m : (ℓ : Loc Cert.KernelIdeal.nD Cert.KernelIdeal.τ Cert.KernelIdeal.sig) → Buf (Elt Ideal) ℓ)

/-- The logits the kernel is launched with. -/
abbrev X (c : Dev Cert.KernelIdeal.nD) : FVec Ideal Cert.ReferenceIdeal.S8x19x512x1024 .f32 :=
  m ((c.tc : Thread Cert.KernelIdeal.nD Cert.KernelIdeal.τ).loc Cert.KernelIdeal.main_arg0)
/-- The labels the kernel is launched with. -/
abbrev T (c : Dev Cert.KernelIdeal.nD) : IVec Cert.ReferenceIdeal.S8x512x1024 32 :=
  m ((c.tc : Thread Cert.KernelIdeal.nD Cert.KernelIdeal.τ).loc Cert.KernelIdeal.main_arg1)

/-- At a pixel of grid point `b`'s block the kernel's term is the reference's term at that pixel of the whole array. -/
theorem pixel_eq (c : Dev Cert.KernelIdeal.nD) (hL : ∀ i, LabelOK (T m c i)) (b : Fin 32) (r : Fin 128) (w : Fin 1024) :
    pixK (fun k => Cert.KernelIdeal.Gen.iblk m c 0 (pt b) (ix4 0 k r w))
        (fun k => Cert.KernelIdeal.Gen.iblk m c 2 (pt b) (ix3 0 0 k))
        (Cert.KernelIdeal.Gen.iblk m c 1 (pt b) (ix3 0 r w))
      = Cert.ReferenceIdeal.ReadP.val_main_v46 (F := Ideal) (X m c) (T m c) (ix3 (blkN b) (blkRow b r) w) := by
  have h0 : (fun k => Cert.KernelIdeal.Gen.iblk m c 0 (pt b) (ix4 0 k r w))
      = fun k => X m c (ix4 (blkN b) k (blkRow b r) w) := funext fun k => iblk0_apply m c b k r w
  have h2 : (fun k => Cert.KernelIdeal.Gen.iblk m c 2 (pt b) (ix3 0 0 k))
      = fun k => Cert.ReferenceIdeal.ReadP.val_main_v33 (F := Ideal) (T m c) (ix2 (blkN b) k) :=
    funext fun k => (iblk2_apply m c b k).trans (V_weight m c (blkN b) k)
  rw [h0, h2, iblk1_apply m c b r w, pixK_eq_pixR _ _ _ (hL _)]
  exact (Cert.ReferenceIdeal.Pixel.ref_pix (X m c) (T m c) (blkN b) (blkRow b r) w (hL _)).symm

/-- The numerators' array sums to the reference's sum of per-pixel terms. -/
theorem num_total (c : Dev Cert.KernelIdeal.nD) (hL : ∀ i, LabelOK (T m c i)) :
    ∑ j, numArr m c j = ∑ i, Cert.ReferenceIdeal.ReadP.val_main_v46 (F := Ideal) (X m c) (T m c) i :=
  total_of_blocks (numArr m c) (Cert.ReferenceIdeal.ReadP.val_main_v46 (F := Ideal) (X m c) (T m c))
    (fun b q => pixK (fun k => Cert.KernelIdeal.Gen.iblk m c 0 (pt b) (ix4 0 k (q 0) (q 1)))
        (fun k => Cert.KernelIdeal.Gen.iblk m c 2 (pt b) (ix3 0 0 k))
        (Cert.KernelIdeal.Gen.iblk m c 1 (pt b) (ix3 0 (q 0) (q 1))))
    (fun b y1 y2 => (numArr_apply m c b y1 y2).trans (out0_3_apply _ _ _ _))
    (fun b q => pixel_eq m c hL b (q 0) (q 1))

/-- The denominators' array sums to the reference's count of pixels that are not ignored. -/
theorem den_total (c : Dev Cert.KernelIdeal.nD) :
    ∑ j, denArr m c j = ∑ i, Cert.ReferenceIdeal.ReadP.val_main_v45 (F := Ideal) (T m c) i :=
  total_of_blocks (denArr m c) (Cert.ReferenceIdeal.ReadP.val_main_v45 (F := Ideal) (T m c))
    (fun b q => validF (Cert.KernelIdeal.Gen.iblk m c 1 (pt b) (ix3 0 (q 0) (q 1))))
    (fun b y1 y2 => (denArr_apply m c b y1 y2).trans (out0_4_apply _ _ _ _))
    (fun b q => by rw [iblk1_apply m c b (q 0) (q 1), Cert.ReferenceIdeal.Wt.ref_valid])

/-- The host's sum of a whole 32 × 8 × 128 array from the zero constant, at its one index: zero plus the sum of
    every entry. -/
theorem hostSum_total (y : FVec Ideal Cert.KernelIdeal.S32x8x128 .f32) (i : Cert.KernelIdeal.S_.Idx) :
    Host.reduceAdd y (constant Cert.KernelIdeal.S_ .f32 0x00000000#32)
        Cert.KernelIdeal.Gen.reducesTo_S32x8x128_S_d0_1_2 Cert.KernelIdeal.Gen.h_S_ i
      = Ideal.ofBits .f32 0x00000000#32 + ∑ j, y j := by
  simp only [Host.reduceAdd, Ideal.hostReduceAdd_def]
  exact Ideal.hostReduceAdd_total Cert.KernelIdeal.Gen.reducesTo_S32x8x128_S_d0_1_2 (fun b => b.elim0) y _ i

/-- The kernel's quotient of two arrays' totals, for any two arrays whose totals are the sums of two functions over
    the pixels. -/
theorem quot_of_totals (yn yd : FVec Ideal Cert.KernelIdeal.S32x8x128 .f32)
    (fn fd : Cert.ReferenceIdeal.S8x512x1024.Idx → EReal) (hn : ∑ j, yn j = ∑ i, fn i) (hd : ∑ j, yd j = ∑ i, fd i)
    (i : Cert.KernelIdeal.S_.Idx) :
    Host.divf (Host.reduceAdd yn (constant Cert.KernelIdeal.S_ .f32 0x00000000#32)
          Cert.KernelIdeal.Gen.reducesTo_S32x8x128_S_d0_1_2 Cert.KernelIdeal.Gen.h_S_)
        (maximumf (Host.reduceAdd yd (constant Cert.KernelIdeal.S_ .f32 0x00000000#32)
            Cert.KernelIdeal.Gen.reducesTo_S32x8x128_S_d0_1_2 Cert.KernelIdeal.Gen.h_S_)
          (constant Cert.KernelIdeal.S_ .f32 0x3F800000#32)) i
      = FloatOps.hostDivf (Ideal.ofBits .f32 0x00000000#32 + ∑ i, fn i)
          (FloatOps.maximumf (Ideal.ofBits .f32 0x00000000#32 + ∑ i, fd i) (Ideal.ofBits .f32 0x3F800000#32)) := by
  rw [← hn, ← hd, ← hostSum_total yn i, ← hostSum_total yd i]
  rfl

/-- The reference's last stage at its one index, over its two sums. -/
theorem ref_quot (x : FVec Ideal Cert.ReferenceIdeal.S8x19x512x1024 .f32) (t : IVec Cert.ReferenceIdeal.S8x512x1024 32)
    (i : Cert.ReferenceIdeal.S_.Idx) :
    Cert.ReferenceIdeal.ReadP.val_main_v50 (F := Ideal) x t i
      = FloatOps.hostDivf (Ideal.ofBits .f32 0x00000000#32 + ∑ j, Cert.ReferenceIdeal.ReadP.val_main_v46 (F := Ideal) x t j)
          (FloatOps.maximumf (Ideal.ofBits .f32 0x00000000#32 + ∑ j, Cert.ReferenceIdeal.ReadP.val_main_v45 (F := Ideal) t j)
            (Ideal.ofBits .f32 0x3F800000#32)) := by
  rw [Cert.ReferenceIdeal.ReadP.val_main_v50_apply, Cert.ReferenceIdeal.ReadP.val_main_v49_apply,
    Cert.ReferenceIdeal.ReadP.val_main_v47_apply, Cert.ReferenceIdeal.ReadP.val_main_v48_apply,
    Cert.ReferenceIdeal.ReadP.val_main_cst_11_apply, Cert.ReferenceIdeal.ReadP.val_main_cst_12_apply,
    Cert.ReferenceIdeal.ReadP.val_main_cst_13_apply]
  rfl

/-- The kernel's result term is the reference's result term of the same arguments. -/
theorem result_eq (c : Dev Cert.KernelIdeal.nD) (hL : ∀ i, LabelOK (T m c i)) :
    Host.divf (Host.reduceAdd (numArr m c) (constant Cert.KernelIdeal.S_ .f32 0x00000000#32)
          Cert.KernelIdeal.Gen.reducesTo_S32x8x128_S_d0_1_2 Cert.KernelIdeal.Gen.h_S_)
        (maximumf (Host.reduceAdd (denArr m c) (constant Cert.KernelIdeal.S_ .f32 0x00000000#32)
            Cert.KernelIdeal.Gen.reducesTo_S32x8x128_S_d0_1_2 Cert.KernelIdeal.Gen.h_S_)
          (constant Cert.KernelIdeal.S_ .f32 0x3F800000#32))
      = Cert.ReferenceIdeal.ReadP.val_main_v50 (F := Ideal) (X m c) (T m c) :=
  funext fun i => (quot_of_totals (numArr m c) (denArr m c) _ _ (num_total m c hL) (den_total m c) i).trans
    (ref_quot (X m c) (T m c) i).symm

end Cert.Proof.Final

end
-- ==== Proof.lean ====
/-
  Weighted cross-entropy over 19 classes with an ignore label: a tiled kernel against its array-level reference,
  equal over the extended reals on finite logits and admissible labels.

  For logits `x : [8, 19, 512, 1024]` and integer labels `t : [8, 512, 1024]` both programs first count, per
  sample, the pixels of each class (labels outside `0 … 18` counted nowhere), replace an empty class's count by one,
  and take as class weight the sample's total count divided by the class's count.  A pixel then contributes minus
  its log-softmax at its label's class, times that class's weight, times the indicator that the label is not the
  ignore label 255 (which is read as class 0); the loss is the sum of the contributions divided by the larger of the
  number of pixels that are not ignored and one.

  The reference does this on whole arrays (a scatter-add for the counts, two index reads for the label's class).
  The kernel computes the counts by comparing every label with every class id, and runs one grid point per block of
  128 rows of one sample: a running maximum and a running sum of exponentials over the 19 channels, the label's logit
  and weight picked by 19 equality tests, the block's two partial sums written to the first entry of its own slice of
  two partial arrays, which the host then sums.  On a label that is neither a class id nor 255 the two differ (an
  index read wraps a negative label and fills an overlarge one, the equality tests match nothing), which is why the
  precondition asks every label to be a class id or 255.  Under it: the two count tables are equal entry by entry
  (Proof/Hist.lean, Proof/WeightK.lean), hence the weights; at each pixel the channel-by-channel form and the
  array form agree (Proof/PixelLaw.lean over Proof/KernelBlock.lean and Proof/RefPixel.lean); the partial arrays'
  totals are the sums over all pixels (Proof/Totals.lean over Proof/KernelRun.lean); so the quotients are equal
  (Proof/Final.lean).  Sums of extended reals are regrouped freely (addition there is commutative and
  associative), so finiteness of the logits is not used.

  The three frames are the generated runs; the kernel's idealization rewrote nothing, so `preserves` is trivial.
-/
import proofs.«426354_j20512763806283_3_alg».proof.Defs
import proofs.«426354_j20512763806283_3_alg».proof.Proof.Gen.Kernel
import proofs.«426354_j20512763806283_3_alg».proof.Proof.Gen.Kernel.Skeleton
import proofs.«426354_j20512763806283_3_alg».proof.Proof.Gen.Kernel.Launch
import proofs.«426354_j20512763806283_3_alg».proof.Proof.Gen.Kernel.Points
import proofs.«426354_j20512763806283_3_alg».proof.Proof.Gen.Kernel.Frame
import proofs.«426354_j20512763806283_3_alg».proof.Proof.Gen.KernelIdeal
import proofs.«426354_j20512763806283_3_alg».proof.Proof.Gen.KernelIdeal.Skeleton
import proofs.«426354_j20512763806283_3_alg».proof.Proof.Gen.KernelIdeal.Launch
import proofs.«426354_j20512763806283_3_alg».proof.Proof.Gen.KernelIdeal.Points
import proofs.«426354_j20512763806283_3_alg».proof.Proof.Gen.KernelIdeal.Frame
import proofs.«426354_j20512763806283_3_alg».proof.Proof.Gen.ReferenceIdeal
import proofs.«426354_j20512763806283_3_alg».proof.Proof.Gen.Pre_finite_inputs
import proofs.«426354_j20512763806283_3_alg».proof.Proof.RefRun
import proofs.«426354_j20512763806283_3_alg».proof.Proof.RefRead
import proofs.«426354_j20512763806283_3_alg».proof.Proof.RefReadEq
import proofs.«426354_j20512763806283_3_alg».proof.Proof.Labels
import proofs.«426354_j20512763806283_3_alg».proof.Proof.Final
import Idealize.ShloMosaic.Adequacy
import Idealize.ShloMosaic.Init

noncomputable section

namespace Cert.Proof

open Idealize.ShloMosaic Idealize.SL.Sem

/-- The word-level kernel runs and leaves its arguments as they were: the generated frame. -/
theorem frame_p : Cert.frame_Kernel := fun m ρ _ => Cert.Kernel.Gen.frame m ρ

/-- The idealized kernel likewise. -/
theorem frame_pi : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the reference's loss of the launched logits and labels. -/
theorem algebraic : Cert.algebraic_KernelIdeal_ReferenceIdeal := by
  intro m ρ m' ρ' hpre hagree
  refine ⟨fun c => Cert.ReferenceIdeal.ReadP.val_main_v50 (F := Ideal) (Final.X m c) (Final.T m c), ?_, ?_⟩
  · exact (θ_run Cert.KernelIdeal.defs _ _).mono
      (fun _ h c => ⟨(h c).1.trans (Final.result_eq m c fun i => Cert.KernelIdeal.Labels.labelOK_of_pre m hpre c i), (h c).2⟩)
      (Cert.KernelIdeal.RunValue.run m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v50_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
